-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128x1 .f32) (main_arg11 : FVec F S1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg10
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x1 .f32) (main_arg11 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x1 .f32) (main_arg11 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S1x1 : Shape := ⟨2, ![1, 1]⟩

abbrev nBuf : Space → Nat
  | .hbm => 116
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S100000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S1x1600000, .i32⟩
  | .hbm, ⟨17, _⟩ => ⟨S1600000, .i32⟩
  | .hbm, ⟨18, _⟩ => ⟨S1700000, .i32⟩
  | .hbm, ⟨19, _⟩ => ⟨S_, .f32⟩
  | .hbm, ⟨20, _⟩ => ⟨S1700000, .f32⟩
  | .hbm, ⟨21, _⟩ => ⟨S_, .f32⟩
  | .hbm, ⟨22, _⟩ => ⟨S100000, .f32⟩
  | .hbm, ⟨23, _⟩ => ⟨S1700000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S1700000x1, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S1700000x1, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x128, .f32⟩
  | .hbm, ⟨77, _⟩ => ⟨S1700000x128, .f32⟩
  | .hbm, ⟨78, _⟩ => ⟨S1700000x128, .f32⟩
  | .hbm, ⟨79, _⟩ => ⟨S_, .f32⟩
  | .hbm, ⟨80, _⟩ => ⟨S100000x128, .f32⟩
  | .hbm, ⟨81, _⟩ => ⟨S1700000x1, .i32⟩
  | .hbm, ⟨82, _⟩ => ⟨S100000x128, .f32⟩
  | .hbm, ⟨83, _⟩ => ⟨S1x128, .f32⟩
  | .hbm, ⟨84, _⟩ => ⟨S100000x128, .f32⟩
  | .hbm, ⟨85, _⟩ => ⟨S1700000x1, .f32⟩
  | .hbm, ⟨86, _⟩ => ⟨S_, .i32⟩
  | .hbm, ⟨87, _⟩ => ⟨S1700000, .i32⟩
  | .hbm, ⟨88, _⟩ => ⟨S1700000, .i1⟩
  | .hbm, ⟨89, _⟩ => ⟨S_, .i32⟩
  | .hbm, ⟨90, _⟩ => ⟨S1700000, .i32⟩
  | .hbm, ⟨91, _⟩ => ⟨S1700000, .i32⟩
  | .hbm, ⟨92, _⟩ => ⟨S1700000, .i32⟩
  | .hbm, ⟨93, _⟩ => ⟨S1700000x1, .i32⟩
  | .hbm, ⟨94, _⟩ => ⟨S1700000x128, .f32⟩
  | .hbm, ⟨95, _⟩ => ⟨S1700000x128, .f32⟩
  | .hbm, ⟨96, _⟩ => ⟨S1700000x128, .f32⟩
  | .hbm, ⟨97, _⟩ => ⟨S_, .f32⟩
  | .hbm, ⟨98, _⟩ => ⟨S100000x128, .f32⟩
  | .hbm, ⟨99, _⟩ => ⟨S1700000x1, .i32⟩
  | .hbm, ⟨100, _⟩ => ⟨S100000x128, .f32⟩
  | .hbm, ⟨101, _⟩ => ⟨S1x128, .f32⟩
  | .hbm, ⟨102, _⟩ => ⟨S_, .f32⟩
  | .hbm, ⟨103, _⟩ => ⟨S1x128, .f32⟩
  | .hbm, ⟨104, _⟩ => ⟨S1x128, .f32⟩
  | .hbm, ⟨105, _⟩ => ⟨S1x128, .f32⟩
  | .hbm, ⟨106, _⟩ => ⟨S1x128, .f32⟩
  | .hbm, ⟨107, _⟩ => ⟨S1x128, .f32⟩
  | .hbm, ⟨108, _⟩ => ⟨S1x128, .f32⟩
  | .hbm, ⟨109, _⟩ => ⟨S1x128, .f32⟩
  | .hbm, ⟨110, _⟩ => ⟨S_, .f32⟩
  | .hbm, ⟨111, _⟩ => ⟨S1x128, .f32⟩
  | .hbm, ⟨112, _⟩ => ⟨S1x128, .f32⟩
  | .hbm, ⟨113, _⟩ => ⟨S1x1, .f32⟩
  | .hbm, ⟨114, _⟩ => ⟨S1x1, .f32⟩
  | .hbm, ⟨115, _⟩ => ⟨S1x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S1x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_8 : Ref sig .tc := ⟨.hbm, 68, rfl⟩
abbrev main_v46 : Ref sig .tc := ⟨.hbm, 69, rfl⟩
abbrev main_v47 : Ref sig .tc := ⟨.hbm, 70, rfl⟩
abbrev main_c_9 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_10 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_11 : Ref sig .tc := ⟨.hbm, 86, rfl⟩
abbrev main_v61 : Ref sig .tc := ⟨.hbm, 87, rfl⟩
abbrev main_v62 : Ref sig .tc := ⟨.hbm, 88, rfl⟩
abbrev main_c_12 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_13 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_14 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_call0_cst : Ref sig .tc := ⟨.hbm, 110, rfl⟩
abbrev main_call0_v0 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def k3_cond2 (i : grid3.Coords) : BitVec 1 :=
  let arg0 : BitVec 32 := BitVec.ofNat 32 (i 0).val
  let c19_i32 : BitVec 32 := 19#32
  let v12 : BitVec 1 := Scalar.cmpi .eq arg0 c19_i32
  let v13 : BitVec 32 := Scalar.extui v12
  let c0_i32_6 : BitVec 32 := 0#32
  let v14 : BitVec 1 := Scalar.cmpi .ne v13 c0_i32_6
  v14

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  bcast_S128_S1x128_1 : S128.BroadcastsInDim S1x128 (![1] : Fin 1 → Fin S1x128.rank)
  bcast_S1_S1x1_1 : S1.BroadcastsInDim S1x1 (![1] : Fin 1 → Fin S1x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S1x128_S128x128_S1x128_1_0_0_1_n_n_wf : DotDims.WF S1x128 S128x128 S1x128 [1] [0] [0] [1] [] []
  dot_S1x128_S128x1_S1x1_1_0_0_1_n_n_wf : DotDims.WF S1x128 S128x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S1x128_S128x1_S1x1_1_0_0_1_n_n : DotDims S1x128 S128x1 S1x1 where
  lhsContracting := [1]
  rhsContracting := [0]
  lhsNonContracting := [0]
  rhsNonContracting := [1]
  lhsBatch := []
  rhsBatch := []
  wf := dot_S1x128_S128x1_S1x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v72) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v73) S1x128.size cc3_transform_1 reads3_1 true true 1 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev idle3 : Fin 2 → grid3.Coords → Bool := fun | 0 => fun _ => false | 1 => fun i => !(k3_cond2 i == 1#1) | ⟨_ + 2, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S1x1 : Shape := ⟨2, ![1, 1]⟩

abbrev nBuf : Space → Nat
  | .hbm => 129
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x1, .f32⟩
  | 11 => ⟨S1, .f32⟩
  | 12 => ⟨S100000, .i32⟩
  | 13 => ⟨S1x1600000, .i32⟩
  | 14 => ⟨S1600000, .i32⟩
  | 15 => ⟨S1700000, .i32⟩
  | 16 => ⟨S1x1600000, .i32⟩
  | 17 => ⟨S1600000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S100000x128, .f32⟩
  | 49 => ⟨S1700000x1, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x128, .f32⟩
  | 59 => ⟨S1700000x128, .f32⟩
  | 60 => ⟨S1700000x128, .f32⟩
  | 61 => ⟨S_, .f32⟩
  | 62 => ⟨S100000x128, .f32⟩
  | 63 => ⟨S1700000x1, .i32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000x128, .f32⟩
  | 72 => ⟨S1700000x1, .f32⟩
  | 73 => ⟨S_, .i32⟩
  | 74 => ⟨S1700000, .i32⟩
  | 75 => ⟨S1700000, .i1⟩
  | 76 => ⟨S_, .i32⟩
  | 77 => ⟨S1700000, .i32⟩
  | 78 => ⟨S1700000, .i32⟩
  | 79 => ⟨S1700000, .i32⟩
  | 80 => ⟨S1700000x1, .i32⟩
  | 81 => ⟨S1700000x128, .f32⟩
  | 82 => ⟨S1700000x128, .f32⟩
  | 83 => ⟨S1700000x128, .f32⟩
  | 84 => ⟨S_, .f32⟩
  | 85 => ⟨S100000x128, .f32⟩
  | 86 => ⟨S1700000x1, .i32⟩
  | 87 => ⟨S100000x128, .f32⟩
  | 88 => ⟨S1x128, .f32⟩
  | 89 => ⟨S100000x128, .f32⟩
  | 90 => ⟨S100000x128, .f32⟩
  | 91 => ⟨S_, .f32⟩
  | 92 => ⟨S100000x128, .f32⟩
  | 93 => ⟨S100000x128, .f32⟩
  | 94 => ⟨S100000x128, .f32⟩
  | 95 => ⟨S1700000x1, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000x128, .f32⟩
  | 105 => ⟨S1700000x128, .f32⟩
  | 106 => ⟨S1700000x128, .f32⟩
  | 107 => ⟨S_, .f32⟩
  | 108 => ⟨S100000x128, .f32⟩
  | 109 => ⟨S1700000x1, .i32⟩
  | 110 => ⟨S100000x128, .f32⟩
  | 111 => ⟨S1x128, .f32⟩
  | 112 => ⟨S100000x128, .f32⟩
  | 113 => ⟨S100000x128, .f32⟩
  | 114 => ⟨S_, .f32⟩
  | 115 => ⟨S128, .f32⟩
  | 116 => ⟨S1x128, .f32⟩
  | 117 => ⟨S_, .f32⟩
  | 118 => ⟨S1x128, .f32⟩
  | 119 => ⟨S1x128, .f32⟩
  | 120 => ⟨S1x128, .f32⟩
  | 121 => ⟨S1x128, .f32⟩
  | 122 => ⟨S1x128, .f32⟩
  | 123 => ⟨S_, .f32⟩
  | 124 => ⟨S1x128, .f32⟩
  | 125 => ⟨S1x128, .f32⟩
  | 126 => ⟨S1x1, .f32⟩
  | 127 => ⟨S1x1, .f32⟩
  | _ => ⟨S100000x128, .f32⟩

abbrev hbmTy0_1 (i : Nat) : BufTy := match i % 128 with
  | 0 => ⟨S1x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_call0_cst : Ref sig .tc := ⟨.hbm, 68, rfl⟩
abbrev main_call0_v0 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_c_8 : Ref sig .tc := ⟨.hbm, 73, rfl⟩
abbrev main_v49 : Ref sig .tc := ⟨.hbm, 74, rfl⟩
abbrev main_v50 : Ref sig .tc := ⟨.hbm, 75, rfl⟩
abbrev main_c_9 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_10 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_call1_cst : Ref sig .tc := ⟨.hbm, 91, rfl⟩
abbrev main_call1_v0 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_11 : Ref sig .tc := ⟨.hbm, 96, rfl⟩
abbrev main_v67 : Ref sig .tc := ⟨.hbm, 97, rfl⟩
abbrev main_v68 : Ref sig .tc := ⟨.hbm, 98, rfl⟩
abbrev main_c_12 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_13 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_14 : Ref sig .tc := ⟨.hbm, 114, rfl⟩
abbrev main_v82 : Ref sig .tc := ⟨.hbm, 115, rfl⟩
abbrev main_v83 : Ref sig .tc := ⟨.hbm, 116, rfl⟩
abbrev main_cst_15 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_call2_cst : Ref sig .tc := ⟨.hbm, 123, rfl⟩
abbrev main_call2_v0 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S1x128 : S_.BroadcastsInDim S1x128 (![] : Fin 0 → Fin S1x128.rank)
  bcast_S1_S1x1_1 : S1.BroadcastsInDim S1x1 (![1] : Fin 1 → Fin S1x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S1x128_S128x128_S1x128_1_0_0_1_n_n_wf : DotDims.WF S1x128 S128x128 S1x128 [1] [0] [0] [1] [] []
  dot_S1x128_S128x1_S1x1_1_0_0_1_n_n_wf : DotDims.WF S1x128 S128x1 S1x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S1x128_S128x1_S1x1_1_0_0_1_n_n : DotDims S1x128 S128x1 S1x1 where
  lhsContracting := [1]
  rhsContracting := [0]
  lhsNonContracting := [0]
  rhsNonContracting := [1]
  lhsBatch := []
  rhsBatch := []
  wf := dot_S1x128_S128x1_S1x1_1_0_0_1_n_n_wf

class Facts : Prop extends Facts₀ where

variable [Facts]
-- ==== Proof.K.Region0.lean ====
/-
  Region 0 of @main: the first dense transform, one row block of 5000 rows per grid point.
  At a point the body reads its 5000×128 block of the node features and the whole 128×128 weight,
  and stores their matrix product (both operands first narrowed to bf16) over the whole output block.
  Stated at a parameter `V`, the buffer contents the region is entered with: the block each window
  stages at a point, what the body leaves in the output block as a function of the two input blocks,
  the body's triple, the proof data of the pipeline and its body obligation at every grid point.
-/
import proofs.«151026_j58334245814498_1_alg».proof.Proof.Gen.Kernel.Launch
import proofs.«151026_j58334245814498_1_alg».proof.Proof.Gen.Kernel.Skeleton
import proofs.«151026_j58334245814498_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the features is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight, fetched once, is in its staging buffer at every point: its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev rX0 : Rect S5000x128 := Rect.unit (s := S5000x128) ![0, 0] S5000x128.size inb_S5000x128_S5000x128_0_0
abbrev rW0 : Rect S128x128 := Rect.unit (s := S128x128) ![0, 0] S128x128.size inb_S128x128_S128x128_0_0

/-- The output block after the body: the product of the two blocks as loaded, stored whole. -/
def out0_2 (x0 : Vec F S5000x128 .f32) (x1 : Vec F S128x128 .f32) : Vec F S5000x128 .f32 :=
  View.canon [⟨rX0, k0_pay1 (View.ld x0 rX0) (View.ld x1 rW0)⟩]

/-- The one store covers the block. -/
theorem cover0_2 (p0 : Vec F S5000x128 .f32) (y : S5000x128.Idx) :
    ∃ pc ∈ ([⟨rX0, p0⟩] : List (View.Piece (Elt F) S5000x128 .f32)), y ∈ pc.1.set :=
  View.cover_of_tiled [⟨rX0, p0⟩] S5000x128.size (by rfl) y

/-! ## The body's triple -/

set_option maxHeartbeats 1000000 in
/-- The body on whole staging buffers, the inputs' at `x0`, `x1` and the output's at anything, runs to the
    inputs' unchanged and the output's at `out0_2 x0 x1`. -/
theorem sound_kernel0 (c : Dev nD) (E : Set ℕ) (i : grid0.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data on core `c`: the arrays as the region finds them; after the body at point `t` each
    input's buffer at its block and the output's at the product of the two blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/-
  Region 1 of @main: the second fused layer transform, one row block of 5000 rows per grid point.
  At a point the body reads its 5000×128 block of the aggregated features, the 1×128 bias row and the whole
  128×128 weight, adds the bias to every row, clamps below at zero, and stores the matrix product of that
  with the weight (both operands first narrowed to bf16) over the whole output block.
  Stated at a parameter `V`, the buffer contents the region is entered with: the block each window
  stages at a point, what the body leaves in the output block as a function of the three input blocks,
  the body's triple, the proof data of the pipeline and its body obligation at every grid point.
-/
import proofs.«151026_j58334245814498_1_alg».proof.Proof.Gen.Kernel.Launch
import proofs.«151026_j58334245814498_1_alg».proof.Proof.Gen.Kernel.Skeleton
import proofs.«151026_j58334245814498_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev rX1 : Rect S5000x128 := Rect.unit (s := S5000x128) ![0, 0] S5000x128.size inb_S5000x128_S5000x128_0_0
abbrev rB1 : Rect S1x128 := Rect.unit (s := S1x128) ![0, 0] S1x128.size inb_S1x128_S1x128_0_0
abbrev rW1 : Rect S128x128 := Rect.unit (s := S128x128) ![0, 0] S128x128.size inb_S128x128_S128x128_0_0

/-- The output block after the body: the clamped biased block times the weight, stored whole. -/
def out1_3 (x0 : Vec F S5000x128 .f32) (x1 : Vec F S1x128 .f32) (x2 : Vec F S128x128 .f32) : Vec F S5000x128 .f32 :=
  View.canon [⟨rX1, k1_pay1 (View.ld x0 rX1) (View.ld x1 rB1) (View.ld x2 rW1)⟩]

/-- The one store covers the block. -/
theorem cover1_3 (p0 : Vec F S5000x128 .f32) (y : S5000x128.Idx) :
    ∃ pc ∈ ([⟨rX1, p0⟩] : List (View.Piece (Elt F) S5000x128 .f32)), y ∈ pc.1.set :=
  View.cover_of_tiled [⟨rX1, p0⟩] S5000x128.size (by rfl) y

/-! ## The body's triple -/

set_option maxHeartbeats 1000000 in
/-- The body on whole staging buffers, the inputs' at `x0`, `x1`, `x2` and the output's at anything, runs to the
    inputs' unchanged and the output's at `out1_3 x0 x1 x2`. -/
theorem sound_kernel1 (c : Dev nD) (E : Set ℕ) (i : grid1.Coords) (arg1 : Memref sig .tc .vmem S5000x128 .f32) (harg1 : arg1.IsWhole)
    (arg2 : Memref sig .tc .vmem S1x128 .f32) (harg2 : arg2.IsWhole) (arg3 : Memref sig .tc .vmem S128x128 .f32) (harg3 : arg3.IsWhole)
    (arg4 : Memref sig .tc .vmem S5000x128 .f32) (harg4 : arg4.IsWhole)
    (x0 : Vec F S5000x128 .f32) (x1 : Vec F S1x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1_kernel i arg1 harg1 arg2 harg2 arg3 harg3 arg4 harg4) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data on core `c`: the arrays as the region finds them; after the body at point `t` each
    input's buffer at its block and the output's at the body's product; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Region2.lean ====
/-
  Region 2 of @main: the third fused layer transform, one row block of 5000 rows per grid point.
  At a point the body reads its 5000×128 block of the aggregated features, the 1×128 bias row and the whole
  128×128 weight, adds the bias to every row, clamps below at zero, and stores the matrix product of that
  with the weight (both operands first narrowed to bf16) over the whole output block.
  Stated at a parameter `V`, the buffer contents the region is entered with: the block each window
  stages at a point, what the body leaves in the output block as a function of the three input blocks,
  the body's triple, the proof data of the pipeline and its body obligation at every grid point.
-/
import proofs.«151026_j58334245814498_1_alg».proof.Proof.Gen.Kernel.Launch
import proofs.«151026_j58334245814498_1_alg».proof.Proof.Gen.Kernel.Skeleton
import proofs.«151026_j58334245814498_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev rX2 : Rect S5000x128 := Rect.unit (s := S5000x128) ![0, 0] S5000x128.size inb_S5000x128_S5000x128_0_0
abbrev rB2 : Rect S1x128 := Rect.unit (s := S1x128) ![0, 0] S1x128.size inb_S1x128_S1x128_0_0
abbrev rW2 : Rect S128x128 := Rect.unit (s := S128x128) ![0, 0] S128x128.size inb_S128x128_S128x128_0_0

/-- The output block after the body: the clamped biased block times the weight, stored whole. -/
def out2_3 (x0 : Vec F S5000x128 .f32) (x1 : Vec F S1x128 .f32) (x2 : Vec F S128x128 .f32) : Vec F S5000x128 .f32 :=
  View.canon [⟨rX2, k2_pay1 (View.ld x0 rX2) (View.ld x1 rB2) (View.ld x2 rW2)⟩]

/-- The one store covers the block. -/
theorem cover2_3 (p0 : Vec F S5000x128 .f32) (y : S5000x128.Idx) :
    ∃ pc ∈ ([⟨rX2, p0⟩] : List (View.Piece (Elt F) S5000x128 .f32)), y ∈ pc.1.set :=
  View.cover_of_tiled [⟨rX2, p0⟩] S5000x128.size (by rfl) y

/-! ## The body's triple -/

set_option maxHeartbeats 1000000 in
/-- The body on whole staging buffers, the inputs' at `x0`, `x1`, `x2` and the output's at anything, runs to the
    inputs' unchanged and the output's at `out2_3 x0 x1 x2`. -/
theorem sound_kernel2 (c : Dev nD) (E : Set ℕ) (i : grid2.Coords) (arg1 : Memref sig .tc .vmem S5000x128 .f32) (harg1 : arg1.IsWhole)
    (arg2 : Memref sig .tc .vmem S1x128 .f32) (harg2 : arg2.IsWhole) (arg3 : Memref sig .tc .vmem S128x128 .f32) (harg3 : arg3.IsWhole)
    (arg4 : Memref sig .tc .vmem S5000x128 .f32) (harg4 : arg4.IsWhole)
    (x0 : Vec F S5000x128 .f32) (x1 : Vec F S1x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2_kernel i arg1 harg1 arg2 harg2 arg3 harg3 arg4 harg4) K := by
  simp only [cc2_kernel_eq_skeleton]; unfold cc2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data on core `c`: the arrays as the region finds them; after the body at point `t` each
    input's buffer at its block and the output's at the body's product; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Region3.lean ====
/-
  Region 3 of @main: the column sums of the last aggregate, accumulated over the 20 row blocks in a
  scratch row that the kernel keeps between grid points. At the first point the body clears the scratch;
  at every point it adds to the scratch the sum over the 5000 rows of the point's block, column by
  column; at the last point it copies the scratch into the 1×128 output block, which the pipeline writes
  back there and nowhere else. Stated at a parameter `V`, the buffer contents the region is entered
  with: the accumulated row after each point (`acc3`), the invariant that carries it from point to
  point, the proof data of the pipeline and its body obligation at every grid point.
-/
import proofs.«151026_j58334245814498_1_alg».proof.Proof.Gen.Kernel.Launch
import proofs.«151026_j58334245814498_1_alg».proof.Proof.Gen.Kernel.Skeleton
import proofs.«151026_j58334245814498_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row block of the aggregate is in its staging buffer at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-! ## The accumulated row -/

/-- The scratch row after point `n`: at the first point the cleared row plus the first block's column
    sums, afterwards what the point before left plus this block's column sums. -/
def acc3 (c : Dev nD) : (n : ℕ) → n < cfg3.N → Vec F S1x128 .f32
  | 0, h => k3_pay2 (k3_pay1 (F := F)) (iblk3 V c 0 ⟨0, h⟩)
  | n + 1, h => k3_pay2 (acc3 c n (Nat.lt_of_succ_lt h)) (iblk3 V c 0 ⟨n + 1, h⟩)

theorem acc3_zero (c : Dev nD) (h : 0 < cfg3.N) :
    acc3 V c 0 h = k3_pay2 (k3_pay1 (F := F)) (iblk3 V c 0 ⟨0, h⟩) := rfl
theorem acc3_succ (c : Dev nD) (n : ℕ) (h : n + 1 < cfg3.N) :
    acc3 V c (n + 1) h = k3_pay2 (acc3 V c n (Nat.lt_of_succ_lt h)) (iblk3 V c 0 ⟨n + 1, h⟩) := rfl

/-- The accumulated row at the first point. -/
theorem acc3_first (c : Dev nD) (t : Fin cfg3.N) (h : t.val = 0) :
    acc3 V c t.val t.isLt = k3_pay2 (k3_pay1 (F := F)) (iblk3 V c 0 t) := by
  obtain ⟨n, hn⟩ := t
  cases n with
  | zero => rfl
  | succ n => exact absurd h (Nat.succ_ne_zero n)

/-- The accumulated row at a later point: the row of the point before plus this block's column sums. -/
theorem acc3_pos (c : Dev nD) (t : Fin cfg3.N) (h : t.val ≠ 0) :
    acc3 V c t.val t.isLt = k3_pay2 (acc3 V c (t.val - 1) (Nat.lt_of_le_of_lt (Nat.sub_le _ _) t.isLt)) (iblk3 V c 0 t) := by
  obtain ⟨n, hn⟩ := t
  cases n with
  | zero => exact absurd rfl h
  | succ n => rfl

/-! ## The body's branch conditions -/

/-- The condition of the body's first branch, from the grid coordinate. -/
abbrev cond3_0 (i : grid3.Coords) : Prop :=
  (Scalar.cmpi .ne (Scalar.extui (Scalar.cmpi .eq (BitVec.ofNat 32 (i 0).val) 0#32)) 0#32) = 1#1
/-- The condition of the body's last branch. -/
abbrev cond3_1 (i : grid3.Coords) : Prop := k3_cond2 i = 1#1

/-- The first branch is taken at the first point and nowhere else. -/
theorem hcond3_0 : ∀ t : Fin cfg3.N, cond3_0 (grid3.coords t) ↔ t.val = 0 :=
  (by decide +kernel : ∀ t : Fin grid3.N, cond3_0 (grid3.coords t) ↔ t.val = 0)
/-- The last branch is taken at the last point and nowhere else. -/
theorem hcond3_1 : ∀ t : Fin cfg3.N, cond3_1 (grid3.coords t) ↔ t.val = 19 :=
  (by decide +kernel : ∀ t : Fin grid3.N, cond3_1 (grid3.coords t) ↔ t.val = 19)

/-! ## Where the windows are idle -/

/-- The input block is never idle. -/
theorem liveAt3_0 : ∀ t : Fin cfg3.N, cfg3.idle 0 (grid3.coords t) = false := by decide +kernel
/-- Off the last point the output row is idle: the body stores nothing into it, -/
theorem idleAt3_1 : ∀ t : Fin cfg3.N, ¬cond3_1 (grid3.coords t) → cfg3.idle 1 (grid3.coords t) = true := by decide +kernel
/-- and the pipeline does not write it back. -/
theorem noFlush3_1 : ∀ t : Fin cfg3.N, ¬cond3_1 (grid3.coords t) → (cfg3.win 1).flush t = false := by decide +kernel
/-- At the last point the output row is live. -/
theorem liveAt3_1 : ∀ t : Fin cfg3.N, cond3_1 (grid3.coords t) → cfg3.idle 1 (grid3.coords t) = false := by decide +kernel

/-! ## The body's accesses -/

/-- Every access of a 1×128 row is of the whole row, -/
abbrev rS3 : Rect S1x128 := Rect.unit (s := S1x128) ![0, 0] S1x128.size inb_S1x128_S1x128_0_0
/-- and the block is loaded whole. -/
abbrev rX3 : Rect S5000x128 := Rect.unit (s := S5000x128) ![0, 0] S5000x128.size inb_S5000x128_S5000x128_0_0

/-- Both offsets are zero. -/
theorem hz3 : (![0, 0] : Fin 2 → ℕ) = fun _ => 0 := by funext a; fin_cases a <;> rfl

/-- A list of stores into a row that ends with a store of the whole row covers the row. -/
theorem cover3 (p : Vec F S1x128 .f32) (L : List (View.Piece (Elt F) S1x128 .f32)) (y : S1x128.Idx) :
    ∃ pc ∈ ((⟨rS3, p⟩ : View.Piece (Elt F) S1x128 .f32) :: L), y ∈ pc.1.set :=
  ⟨_, List.mem_cons_self, View.mem_set_unit_zero hz3 inb_S1x128_S1x128_0_0 y⟩

/-! ## The body's triple, by control case -/

set_option maxHeartbeats 1000000 in
/-- At the first point: on whole buffers, the block's at `x0`, the output row's at `x1` and the scratch row's at
    anything, the body clears the scratch row and adds the block's column sums to it; the output row is not touched. -/
theorem sound_kernel3_first (c : Dev nD) (E : Set ℕ) (i : grid3.Coords) (arg1 : Memref sig .tc .vmem S5000x128 .f32) (harg1 : arg1.IsWhole)
    (arg2 : Memref sig .tc .vmem S1x128 .f32) (harg2 : arg2.IsWhole) (arg3 : Memref sig .tc .vmem S1x128 .f32) (harg3 : arg3.IsWhole)
    (hc0 : cond3_0 i) (hc1 : ¬cond3_1 i)
    (x0 : Vec F S5000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k3_pay2 (k3_pay1 (F := F)) x0)) -∗ K ⟨⟩))
      ⊢ wp frame (wpE (defs₀ (F := F)) Variants.none c none) E (cc3_kernel i arg1 harg1 arg2 harg2 arg3 harg3) K := by
  simp only [cc3_kernel_eq_skeleton]; unfold cc3_kernel_skel
  unfold owns
  iintro ⟨⟨%f0, %hf0, H0⟩, ⟨%f1, %hf1, H1⟩, ⟨%d2, %f2, -, H2⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  sl_unfold_words
  rw [View.read_writes_eq_canon _ _ _ (cover3 _ _), View.canon_cons_unit_zero hz3]
  simp only [View.readCov_unit_zero (S := S1x128) _ hz3, View.readAt_eq_ld, View.ld_unit_zero (S := S5000x128) hz3]

set_option maxHeartbeats 1000000 in
/-- Between the first and the last point: the scratch row's buffer at `a`, the body adds the block's column sums
    to it; the output row is not touched. -/
theorem sound_kernel3_mid (c : Dev nD) (E : Set ℕ) (i : grid3.Coords) (arg1 : Memref sig .tc .vmem S5000x128 .f32) (harg1 : arg1.IsWhole)
    (arg2 : Memref sig .tc .vmem S1x128 .f32) (harg2 : arg2.IsWhole) (arg3 : Memref sig .tc .vmem S1x128 .f32) (harg3 : arg3.IsWhole)
    (hc0 : ¬cond3_0 i) (hc1 : ¬cond3_1 i)
    (x0 : Vec F S5000x128 .f32) (x1 : Vec F S1x128 .f32) (a : Vec F S1x128 .f32) (K : PUnit → sProp 𝕄) :
    iprop(owns (c : Thread nD τ) arg1 fullShare x0 ∗ owns (c : Thread nD τ) arg2 fullShare x1 ∗ owns (c : Thread nD τ) arg3 fullShare a
        ∗ (iprop(owns (c : Thread nD τ) arg1 fullShare x0 ∗ owns (c : Thread nD τ) arg2 fullShare x1
            ∗ owns (c : Thread nD τ) arg3 fullShare (k3_pay2 a x0)) -∗ K ⟨⟩))
      ⊢ wp frame (wpE (defs₀ (F := F)) Variants.none c none) E (cc3_kernel i arg1 harg1 arg2 harg2 arg3 harg3) K := by
  simp only [cc3_kernel_eq_skeleton]; unfold cc3_kernel_skel
  unfold owns
  iintro ⟨⟨%f0, %hf0, H0⟩, ⟨%f1, %hf1, H1⟩, ⟨%f2, %hf2, H2⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  sl_unfold_words
  rw [View.read_writes_eq_canon _ _ _ (cover3 _ _), View.canon_unit_zero hz3]
  simp only [View.readAt_eq_ld, View.ld_unit_zero (S := S1x128) hz3, View.ld_unit_zero (S := S5000x128) hz3]

set_option maxHeartbeats 1000000 in
/-- At the last point: the scratch row's buffer at `a` and the output row's at anything, the body adds the block's
    column sums to the scratch row and copies the sum into the output row. -/
theorem sound_kernel3_last (c : Dev nD) (E : Set ℕ) (i : grid3.Coords) (arg1 : Memref sig .tc .vmem S5000x128 .f32) (harg1 : arg1.IsWhole)
    (arg2 : Memref sig .tc .vmem S1x128 .f32) (harg2 : arg2.IsWhole) (arg3 : Memref sig .tc .vmem S1x128 .f32) (harg3 : arg3.IsWhole)
    (hc0 : ¬cond3_0 i) (hc1 : cond3_1 i)
    (x0 : Vec F S5000x128 .f32) (a : Vec F S1x128 .f32) (K : PUnit → sProp 𝕄) :
    iprop(owns (c : Thread nD τ) arg1 fullShare x0 ∗ (∃ d, owns (c : Thread nD τ) arg2 fullShare d) ∗ owns (c : Thread nD τ) arg3 fullShare a
        ∗ (iprop(owns (c : Thread nD τ) arg1 fullShare x0 ∗ owns (c : Thread nD τ) arg2 fullShare (k3_pay2 a x0)
            ∗ owns (c : Thread nD τ) arg3 fullShare (k3_pay2 a x0)) -∗ K ⟨⟩))
      ⊢ wp frame (wpE (defs₀ (F := F)) Variants.none c none) E (cc3_kernel i arg1 harg1 arg2 harg2 arg3 harg3) K := by
  simp only [cc3_kernel_eq_skeleton]; unfold cc3_kernel_skel
  unfold owns
  iintro ⟨⟨%f0, %hf0, H0⟩, ⟨%d1, %f1, -, H1⟩, ⟨%f2, %hf2, H2⟩, Hk⟩
  subst hf0; subst hf2
  sl_exec (disch := first | exact hc0 | exact hc1)
  sl_step
  iapply Hk
  isplitl [H0]
  · iexists f0; isplitr; · ipureintro; rfl
    iexact H0
  isplitl [H1]
  · iexists _; isplitr
    swap; · iexact H1
    ipureintro
    sl_unfold_words
    rw [View.read_writes_eq_canon _ _ _ (cover3 _ _), View.canon_unit_zero hz3]
    simp only [View.readCov_unit_zero (S := S1x128) _ hz3, View.readAt_eq_ld, View.ld_unit_zero (S := S1x128) hz3, View.ld_unit_zero (S := S5000x128) hz3]
  iexists _; isplitr
  swap; · iexact H2
  ipureintro
  sl_unfold_words
  rw [View.read_writes_eq_canon _ _ _ (cover3 _ _), View.canon_unit_zero hz3]
  simp only [View.readAt_eq_ld, View.ld_unit_zero (S := S1x128) hz3, View.ld_unit_zero (S := S5000x128) hz3]

/-! ## The invariant: the scratch row carried between points -/

/-- The scratch row's buffer. -/
abbrev scr3 : Memref sig .tc .vmem S1x128 .f32 := Memref.whole cc3_scratch0

/-- The core's scoped buffers other than this region's staging buffers and the scratch row, each at anything. -/
def rest3 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f)
    ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

/-- The invariant before position `n`: before the first point every scoped buffer at anything and the
    generator register at some state; afterwards the same with the scratch row at what the point before
    left in it. -/
def Phi3 (c : Dev nD) : (n : ℕ) → n ≤ cfg3.N → sProp 𝕄
  | 0, _ => Pipeline.ΦA spec3 c
  | n + 1, hn => iprop(rest3 (F := F) c ∗ owns (c : Thread nD τ) scr3 fullShare (acc3 V c n hn) ∗ (∃ r, prngReg c r))

theorem Phi3_zero (c : Dev nD) (h : 0 ≤ cfg3.N) : Phi3 V c 0 h = Pipeline.ΦA spec3 c := rfl
theorem Phi3_succ (c : Dev nD) (n : ℕ) (hn : n + 1 ≤ cfg3.N) :
    Phi3 V c (n + 1) hn = iprop(rest3 (F := F) c ∗ owns (c : Thread nD τ) scr3 fullShare (acc3 V c n hn) ∗ (∃ r, prngReg c r)) := rfl

/-- Separating conjunction reassociated, as an equation. -/
theorem sep_assoc3 (P Q R : sProp 𝕄) : iprop((P ∗ Q) ∗ R) = iprop(P ∗ Q ∗ R) := BI.equiv_iff.mp ⟨BI.sep_assoc, BI.sep_assoc'⟩

/-- What the launch hands the region, with the scratch row apart from the other scoped buffers. -/
theorem PhiA3_eq (c : Dev nD) :
    (Pipeline.ΦA spec3 c : sProp 𝕄)
      = iprop(rest3 (F := F) c ∗ (∃ d, owns (c : Thread nD τ) scr3 fullShare d) ∗ (∃ r, prngReg c r)) := by
  unfold Pipeline.ΦA; rw [scopedRest3_eq]; unfold rest3; simp only [scr3, owns_whole, sep_assoc3]; rfl

/-- Before a point that is not the first the scratch row holds what the point before left. -/
theorem Phi3_pos (c : Dev nD) (n : ℕ) (h : n ≤ cfg3.N) (hz : n ≠ 0) :
    Phi3 V c n h = iprop(rest3 (F := F) c
      ∗ owns (c : Thread nD τ) scr3 fullShare (acc3 V c (n - 1) (Nat.lt_of_lt_of_le (Nat.sub_lt (Nat.pos_of_ne_zero hz) Nat.one_pos) h))
      ∗ (∃ r, prngReg c r)) := by
  cases n with
  | zero => exact absurd rfl hz
  | succ n => rfl

/-! ## The pipeline's proof data -/

/-- The proof data on core `c`: the arrays as the region finds them; after the body at point `t` the
    input's buffer at its block and the output's at the accumulated row (consulted only at the last point,
    the one point that stores it and writes it back); the invariant `Phi3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => acc3 V c t.val t.isLt
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = acc3 V c t.val t.isLt := by dsimp only [dat3]

theorem before3_0 (c : Dev nD) (t : Fin cfg3.N) (d) : (dat3 V c).before 0 t d = iblk3 V c 0 t :=
  before3_0_of V (dat3 V c) (A_eq3 V c 0) (after3_0 V c) t d

/-- The invariant at a point's start, restated at the point's number. -/
theorem Phi3_castSucc (c : Dev nD) (t : Fin cfg3.N) :
    (dat3 V c).Φ t.castSucc = Phi3 V c t.val (Nat.le_of_lt t.isLt) := by
  dsimp only [dat3]; simp only [Fin.coe_castSucc]

/-- The invariant before the first point is what the launch hands the region. -/
theorem Phi3_first (c : Dev nD) : (dat3 V c).Φ 0 = Pipeline.ΦA spec3 c := rfl

/-- After the last point the invariant gives the scoped rest and the generator register back: the
    scratch row's named contents are forgotten. -/
theorem Phi3_last (c : Dev nD) : (dat3 V c).Φ (Fin.last cfg3.N) ⊢ Pipeline.ΦA spec3 c := by
  rw [show (dat3 V c).Φ (Fin.last cfg3.N) = Phi3 V c (Fin.last cfg3.N).val (Nat.le_of_lt_succ (Fin.last cfg3.N).isLt) from rfl,
    Phi3_pos V c _ _ (by rw [Fin.val_last]; have : cfg3.N = 20 := N_3; omega), PhiA3_eq]
  iintro ⟨HR, HS, Hg⟩
  isplitl [HR]; · iexact HR
  isplitl [HS]; · iexists _; iexact HS
  iexact Hg

/-! ## The body obligation -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

/-- and what it returns: the output row's buffer as found wherever the point is idle for it. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t)

set_option maxHeartbeats 2000000 in
/-- The body at any point, by the point's control case: the invariant hands the body the scratch row at what the
    point before left (at anything at the first point) and takes it back at this point's accumulated row. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).owesAt () t.succ = (dat3 V c).owesAt () t.castSucc from rfl]
  rw [show (dat3 V c).Φ t.succ = Phi3 V c (t.val + 1) t.isLt from rfl, Phi3_succ]
  rw [show (dat3 V c).leavesExact 0 t = owns (c : Thread nD τ) (st3_0 t) fullShare ((dat3 V c).after 0 t) from by
    unfold Dat.leavesExact; rw [liveAt3_0 t], after3_0]
  have hN : t.val < 20 := lt_of_lt_of_eq t.isLt (show cfg3.N = 20 from N_3)
  by_cases h1 : t.val = 19
  · have hz : t.val ≠ 0 := by omega
    have hc1 : cond3_1 (grid3.coords t) := (hcond3_1 t).mpr h1
    have hc0 : ¬cond3_0 (grid3.coords t) := fun h => hz ((hcond3_0 t).mp h)
    rw [show (dat3 V c).leavesExact 1 t = owns (c : Thread nD τ) (st3_1 t) fullShare ((dat3 V c).after 1 t) from by
      unfold Dat.leavesExact; rw [liveAt3_1 t hc1], after3_1]
    rw [Phi3_castSucc V c t, Phi3_pos V c _ _ hz, acc3_pos V c t hz]
    iintro ⟨⟨HR, HS, Hg⟩, Ho, ⟨%d0, H0⟩, ⟨%d1, H1⟩⟩
    iapply (sound_kernel3_last c Set.univ _ _ _ _ _ _ _ hc0 hc1 (iblk3 V c 0 t) (acc3 V c (t.val - 1) (Nat.lt_of_le_of_lt (Nat.sub_le _ _) t.isLt)) _)
    isplitl [H0]; · iexact H0
    isplitl [H1]; · iexists _; iexact H1
    isplitl [HS]; · iexact HS
    iintro ⟨H0, H1, HS⟩
    isplitl [HR HS Hg]
    · isplitl [HR]; · iexact HR
      isplitl [HS]; · iexact HS
      iexact Hg
    isplitl [Ho]; · iexact Ho
    isplitl [H0]; · iexact H0
    iexact H1
  · have hc1 : ¬cond3_1 (grid3.coords t) := fun h => h1 ((hcond3_1 t).mp h)
    rw [Dat.leavesExact_idle (dat3 V c) 1 t (idleAt3_1 t hc1) (noFlush3_1 t hc1)]
    by_cases hz : t.val = 0
    · have hc0 : cond3_0 (grid3.coords t) := (hcond3_0 t).mpr hz
      rw [Phi3_castSucc V c t, show Phi3 V c t.val (Nat.le_of_lt t.isLt) = Pipeline.ΦA spec3 c from by
        obtain ⟨n, hn⟩ := t; subst hz; rfl, PhiA3_eq, acc3_first V c t hz]
      iintro ⟨⟨HR, HS, Hg⟩, Ho, ⟨%d0, H0⟩, ⟨%d1, H1⟩⟩
      iapply (sound_kernel3_first c Set.univ _ _ _ _ _ _ _ hc0 hc1 (iblk3 V c 0 t) ((dat3 V c).before 1 t d1) _)
      isplitl [H0]; · iexact H0
      isplitl [H1]; · iexact H1
      isplitl [HS]; · iexact HS
      iintro ⟨H0, H1, HS⟩
      isplitl [HR HS Hg]
      · isplitl [HR]; · iexact HR
        isplitl [HS]; · iexact HS
        iexact Hg
      isplitl [Ho]; · iexact Ho
      isplitl [H0]; · iexact H0
      iexists d1; iexact H1
    · have hc0 : ¬cond3_0 (grid3.coords t) := fun h => hz ((hcond3_0 t).mp h)
      rw [Phi3_castSucc V c t, Phi3_pos V c _ _ hz, acc3_pos V c t hz]
      iintro ⟨⟨HR, HS, Hg⟩, Ho, ⟨%d0, H0⟩, ⟨%d1, H1⟩⟩
      iapply (sound_kernel3_mid c Set.univ _ _ _ _ _ _ _ hc0 hc1 (iblk3 V c 0 t) ((dat3 V c).before 1 t d1) (acc3 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HR HS Hg]
      · isplitl [HR]; · iexact HR
        isplitl [HS]; · iexact HS
        iexact Hg
      isplitl [Ho]; · iexact Ho
      isplitl [H0]; · iexact H0
      iexists d1; iexact H1

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Run.lean ====
/-
  The run of the whole program: @main is host operations, the first dense transform, host operations
  (a gather along the edges, the edge weights, a scatter-add back onto the nodes), the second fused
  transform, the same host operations again, the third fused transform, once more, the column sums, and
  a closing stretch of host operations. Between two items each core holds every unscoped buffer at a
  named valuation: the launch memory, then each host stretch's operations applied, then each region's
  output array replaced by what the pipeline's write-backs leave. The four regions enter the launch as
  records over those thread states; the launch gives that every weakly fair execution terminates with
  every unscoped buffer at the last valuation, from which both the frame (the arguments are never
  written) and the value of the result are read.
-/
import proofs.«151026_j58334245814498_1_alg».proof.Proof.K.Region0
import proofs.«151026_j58334245814498_1_alg».proof.Proof.K.Region1
import proofs.«151026_j58334245814498_1_alg».proof.Proof.K.Region2
import proofs.«151026_j58334245814498_1_alg».proof.Proof.K.Region3
import proofs.«151026_j58334245814498_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between @main's items

Before item 0 core `c` holds the launch memory; a host stretch applies its operations; a region leaves
its output array at what the pipeline's write-backs fold to and everything else as it found it. -/

/-- After the first host stretch: the contents region 0 is entered with. -/
abbrev U1 (c : Dev nD) : Valuation τ sig (Elt F) := Gen.V1 m c
/-- The same read at the TensorCore's references: what region 0's proof data take. -/
abbrev E1 : (c : Dev nD) → (b : Ref sig .tc) → Buf (Elt F) ((c : Thread nD τ).loc b) := fun c b => U1 m c b
/-- What region 0 leaves in its output array `main_v29`. -/
def arr0 (c : Dev nD) : Buf (Elt F) ((c : Thread nD τ).loc main_v29) := (dat0 (E1 m) c).arrAt 2 cfg0.N
/-- After region 0: its output array at that, every other buffer as entered. -/
def U2 (c : Dev nD) : Valuation τ sig (Elt F) := Function.update (U1 m c) main_v29 (arr0 m c)
/-- The same read at the TensorCore's references. -/
abbrev E2 : (c : Dev nD) → (b : Ref sig .tc) → Buf (Elt F) ((c : Thread nD τ).loc b) := fun c b => U2 m c b
/-- After the host stretch that follows: the contents region 1 is entered with. -/
abbrev U3 (c : Dev nD) : Valuation τ sig (Elt F) := StableHlo.after hostOps1 (U2 m c)
/-- The same read at the TensorCore's references: what region 1's proof data take. -/
abbrev E3 : (c : Dev nD) → (b : Ref sig .tc) → Buf (Elt F) ((c : Thread nD τ).loc b) := fun c b => U3 m c b
/-- What region 1 leaves in its output array `main_v44`. -/
def arr1 (c : Dev nD) : Buf (Elt F) ((c : Thread nD τ).loc main_v44) := (dat1 (E3 m) c).arrAt 3 cfg1.N
/-- After region 1: its output array at that, every other buffer as entered. -/
def U4 (c : Dev nD) : Valuation τ sig (Elt F) := Function.update (U3 m c) main_v44 (arr1 m c)
/-- The same read at the TensorCore's references. -/
abbrev E4 : (c : Dev nD) → (b : Ref sig .tc) → Buf (Elt F) ((c : Thread nD τ).loc b) := fun c b => U4 m c b
/-- After the host stretch that follows: the contents region 2 is entered with. -/
abbrev U5 (c : Dev nD) : Valuation τ sig (Elt F) := StableHlo.after hostOps2 (U4 m c)
/-- The same read at the TensorCore's references: what region 2's proof data take. -/
abbrev E5 : (c : Dev nD) → (b : Ref sig .tc) → Buf (Elt F) ((c : Thread nD τ).loc b) := fun c b => U5 m c b
/-- What region 2 leaves in its output array `main_v59`. -/
def arr2 (c : Dev nD) : Buf (Elt F) ((c : Thread nD τ).loc main_v59) := (dat2 (E5 m) c).arrAt 3 cfg2.N
/-- After region 2: its output array at that, every other buffer as entered. -/
def U6 (c : Dev nD) : Valuation τ sig (Elt F) := Function.update (U5 m c) main_v59 (arr2 m c)
/-- The same read at the TensorCore's references. -/
abbrev E6 : (c : Dev nD) → (b : Ref sig .tc) → Buf (Elt F) ((c : Thread nD τ).loc b) := fun c b => U6 m c b
/-- After the host stretch that follows: the contents region 3 is entered with. -/
abbrev U7 (c : Dev nD) : Valuation τ sig (Elt F) := StableHlo.after hostOps3 (U6 m c)
/-- The same read at the TensorCore's references: what region 3's proof data take. -/
abbrev E7 : (c : Dev nD) → (b : Ref sig .tc) → Buf (Elt F) ((c : Thread nD τ).loc b) := fun c b => U7 m c b
/-- What region 3 leaves in its output array `main_v73`. -/
def arr3 (c : Dev nD) : Buf (Elt F) ((c : Thread nD τ).loc main_v73) := (dat3 (E7 m) c).arrAt 1 cfg3.N
/-- After region 3: its output array at that, every other buffer as entered. -/
def U8 (c : Dev nD) : Valuation τ sig (Elt F) := Function.update (U7 m c) main_v73 (arr3 m c)
/-- The same read at the TensorCore's references. -/
abbrev E8 : (c : Dev nD) → (b : Ref sig .tc) → Buf (Elt F) ((c : Thread nD τ).loc b) := fun c b => U8 m c b

/-- What the regions leave, as the generated thread states ask for it: the contents after item J−1. -/
def outs : Outs (F := F) := fun J r c => match J with
  | 2 => U2 m c r
  | 4 => U4 m c r
  | 6 => U6 m c r
  | 8 => U8 m c r
  | _ => m ((c : Thread nD τ).loc r)

theorem V2_eq (c : Dev nD) : Gen.V2 m (outs m) c = U2 m c := by
  show Function.update (Gen.V1 m c) main_v29 (U2 m c main_v29) = U2 m c
  unfold U2; rw [Function.update_self]
theorem V3_eq (c : Dev nD) : Gen.V3 m (outs m) c = U3 m c := by
  show StableHlo.after hostOps1 (Gen.V2 m (outs m) c) = _
  rw [V2_eq]
theorem V4_eq (c : Dev nD) : Gen.V4 m (outs m) c = U4 m c := by
  show Function.update (Gen.V3 m (outs m) c) main_v44 (U4 m c main_v44) = U4 m c
  rw [V3_eq]; unfold U4; rw [Function.update_self]
theorem V5_eq (c : Dev nD) : Gen.V5 m (outs m) c = U5 m c := by
  show StableHlo.after hostOps2 (Gen.V4 m (outs m) c) = _
  rw [V4_eq]
theorem V6_eq (c : Dev nD) : Gen.V6 m (outs m) c = U6 m c := by
  show Function.update (Gen.V5 m (outs m) c) main_v59 (U6 m c main_v59) = U6 m c
  rw [V5_eq]; unfold U6; rw [Function.update_self]
theorem V7_eq (c : Dev nD) : Gen.V7 m (outs m) c = U7 m c := by
  show StableHlo.after hostOps3 (Gen.V6 m (outs m) c) = _
  rw [V6_eq]
theorem V8_eq (c : Dev nD) : Gen.V8 m (outs m) c = U8 m c := by
  show Function.update (Gen.V7 m (outs m) c) main_v73 (U8 m c main_v73) = U8 m c
  rw [V7_eq]; unfold U8; rw [Function.update_self]

/-! ## The proof data family and what rides beside the buffers -/

/-- Every pipeline's proof data, each at its region's entry contents. -/
def pdats : (p : Fin 4) → (c : Dev nD) → Dat τ (Elt F) Unit ℕ (UR sig nD τ) ℕ (cfgs p) c
  | ⟨0, _⟩ => fun c => dat0 (E1 m) c
  | ⟨1, _⟩ => fun c => dat1 (E3 m) c
  | ⟨2, _⟩ => fun c => dat2 (E5 m) c
  | ⟨3, _⟩ => fun c => dat3 (E7 m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every item: the generator register at some state and the core owing nothing. -/
abbrev Rr (c : Dev nD) : sProp 𝕄 := iprop((∃ r, prngReg c r) ∗ ∃ W, owes (c : Thread nD τ) (0 : CellTallies nD τ sig Unit) W)
abbrev Er : Fin 5 → Dev nD → sProp 𝕄 := fun _ c => Rr c

/-- Region 0 changes no buffer but its output array, -/
theorem kept0 (c : Dev nD) (b : Ref sig .tc) (hne : b ≠ main_v29) : E2 m c b = E1 m c b := by
  show U2 m c b = U1 m c b
  unfold U2; rw [Function.update_of_ne (StableHlo.devRef_ne_of_ne hne : (Proc.devRef .tc b : DevRef τ sig) ≠ Proc.devRef .tc main_v29)]
/-- which it leaves at the fold of its write-backs. -/
theorem left0 (c : Dev nD) : E2 m c main_v29 = arr0 m c := by
  show U2 m c main_v29 = arr0 m c
  unfold U2; rw [Function.update_self]

/-- At region 0's exit each of its arrays holds what the pipeline leaves: an input what it held at
    entry, the output the fold of its write-backs. -/
theorem hF0 (c : Dev nD) : (w : Fin cfg0.W) → (dat0 (E1 m) c).arrAt w cfg0.N = E2 m c (Pipeline.arrRef spec0 w)
  | ⟨0, _⟩ => ((dat0 (E1 m) c).arrAt_in _ rfl _).trans ((A_eq0 (E1 m) c _).trans (kept0 m c main_arg0 (by decide)).symm)
  | ⟨1, _⟩ => ((dat0 (E1 m) c).arrAt_in _ rfl _).trans ((A_eq0 (E1 m) c _).trans (kept0 m c main_arg2 (by decide)).symm)
  | ⟨2, _⟩ => (left0 m c).symm

/-- and every other buffer what it held at entry. -/
theorem hrest0 (c : Dev nD) : ∀ b, b ∉ Finset.univ.image (Pipeline.arrRef spec0) → E2 m c b = E1 m c b := by
  intro b hb
  exact kept0 m c b fun e => hb (Finset.mem_image.mpr ⟨2, Finset.mem_univ _, e.symm⟩)

set_option backward.isDefEq.respectTransparency.types false in
/-- REGION 0 over the thread state: entered with every unscoped buffer at the contents before it, left
    with them at the contents after it; its arrays split out of the unscoped buffers at entry and put back
    at the exit contents; the generator register into the invariant and out; nothing owed; no semaphore
    of the kernel's own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (U1 m c) ∗ Rr c)
  post c := iprop(StableHlo.held (c : Thread nD τ) (Pipeline.ucRefs τ sig) (U2 m c) ∗ Rr c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 1 changes no buffer but its output array, -/
theorem kept1 (c : Dev nD) (b : Ref sig .tc) (hne : b ≠ main_v44) : E4 m c b = E3 m c b := by
  show U4 m c b = U3 m c b
  unfold U4; rw [Function.update_of_ne (StableHlo.devRef_ne_of_ne hne : (Proc.devRef .tc b : DevRef τ sig) ≠ Proc.devRef .tc main_v44)]
/-- which it leaves at the fold of its write-backs. -/
theorem left1 (c : Dev nD) : E4 m c main_v44 = arr1 m c := by
  show U4 m c main_v44 = arr1 m c
  unfold U4; rw [Function.update_self]

/-- At region 1's exit each of its arrays holds what the pipeline leaves: an input what it held at
    entry, the output the fold of its write-backs. -/
theorem hF1 (c : Dev nD) : (w : Fin cfg1.W) → (dat1 (E3 m) c).arrAt w cfg1.N = E4 m c (Pipeline.arrRef spec1 w)
  | ⟨0, _⟩ => ((dat1 (E3 m) c).arrAt_in _ rfl _).trans ((A_eq1 (E3 m) c _).trans (kept1 m c main_v42 (by decide)).symm)
  | ⟨1, _⟩ => ((dat1 (E3 m) c).arrAt_in _ rfl _).trans ((A_eq1 (E3 m) c _).trans (kept1 m c main_v43 (by decide)).symm)
  | ⟨2, _⟩ => ((dat1 (E3 m) c).arrAt_in _ rfl _).trans ((A_eq1 (E3 m) c _).trans (kept1 m c main_arg4 (by decide)).symm)
  | ⟨3, _⟩ => (left1 m c).symm

/-- and every other buffer what it held at entry. -/
theorem hrest1 (c : Dev nD) : ∀ b, b ∉ Finset.univ.image (Pipeline.arrRef spec1) → E4 m c b = E3 m c b := by
  intro b hb
  exact kept1 m c b fun e => hb (Finset.mem_image.mpr ⟨3, Finset.mem_univ _, e.symm⟩)

set_option backward.isDefEq.respectTransparency.types false in
/-- REGION 1 over the thread state: entered with every unscoped buffer at the contents before it, left
    with them at the contents after it; its arrays split out of the unscoped buffers at entry and put back
    at the exit contents; the generator register into the invariant and out; nothing owed; no semaphore
    of the kernel's own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (U3 m c) ∗ Rr c)
  post c := iprop(StableHlo.held (c : Thread nD τ) (Pipeline.ucRefs τ sig) (U4 m c) ∗ Rr c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 2 changes no buffer but its output array, -/
theorem kept2 (c : Dev nD) (b : Ref sig .tc) (hne : b ≠ main_v59) : E6 m c b = E5 m c b := by
  show U6 m c b = U5 m c b
  unfold U6; rw [Function.update_of_ne (StableHlo.devRef_ne_of_ne hne : (Proc.devRef .tc b : DevRef τ sig) ≠ Proc.devRef .tc main_v59)]
/-- which it leaves at the fold of its write-backs. -/
theorem left2 (c : Dev nD) : E6 m c main_v59 = arr2 m c := by
  show U6 m c main_v59 = arr2 m c
  unfold U6; rw [Function.update_self]

/-- At region 2's exit each of its arrays holds what the pipeline leaves: an input what it held at
    entry, the output the fold of its write-backs. -/
theorem hF2 (c : Dev nD) : (w : Fin cfg2.W) → (dat2 (E5 m) c).arrAt w cfg2.N = E6 m c (Pipeline.arrRef spec2 w)
  | ⟨0, _⟩ => ((dat2 (E5 m) c).arrAt_in _ rfl _).trans ((A_eq2 (E5 m) c _).trans (kept2 m c main_v57 (by decide)).symm)
  | ⟨1, _⟩ => ((dat2 (E5 m) c).arrAt_in _ rfl _).trans ((A_eq2 (E5 m) c _).trans (kept2 m c main_v58 (by decide)).symm)
  | ⟨2, _⟩ => ((dat2 (E5 m) c).arrAt_in _ rfl _).trans ((A_eq2 (E5 m) c _).trans (kept2 m c main_arg6 (by decide)).symm)
  | ⟨3, _⟩ => (left2 m c).symm

/-- and every other buffer what it held at entry. -/
theorem hrest2 (c : Dev nD) : ∀ b, b ∉ Finset.univ.image (Pipeline.arrRef spec2) → E6 m c b = E5 m c b := by
  intro b hb
  exact kept2 m c b fun e => hb (Finset.mem_image.mpr ⟨3, Finset.mem_univ _, e.symm⟩)

set_option backward.isDefEq.respectTransparency.types false in
/-- REGION 2 over the thread state: entered with every unscoped buffer at the contents before it, left
    with them at the contents after it; its arrays split out of the unscoped buffers at entry and put back
    at the exit contents; the generator register into the invariant and out; nothing owed; no semaphore
    of the kernel's own. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ L lv 2 fun _ _ => rfl
  pre c := iprop(StableHlo.held (c : Thread nD τ) (Pipeline.ucRefs τ sig) (U5 m c) ∗ Rr c)
  post c := iprop(StableHlo.held (c : Thread nD τ) (Pipeline.ucRefs τ sig) (U6 m c) ∗ Rr c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E5 m c) (E6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 3 changes no buffer but its output array, -/
theorem kept3 (c : Dev nD) (b : Ref sig .tc) (hne : b ≠ main_v73) : E8 m c b = E7 m c b := by
  show U8 m c b = U7 m c b
  unfold U8; rw [Function.update_of_ne (StableHlo.devRef_ne_of_ne hne : (Proc.devRef .tc b : DevRef τ sig) ≠ Proc.devRef .tc main_v73)]
/-- which it leaves at the fold of its write-backs. -/
theorem left3 (c : Dev nD) : E8 m c main_v73 = arr3 m c := by
  show U8 m c main_v73 = arr3 m c
  unfold U8; rw [Function.update_self]

/-- At region 3's exit each of its arrays holds what the pipeline leaves: an input what it held at
    entry, the output the fold of its write-backs. -/
theorem hF3 (c : Dev nD) : (w : Fin cfg3.W) → (dat3 (E7 m) c).arrAt w cfg3.N = E8 m c (Pipeline.arrRef spec3 w)
  | ⟨0, _⟩ => ((dat3 (E7 m) c).arrAt_in _ rfl _).trans ((A_eq3 (E7 m) c _).trans (kept3 m c main_v72 (by decide)).symm)
  | ⟨1, _⟩ => (left3 m c).symm

/-- and every other buffer what it held at entry. -/
theorem hrest3 (c : Dev nD) : ∀ b, b ∉ Finset.univ.image (Pipeline.arrRef spec3) → E8 m c b = E7 m c b := by
  intro b hb
  exact kept3 m c b fun e => hb (Finset.mem_image.mpr ⟨1, Finset.mem_univ _, e.symm⟩)

set_option backward.isDefEq.respectTransparency.types false in
/-- REGION 3 over the thread state: entered with every unscoped buffer at the contents before it, left
    with them at the contents after it; its arrays split out of the unscoped buffers at entry and put back
    at the exit contents; the generator register into the invariant and out; nothing owed; no semaphore
    of the kernel's own. -/
def reg3 : RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E7 m) c).loose
  hwaits := Pipeline.hwaits_of_owed_zero _ _ _ _ L lv 3 fun _ _ => rfl
  pre c := iprop(StableHlo.held (c : Thread nD τ) (Pipeline.ucRefs τ sig) (U7 m c) ∗ Rr c)
  post c := iprop(StableHlo.held (c : Thread nD τ) (Pipeline.ucRefs τ sig) (U8 m c) ∗ Rr c)
  X c := iprop(∃ r, prngReg c r)
  Y c := iprop(∃ r, prngReg c r)
  Z c := Pipeline.unscopedRest (Ix := Unit) (Name := ℕ) (U := UR sig nD τ) (Lvl := ℕ) spec3 c (E7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none]
    refine (Phi3_last (E7 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E7 m c) (E8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The last valuation: after the three closing host stretches. -/
abbrev Ulast (c : Dev nD) : Valuation τ sig (Elt F) := Gen.V11 m (outs m) c

set_option backward.isDefEq.respectTransparency.types false in
/-- THE RUN. From any memory with zero counters every weakly fair execution of @main terminates, nothing
    faulting, and every final memory holds each unscoped buffer of each core at the last valuation: the
    launch contents carried through the host stretches and the four regions. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Ulast m c b) := by
  have hpre0 : ∀ c : Dev nD, iprop(StableHlo.held (c : Thread nD τ) (Pipeline.ucRefs τ sig) (Gen.V1 m c) ∗ Er (F := F) 0 c) ⊢ (reg0 m).pre c := fun c => .rfl
  have hpost0 : ∀ c : Dev nD, (reg0 m).post c ⊢ iprop(StableHlo.held (c : Thread nD τ) (Pipeline.ucRefs τ sig) (Gen.V2 m (outs m) c) ∗ Er (F := F) 1 c) := fun c => by
    rw [V2_eq]; exact .rfl
  have hpre1 : ∀ c : Dev nD, iprop(StableHlo.held (c : Thread nD τ) (Pipeline.ucRefs τ sig) (Gen.V3 m (outs m) c) ∗ Er (F := F) 1 c) ⊢ (reg1 m).pre c := fun c => by
    rw [V3_eq]; exact .rfl
  have hpost1 : ∀ c : Dev nD, (reg1 m).post c ⊢ iprop(StableHlo.held (c : Thread nD τ) (Pipeline.ucRefs τ sig) (Gen.V4 m (outs m) c) ∗ Er (F := F) 2 c) := fun c => by
    rw [V4_eq]; exact .rfl
  have hpre2 : ∀ c : Dev nD, iprop(StableHlo.held (c : Thread nD τ) (Pipeline.ucRefs τ sig) (Gen.V5 m (outs m) c) ∗ Er (F := F) 2 c) ⊢ (reg2 m).pre c := fun c => by
    rw [V5_eq]; exact .rfl
  have hpost2 : ∀ c : Dev nD, (reg2 m).post c ⊢ iprop(StableHlo.held (c : Thread nD τ) (Pipeline.ucRefs τ sig) (Gen.V6 m (outs m) c) ∗ Er (F := F) 3 c) := fun c => by
    rw [V6_eq]; exact .rfl
  have hpre3 : ∀ c : Dev nD, iprop(StableHlo.held (c : Thread nD τ) (Pipeline.ucRefs τ sig) (Gen.V7 m (outs m) c) ∗ Er (F := F) 3 c) ⊢ (reg3 m).pre c := fun c => by
    rw [V7_eq]; exact .rfl
  have hpost3 : ∀ c : Dev nD, (reg3 m).post c ⊢ iprop(StableHlo.held (c : Thread nD τ) (Pipeline.ucRefs τ sig) (Gen.V8 m (outs m) c) ∗ Er (F := F) 4 c) := fun c => by
    rw [V8_eq]; exact .rfl
  have hE4 : ∀ c : Dev nD, Er (F := F) 4 c ⊢ (iprop(∃ W, owes (c : Thread nD τ) (0 : CellTallies nD τ sig Unit) W) : sProp 𝕄) := fun c => by
    iintro ⟨-, HO⟩; iexact HO
  refine Pipeline.θ_run_regions_kit_dev (pcfgs (F := F)) adm (pdats m) () cellOf_inj emb₁ defs₀ 𝒱₀ L lv m ρ main
    (segs m (outs m) 𝒱₀ L lv Er () (pdats m) (reg0 m) (reg1 m) (reg2 m) (reg3 m))
    (fun c Q => by
      rewrite [main_chain c, Seg.run_eq_chain,
        show (segs m (outs m) 𝒱₀ L lv Er () (pdats m) (reg0 m) (reg1 m) (reg2 m) (reg3 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          StableHlo.seq hostOps4_1,
          StableHlo.seq hostOps4_2 ] from rfl]
      exact .rfl)
    (fun c => by simp only [segs, Seg.pipes_host, Seg.pipes_region, Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Er 0 c))
    (Tₙ := fun c => StableHlo.held (c : Thread nD τ) (Pipeline.ucRefs τ sig) (Gen.V11 m (outs m) c))
    (hch := fun c => ⟨.rfl, hpre0 c, hpost0 c, hpre1 c, hpost1 c, hpre2 c, hpost2 c, hpre3 c, hpost3 c, .rfl, .rfl, sep_mono .rfl (hE4 c)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Ulast m c b)
    (hfin := fun c s' => by
      iintro ⟨Hh, HSI⟩
      unfold StableHlo.held
      ihave Hr := (pointsTo_read_all (Pipeline.ucRefs τ sig) (fun b => (((c : Thread nD τ)).1, b)) (Gen.V11 m (outs m) c) s') $$ [Hh HSI]
      · isplitl [Hh] <;> iassumption
      icases Hr with ⟨%h, HSI⟩
      imodintro
      isplitr
      · ipureintro; exact h
      · iexact HSI)
    (hQ := fun _ h => h)

/-- An unscoped TensorCore reference is among those the run reads back. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: every argument array ends holding its launch contents — no host stretch writes one and no
    region may change one, so the last valuation at an argument walks back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨
    (h c _ (mem_uc main_arg0 (by decide))).trans (V11_main_arg0 m (outs m) c),
    (h c _ (mem_uc main_arg1 (by decide))).trans (V11_main_arg1 m (outs m) c),
    (h c _ (mem_uc main_arg2 (by decide))).trans (V11_main_arg2 m (outs m) c),
    (h c _ (mem_uc main_arg3 (by decide))).trans (V11_main_arg3 m (outs m) c),
    (h c _ (mem_uc main_arg4 (by decide))).trans (V11_main_arg4 m (outs m) c),
    (h c _ (mem_uc main_arg5 (by decide))).trans (V11_main_arg5 m (outs m) c),
    (h c _ (mem_uc main_arg6 (by decide))).trans (V11_main_arg6 m (outs m) c),
    (h c _ (mem_uc main_arg7 (by decide))).trans (V11_main_arg7 m (outs m) c),
    (h c _ (mem_uc main_arg8 (by decide))).trans (V11_main_arg8 m (outs m) c),
    (h c _ (mem_uc main_arg9 (by decide))).trans (V11_main_arg9 m (outs m) c),
    (h c _ (mem_uc main_arg10 (by decide))).trans (V11_main_arg10 m (outs m) c),
    (h c _ (mem_uc main_arg11 (by decide))).trans (V11_main_arg11 m (outs m) c)⟩) (run_all m ρ)

end Cert.Kernel.Hand

end
-- ==== Proof.KI.Region0.lean ====
/-
  Region 0 of @main: the first dense transform, one row block of 5000 rows per grid point.
  At a point the body reads its 5000×128 block of the node features and the whole 128×128 weight,
  and stores their matrix product (both operands first narrowed to bf16) over the whole output block.
  Stated at a parameter `V`, the buffer contents the region is entered with: the block each window
  stages at a point, what the body leaves in the output block as a function of the two input blocks,
  the body's triple, the proof data of the pipeline and its body obligation at every grid point.
-/
import proofs.«151026_j58334245814498_1_alg».proof.Proof.Gen.KernelIdeal.Launch
import proofs.«151026_j58334245814498_1_alg».proof.Proof.Gen.KernelIdeal.Skeleton
import proofs.«151026_j58334245814498_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the features is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight, fetched once, is in its staging buffer at every point: its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev rX0 : Rect S5000x128 := Rect.unit (s := S5000x128) ![0, 0] S5000x128.size inb_S5000x128_S5000x128_0_0
abbrev rW0 : Rect S128x128 := Rect.unit (s := S128x128) ![0, 0] S128x128.size inb_S128x128_S128x128_0_0

/-- The output block after the body: the product of the two blocks as loaded, stored whole. -/
def out0_2 (x0 : Vec F S5000x128 .f32) (x1 : Vec F S128x128 .f32) : Vec F S5000x128 .f32 :=
  View.canon [⟨rX0, k0_pay1 (View.ld x0 rX0) (View.ld x1 rW0)⟩]

/-- The one store covers the block. -/
theorem cover0_2 (p0 : Vec F S5000x128 .f32) (y : S5000x128.Idx) :
    ∃ pc ∈ ([⟨rX0, p0⟩] : List (View.Piece (Elt F) S5000x128 .f32)), y ∈ pc.1.set :=
  View.cover_of_tiled [⟨rX0, p0⟩] S5000x128.size (by rfl) y

/-! ## The body's triple -/

set_option maxHeartbeats 1000000 in
/-- The body on whole staging buffers, the inputs' at `x0`, `x1` and the output's at anything, runs to the
    inputs' unchanged and the output's at `out0_2 x0 x1`. -/
theorem sound_kernel0 (c : Dev nD) (E : Set ℕ) (i : grid0.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data on core `c`: the arrays as the region finds them; after the body at point `t` each
    input's buffer at its block and the output's at the product of the two blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  Region 1 of @main: the second fused layer transform, one row block of 5000 rows per grid point.
  At a point the body reads its 5000×128 block of the aggregated features, the 1×128 bias row and the whole
  128×128 weight, adds the bias to every row, clamps below at zero, and stores the matrix product of that
  with the weight (both operands first narrowed to bf16) over the whole output block.
  Stated at a parameter `V`, the buffer contents the region is entered with: the block each window
  stages at a point, what the body leaves in the output block as a function of the three input blocks,
  the body's triple, the proof data of the pipeline and its body obligation at every grid point.
-/
import proofs.«151026_j58334245814498_1_alg».proof.Proof.Gen.KernelIdeal.Launch
import proofs.«151026_j58334245814498_1_alg».proof.Proof.Gen.KernelIdeal.Skeleton
import proofs.«151026_j58334245814498_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev rX1 : Rect S5000x128 := Rect.unit (s := S5000x128) ![0, 0] S5000x128.size inb_S5000x128_S5000x128_0_0
abbrev rB1 : Rect S1x128 := Rect.unit (s := S1x128) ![0, 0] S1x128.size inb_S1x128_S1x128_0_0
abbrev rW1 : Rect S128x128 := Rect.unit (s := S128x128) ![0, 0] S128x128.size inb_S128x128_S128x128_0_0

/-- The output block after the body: the clamped biased block times the weight, stored whole. -/
def out1_3 (x0 : Vec F S5000x128 .f32) (x1 : Vec F S1x128 .f32) (x2 : Vec F S128x128 .f32) : Vec F S5000x128 .f32 :=
  View.canon [⟨rX1, k1_pay1 (View.ld x0 rX1) (View.ld x1 rB1) (View.ld x2 rW1)⟩]

/-- The one store covers the block. -/
theorem cover1_3 (p0 : Vec F S5000x128 .f32) (y : S5000x128.Idx) :
    ∃ pc ∈ ([⟨rX1, p0⟩] : List (View.Piece (Elt F) S5000x128 .f32)), y ∈ pc.1.set :=
  View.cover_of_tiled [⟨rX1, p0⟩] S5000x128.size (by rfl) y

/-! ## The body's triple -/

set_option maxHeartbeats 1000000 in
/-- The body on whole staging buffers, the inputs' at `x0`, `x1`, `x2` and the output's at anything, runs to the
    inputs' unchanged and the output's at `out1_3 x0 x1 x2`. -/
theorem sound_kernel1 (c : Dev nD) (E : Set ℕ) (i : grid1.Coords) (arg1 : Memref sig .tc .vmem S5000x128 .f32) (harg1 : arg1.IsWhole)
    (arg2 : Memref sig .tc .vmem S1x128 .f32) (harg2 : arg2.IsWhole) (arg3 : Memref sig .tc .vmem S128x128 .f32) (harg3 : arg3.IsWhole)
    (arg4 : Memref sig .tc .vmem S5000x128 .f32) (harg4 : arg4.IsWhole)
    (x0 : Vec F S5000x128 .f32) (x1 : Vec F S1x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1_kernel i arg1 harg1 arg2 harg2 arg3 harg3 arg4 harg4) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data on core `c`: the arrays as the region finds them; after the body at point `t` each
    input's buffer at its block and the output's at the body's product; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
/-
  Region 2 of @main: the third fused layer transform, one row block of 5000 rows per grid point.
  At a point the body reads its 5000×128 block of the aggregated features, the 1×128 bias row and the whole
  128×128 weight, adds the bias to every row, clamps below at zero, and stores the matrix product of that
  with the weight (both operands first narrowed to bf16) over the whole output block.
  Stated at a parameter `V`, the buffer contents the region is entered with: the block each window
  stages at a point, what the body leaves in the output block as a function of the three input blocks,
  the body's triple, the proof data of the pipeline and its body obligation at every grid point.
-/
import proofs.«151026_j58334245814498_1_alg».proof.Proof.Gen.KernelIdeal.Launch
import proofs.«151026_j58334245814498_1_alg».proof.Proof.Gen.KernelIdeal.Skeleton
import proofs.«151026_j58334245814498_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev rX2 : Rect S5000x128 := Rect.unit (s := S5000x128) ![0, 0] S5000x128.size inb_S5000x128_S5000x128_0_0
abbrev rB2 : Rect S1x128 := Rect.unit (s := S1x128) ![0, 0] S1x128.size inb_S1x128_S1x128_0_0
abbrev rW2 : Rect S128x128 := Rect.unit (s := S128x128) ![0, 0] S128x128.size inb_S128x128_S128x128_0_0

/-- The output block after the body: the clamped biased block times the weight, stored whole. -/
def out2_3 (x0 : Vec F S5000x128 .f32) (x1 : Vec F S1x128 .f32) (x2 : Vec F S128x128 .f32) : Vec F S5000x128 .f32 :=
  View.canon [⟨rX2, k2_pay1 (View.ld x0 rX2) (View.ld x1 rB2) (View.ld x2 rW2)⟩]

/-- The one store covers the block. -/
theorem cover2_3 (p0 : Vec F S5000x128 .f32) (y : S5000x128.Idx) :
    ∃ pc ∈ ([⟨rX2, p0⟩] : List (View.Piece (Elt F) S5000x128 .f32)), y ∈ pc.1.set :=
  View.cover_of_tiled [⟨rX2, p0⟩] S5000x128.size (by rfl) y

/-! ## The body's triple -/

set_option maxHeartbeats 1000000 in
/-- The body on whole staging buffers, the inputs' at `x0`, `x1`, `x2` and the output's at anything, runs to the
    inputs' unchanged and the output's at `out2_3 x0 x1 x2`. -/
theorem sound_kernel2 (c : Dev nD) (E : Set ℕ) (i : grid2.Coords) (arg1 : Memref sig .tc .vmem S5000x128 .f32) (harg1 : arg1.IsWhole)
    (arg2 : Memref sig .tc .vmem S1x128 .f32) (harg2 : arg2.IsWhole) (arg3 : Memref sig .tc .vmem S128x128 .f32) (harg3 : arg3.IsWhole)
    (arg4 : Memref sig .tc .vmem S5000x128 .f32) (harg4 : arg4.IsWhole)
    (x0 : Vec F S5000x128 .f32) (x1 : Vec F S1x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2_kernel i arg1 harg1 arg2 harg2 arg3 harg3 arg4 harg4) K := by
  simp only [cc2_kernel_eq_skeleton]; unfold cc2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data on core `c`: the arrays as the region finds them; after the body at point `t` each
    input's buffer at its block and the output's at the body's product; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Region3.lean ====
/-
  Region 3 of @main: the column sums of the last aggregate, accumulated over the 20 row blocks in a
  scratch row that the kernel keeps between grid points. At the first point the body clears the scratch;
  at every point it adds to the scratch the sum over the 5000 rows of the point's block, column by
  column; at the last point it copies the scratch into the 1×128 output block, which the pipeline writes
  back there and nowhere else. Stated at a parameter `V`, the buffer contents the region is entered
  with: the accumulated row after each point (`acc3`), the invariant that carries it from point to
  point, the proof data of the pipeline and its body obligation at every grid point.
-/
import proofs.«151026_j58334245814498_1_alg».proof.Proof.Gen.KernelIdeal.Launch
import proofs.«151026_j58334245814498_1_alg».proof.Proof.Gen.KernelIdeal.Skeleton
import proofs.«151026_j58334245814498_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row block of the aggregate is in its staging buffer at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-! ## The accumulated row -/

/-- The scratch row after point `n`: at the first point the cleared row plus the first block's column
    sums, afterwards what the point before left plus this block's column sums. -/
def acc3 (c : Dev nD) : (n : ℕ) → n < cfg3.N → Vec F S1x128 .f32
  | 0, h => k3_pay2 (k3_pay1 (F := F)) (iblk3 V c 0 ⟨0, h⟩)
  | n + 1, h => k3_pay2 (acc3 c n (Nat.lt_of_succ_lt h)) (iblk3 V c 0 ⟨n + 1, h⟩)

theorem acc3_zero (c : Dev nD) (h : 0 < cfg3.N) :
    acc3 V c 0 h = k3_pay2 (k3_pay1 (F := F)) (iblk3 V c 0 ⟨0, h⟩) := rfl
theorem acc3_succ (c : Dev nD) (n : ℕ) (h : n + 1 < cfg3.N) :
    acc3 V c (n + 1) h = k3_pay2 (acc3 V c n (Nat.lt_of_succ_lt h)) (iblk3 V c 0 ⟨n + 1, h⟩) := rfl

/-- The accumulated row at the first point. -/
theorem acc3_first (c : Dev nD) (t : Fin cfg3.N) (h : t.val = 0) :
    acc3 V c t.val t.isLt = k3_pay2 (k3_pay1 (F := F)) (iblk3 V c 0 t) := by
  obtain ⟨n, hn⟩ := t
  cases n with
  | zero => rfl
  | succ n => exact absurd h (Nat.succ_ne_zero n)

/-- The accumulated row at a later point: the row of the point before plus this block's column sums. -/
theorem acc3_pos (c : Dev nD) (t : Fin cfg3.N) (h : t.val ≠ 0) :
    acc3 V c t.val t.isLt = k3_pay2 (acc3 V c (t.val - 1) (Nat.lt_of_le_of_lt (Nat.sub_le _ _) t.isLt)) (iblk3 V c 0 t) := by
  obtain ⟨n, hn⟩ := t
  cases n with
  | zero => exact absurd rfl h
  | succ n => rfl

/-! ## The body's branch conditions -/

/-- The condition of the body's first branch, from the grid coordinate. -/
abbrev cond3_0 (i : grid3.Coords) : Prop :=
  (Scalar.cmpi .ne (Scalar.extui (Scalar.cmpi .eq (BitVec.ofNat 32 (i 0).val) 0#32)) 0#32) = 1#1
/-- The condition of the body's last branch. -/
abbrev cond3_1 (i : grid3.Coords) : Prop := k3_cond2 i = 1#1

/-- The first branch is taken at the first point and nowhere else. -/
theorem hcond3_0 : ∀ t : Fin cfg3.N, cond3_0 (grid3.coords t) ↔ t.val = 0 :=
  (by decide +kernel : ∀ t : Fin grid3.N, cond3_0 (grid3.coords t) ↔ t.val = 0)
/-- The last branch is taken at the last point and nowhere else. -/
theorem hcond3_1 : ∀ t : Fin cfg3.N, cond3_1 (grid3.coords t) ↔ t.val = 19 :=
  (by decide +kernel : ∀ t : Fin grid3.N, cond3_1 (grid3.coords t) ↔ t.val = 19)

/-! ## Where the windows are idle -/

/-- The input block is never idle. -/
theorem liveAt3_0 : ∀ t : Fin cfg3.N, cfg3.idle 0 (grid3.coords t) = false := by decide +kernel
/-- Off the last point the output row is idle: the body stores nothing into it, -/
theorem idleAt3_1 : ∀ t : Fin cfg3.N, ¬cond3_1 (grid3.coords t) → cfg3.idle 1 (grid3.coords t) = true := by decide +kernel
/-- and the pipeline does not write it back. -/
theorem noFlush3_1 : ∀ t : Fin cfg3.N, ¬cond3_1 (grid3.coords t) → (cfg3.win 1).flush t = false := by decide +kernel
/-- At the last point the output row is live. -/
theorem liveAt3_1 : ∀ t : Fin cfg3.N, cond3_1 (grid3.coords t) → cfg3.idle 1 (grid3.coords t) = false := by decide +kernel

/-! ## The body's accesses -/

/-- Every access of a 1×128 row is of the whole row, -/
abbrev rS3 : Rect S1x128 := Rect.unit (s := S1x128) ![0, 0] S1x128.size inb_S1x128_S1x128_0_0
/-- and the block is loaded whole. -/
abbrev rX3 : Rect S5000x128 := Rect.unit (s := S5000x128) ![0, 0] S5000x128.size inb_S5000x128_S5000x128_0_0

/-- Both offsets are zero. -/
theorem hz3 : (![0, 0] : Fin 2 → ℕ) = fun _ => 0 := by funext a; fin_cases a <;> rfl

/-- A list of stores into a row that ends with a store of the whole row covers the row. -/
theorem cover3 (p : Vec F S1x128 .f32) (L : List (View.Piece (Elt F) S1x128 .f32)) (y : S1x128.Idx) :
    ∃ pc ∈ ((⟨rS3, p⟩ : View.Piece (Elt F) S1x128 .f32) :: L), y ∈ pc.1.set :=
  ⟨_, List.mem_cons_self, View.mem_set_unit_zero hz3 inb_S1x128_S1x128_0_0 y⟩

/-! ## The body's triple, by control case -/

set_option maxHeartbeats 1000000 in
/-- At the first point: on whole buffers, the block's at `x0`, the output row's at `x1` and the scratch row's at
    anything, the body clears the scratch row and adds the block's column sums to it; the output row is not touched. -/
theorem sound_kernel3_first (c : Dev nD) (E : Set ℕ) (i : grid3.Coords) (arg1 : Memref sig .tc .vmem S5000x128 .f32) (harg1 : arg1.IsWhole)
    (arg2 : Memref sig .tc .vmem S1x128 .f32) (harg2 : arg2.IsWhole) (arg3 : Memref sig .tc .vmem S1x128 .f32) (harg3 : arg3.IsWhole)
    (hc0 : cond3_0 i) (hc1 : ¬cond3_1 i)
    (x0 : Vec F S5000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k3_pay2 (k3_pay1 (F := F)) x0)) -∗ K ⟨⟩))
      ⊢ wp frame (wpE (defs₀ (F := F)) Variants.none c none) E (cc3_kernel i arg1 harg1 arg2 harg2 arg3 harg3) K := by
  simp only [cc3_kernel_eq_skeleton]; unfold cc3_kernel_skel
  unfold owns
  iintro ⟨⟨%f0, %hf0, H0⟩, ⟨%f1, %hf1, H1⟩, ⟨%d2, %f2, -, H2⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  sl_unfold_words
  rw [View.read_writes_eq_canon _ _ _ (cover3 _ _), View.canon_cons_unit_zero hz3]
  simp only [View.readCov_unit_zero (S := S1x128) _ hz3, View.readAt_eq_ld, View.ld_unit_zero (S := S5000x128) hz3]

set_option maxHeartbeats 1000000 in
/-- Between the first and the last point: the scratch row's buffer at `a`, the body adds the block's column sums
    to it; the output row is not touched. -/
theorem sound_kernel3_mid (c : Dev nD) (E : Set ℕ) (i : grid3.Coords) (arg1 : Memref sig .tc .vmem S5000x128 .f32) (harg1 : arg1.IsWhole)
    (arg2 : Memref sig .tc .vmem S1x128 .f32) (harg2 : arg2.IsWhole) (arg3 : Memref sig .tc .vmem S1x128 .f32) (harg3 : arg3.IsWhole)
    (hc0 : ¬cond3_0 i) (hc1 : ¬cond3_1 i)
    (x0 : Vec F S5000x128 .f32) (x1 : Vec F S1x128 .f32) (a : Vec F S1x128 .f32) (K : PUnit → sProp 𝕄) :
    iprop(owns (c : Thread nD τ) arg1 fullShare x0 ∗ owns (c : Thread nD τ) arg2 fullShare x1 ∗ owns (c : Thread nD τ) arg3 fullShare a
        ∗ (iprop(owns (c : Thread nD τ) arg1 fullShare x0 ∗ owns (c : Thread nD τ) arg2 fullShare x1
            ∗ owns (c : Thread nD τ) arg3 fullShare (k3_pay2 a x0)) -∗ K ⟨⟩))
      ⊢ wp frame (wpE (defs₀ (F := F)) Variants.none c none) E (cc3_kernel i arg1 harg1 arg2 harg2 arg3 harg3) K := by
  simp only [cc3_kernel_eq_skeleton]; unfold cc3_kernel_skel
  unfold owns
  iintro ⟨⟨%f0, %hf0, H0⟩, ⟨%f1, %hf1, H1⟩, ⟨%f2, %hf2, H2⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  sl_unfold_words
  rw [View.read_writes_eq_canon _ _ _ (cover3 _ _), View.canon_unit_zero hz3]
  simp only [View.readAt_eq_ld, View.ld_unit_zero (S := S1x128) hz3, View.ld_unit_zero (S := S5000x128) hz3]

set_option maxHeartbeats 1000000 in
/-- At the last point: the scratch row's buffer at `a` and the output row's at anything, the body adds the block's
    column sums to the scratch row and copies the sum into the output row. -/
theorem sound_kernel3_last (c : Dev nD) (E : Set ℕ) (i : grid3.Coords) (arg1 : Memref sig .tc .vmem S5000x128 .f32) (harg1 : arg1.IsWhole)
    (arg2 : Memref sig .tc .vmem S1x128 .f32) (harg2 : arg2.IsWhole) (arg3 : Memref sig .tc .vmem S1x128 .f32) (harg3 : arg3.IsWhole)
    (hc0 : ¬cond3_0 i) (hc1 : cond3_1 i)
    (x0 : Vec F S5000x128 .f32) (a : Vec F S1x128 .f32) (K : PUnit → sProp 𝕄) :
    iprop(owns (c : Thread nD τ) arg1 fullShare x0 ∗ (∃ d, owns (c : Thread nD τ) arg2 fullShare d) ∗ owns (c : Thread nD τ) arg3 fullShare a
        ∗ (iprop(owns (c : Thread nD τ) arg1 fullShare x0 ∗ owns (c : Thread nD τ) arg2 fullShare (k3_pay2 a x0)
            ∗ owns (c : Thread nD τ) arg3 fullShare (k3_pay2 a x0)) -∗ K ⟨⟩))
      ⊢ wp frame (wpE (defs₀ (F := F)) Variants.none c none) E (cc3_kernel i arg1 harg1 arg2 harg2 arg3 harg3) K := by
  simp only [cc3_kernel_eq_skeleton]; unfold cc3_kernel_skel
  unfold owns
  iintro ⟨⟨%f0, %hf0, H0⟩, ⟨%d1, %f1, -, H1⟩, ⟨%f2, %hf2, H2⟩, Hk⟩
  subst hf0; subst hf2
  sl_exec (disch := first | exact hc0 | exact hc1)
  sl_step
  iapply Hk
  isplitl [H0]
  · iexists f0; isplitr; · ipureintro; rfl
    iexact H0
  isplitl [H1]
  · iexists _; isplitr
    swap; · iexact H1
    ipureintro
    sl_unfold_words
    rw [View.read_writes_eq_canon _ _ _ (cover3 _ _), View.canon_unit_zero hz3]
    simp only [View.readCov_unit_zero (S := S1x128) _ hz3, View.readAt_eq_ld, View.ld_unit_zero (S := S1x128) hz3, View.ld_unit_zero (S := S5000x128) hz3]
  iexists _; isplitr
  swap; · iexact H2
  ipureintro
  sl_unfold_words
  rw [View.read_writes_eq_canon _ _ _ (cover3 _ _), View.canon_unit_zero hz3]
  simp only [View.readAt_eq_ld, View.ld_unit_zero (S := S1x128) hz3, View.ld_unit_zero (S := S5000x128) hz3]

/-! ## The invariant: the scratch row carried between points -/

/-- The scratch row's buffer. -/
abbrev scr3 : Memref sig .tc .vmem S1x128 .f32 := Memref.whole cc3_scratch0

/-- The core's scoped buffers other than this region's staging buffers and the scratch row, each at anything. -/
def rest3 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f)
    ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

/-- The invariant before position `n`: before the first point every scoped buffer at anything and the
    generator register at some state; afterwards the same with the scratch row at what the point before
    left in it. -/
def Phi3 (c : Dev nD) : (n : ℕ) → n ≤ cfg3.N → sProp 𝕄
  | 0, _ => Pipeline.ΦA spec3 c
  | n + 1, hn => iprop(rest3 (F := F) c ∗ owns (c : Thread nD τ) scr3 fullShare (acc3 V c n hn) ∗ (∃ r, prngReg c r))

theorem Phi3_zero (c : Dev nD) (h : 0 ≤ cfg3.N) : Phi3 V c 0 h = Pipeline.ΦA spec3 c := rfl
theorem Phi3_succ (c : Dev nD) (n : ℕ) (hn : n + 1 ≤ cfg3.N) :
    Phi3 V c (n + 1) hn = iprop(rest3 (F := F) c ∗ owns (c : Thread nD τ) scr3 fullShare (acc3 V c n hn) ∗ (∃ r, prngReg c r)) := rfl

/-- Separating conjunction reassociated, as an equation. -/
theorem sep_assoc3 (P Q R : sProp 𝕄) : iprop((P ∗ Q) ∗ R) = iprop(P ∗ Q ∗ R) := BI.equiv_iff.mp ⟨BI.sep_assoc, BI.sep_assoc'⟩

/-- What the launch hands the region, with the scratch row apart from the other scoped buffers. -/
theorem PhiA3_eq (c : Dev nD) :
    (Pipeline.ΦA spec3 c : sProp 𝕄)
      = iprop(rest3 (F := F) c ∗ (∃ d, owns (c : Thread nD τ) scr3 fullShare d) ∗ (∃ r, prngReg c r)) := by
  unfold Pipeline.ΦA; rw [scopedRest3_eq]; unfold rest3; simp only [scr3, owns_whole, sep_assoc3]; rfl

/-- Before a point that is not the first the scratch row holds what the point before left. -/
theorem Phi3_pos (c : Dev nD) (n : ℕ) (h : n ≤ cfg3.N) (hz : n ≠ 0) :
    Phi3 V c n h = iprop(rest3 (F := F) c
      ∗ owns (c : Thread nD τ) scr3 fullShare (acc3 V c (n - 1) (Nat.lt_of_lt_of_le (Nat.sub_lt (Nat.pos_of_ne_zero hz) Nat.one_pos) h))
      ∗ (∃ r, prngReg c r)) := by
  cases n with
  | zero => exact absurd rfl hz
  | succ n => rfl

/-! ## The pipeline's proof data -/

/-- The proof data on core `c`: the arrays as the region finds them; after the body at point `t` the
    input's buffer at its block and the output's at the accumulated row (consulted only at the last point,
    the one point that stores it and writes it back); the invariant `Phi3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => acc3 V c t.val t.isLt
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = acc3 V c t.val t.isLt := by dsimp only [dat3]

theorem before3_0 (c : Dev nD) (t : Fin cfg3.N) (d) : (dat3 V c).before 0 t d = iblk3 V c 0 t :=
  before3_0_of V (dat3 V c) (A_eq3 V c 0) (after3_0 V c) t d

/-- The invariant at a point's start, restated at the point's number. -/
theorem Phi3_castSucc (c : Dev nD) (t : Fin cfg3.N) :
    (dat3 V c).Φ t.castSucc = Phi3 V c t.val (Nat.le_of_lt t.isLt) := by
  dsimp only [dat3]; simp only [Fin.coe_castSucc]

/-- The invariant before the first point is what the launch hands the region. -/
theorem Phi3_first (c : Dev nD) : (dat3 V c).Φ 0 = Pipeline.ΦA spec3 c := rfl

/-- After the last point the invariant gives the scoped rest and the generator register back: the
    scratch row's named contents are forgotten. -/
theorem Phi3_last (c : Dev nD) : (dat3 V c).Φ (Fin.last cfg3.N) ⊢ Pipeline.ΦA spec3 c := by
  rw [show (dat3 V c).Φ (Fin.last cfg3.N) = Phi3 V c (Fin.last cfg3.N).val (Nat.le_of_lt_succ (Fin.last cfg3.N).isLt) from rfl,
    Phi3_pos V c _ _ (by rw [Fin.val_last]; have : cfg3.N = 20 := N_3; omega), PhiA3_eq]
  iintro ⟨HR, HS, Hg⟩
  isplitl [HR]; · iexact HR
  isplitl [HS]; · iexists _; iexact HS
  iexact Hg

/-! ## The body obligation -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

/-- and what it returns: the output row's buffer as found wherever the point is idle for it. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t)

set_option maxHeartbeats 2000000 in
/-- The body at any point, by the point's control case: the invariant hands the body the scratch row at what the
    point before left (at anything at the first point) and takes it back at this point's accumulated row. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).owesAt () t.succ = (dat3 V c).owesAt () t.castSucc from rfl]
  rw [show (dat3 V c).Φ t.succ = Phi3 V c (t.val + 1) t.isLt from rfl, Phi3_succ]
  rw [show (dat3 V c).leavesExact 0 t = owns (c : Thread nD τ) (st3_0 t) fullShare ((dat3 V c).after 0 t) from by
    unfold Dat.leavesExact; rw [liveAt3_0 t], after3_0]
  have hN : t.val < 20 := lt_of_lt_of_eq t.isLt (show cfg3.N = 20 from N_3)
  by_cases h1 : t.val = 19
  · have hz : t.val ≠ 0 := by omega
    have hc1 : cond3_1 (grid3.coords t) := (hcond3_1 t).mpr h1
    have hc0 : ¬cond3_0 (grid3.coords t) := fun h => hz ((hcond3_0 t).mp h)
    rw [show (dat3 V c).leavesExact 1 t = owns (c : Thread nD τ) (st3_1 t) fullShare ((dat3 V c).after 1 t) from by
      unfold Dat.leavesExact; rw [liveAt3_1 t hc1], after3_1]
    rw [Phi3_castSucc V c t, Phi3_pos V c _ _ hz, acc3_pos V c t hz]
    iintro ⟨⟨HR, HS, Hg⟩, Ho, ⟨%d0, H0⟩, ⟨%d1, H1⟩⟩
    iapply (sound_kernel3_last c Set.univ _ _ _ _ _ _ _ hc0 hc1 (iblk3 V c 0 t) (acc3 V c (t.val - 1) (Nat.lt_of_le_of_lt (Nat.sub_le _ _) t.isLt)) _)
    isplitl [H0]; · iexact H0
    isplitl [H1]; · iexists _; iexact H1
    isplitl [HS]; · iexact HS
    iintro ⟨H0, H1, HS⟩
    isplitl [HR HS Hg]
    · isplitl [HR]; · iexact HR
      isplitl [HS]; · iexact HS
      iexact Hg
    isplitl [Ho]; · iexact Ho
    isplitl [H0]; · iexact H0
    iexact H1
  · have hc1 : ¬cond3_1 (grid3.coords t) := fun h => h1 ((hcond3_1 t).mp h)
    rw [Dat.leavesExact_idle (dat3 V c) 1 t (idleAt3_1 t hc1) (noFlush3_1 t hc1)]
    by_cases hz : t.val = 0
    · have hc0 : cond3_0 (grid3.coords t) := (hcond3_0 t).mpr hz
      rw [Phi3_castSucc V c t, show Phi3 V c t.val (Nat.le_of_lt t.isLt) = Pipeline.ΦA spec3 c from by
        obtain ⟨n, hn⟩ := t; subst hz; rfl, PhiA3_eq, acc3_first V c t hz]
      iintro ⟨⟨HR, HS, Hg⟩, Ho, ⟨%d0, H0⟩, ⟨%d1, H1⟩⟩
      iapply (sound_kernel3_first c Set.univ _ _ _ _ _ _ _ hc0 hc1 (iblk3 V c 0 t) ((dat3 V c).before 1 t d1) _)
      isplitl [H0]; · iexact H0
      isplitl [H1]; · iexact H1
      isplitl [HS]; · iexact HS
      iintro ⟨H0, H1, HS⟩
      isplitl [HR HS Hg]
      · isplitl [HR]; · iexact HR
        isplitl [HS]; · iexact HS
        iexact Hg
      isplitl [Ho]; · iexact Ho
      isplitl [H0]; · iexact H0
      iexists d1; iexact H1
    · have hc0 : ¬cond3_0 (grid3.coords t) := fun h => hz ((hcond3_0 t).mp h)
      rw [Phi3_castSucc V c t, Phi3_pos V c _ _ hz, acc3_pos V c t hz]
      iintro ⟨⟨HR, HS, Hg⟩, Ho, ⟨%d0, H0⟩, ⟨%d1, H1⟩⟩
      iapply (sound_kernel3_mid c Set.univ _ _ _ _ _ _ _ hc0 hc1 (iblk3 V c 0 t) ((dat3 V c).before 1 t d1) (acc3 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HR HS Hg]
      · isplitl [HR]; · iexact HR
        isplitl [HS]; · iexact HS
        iexact Hg
      isplitl [Ho]; · iexact Ho
      isplitl [H0]; · iexact H0
      iexists d1; iexact H1

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Run.lean ====
/-
  The run of the whole program: @main is host operations, the first dense transform, host operations
  (a gather along the edges, the edge weights, a scatter-add back onto the nodes), the second fused
  transform, the same host operations again, the third fused transform, once more, the column sums, and
  a closing stretch of host operations. Between two items each core holds every unscoped buffer at a
  named valuation: the launch memory, then each host stretch's operations applied, then each region's
  output array replaced by what the pipeline's write-backs leave. The four regions enter the launch as
  records over those thread states; the launch gives that every weakly fair execution terminates with
  every unscoped buffer at the last valuation, from which both the frame (the arguments are never
  written) and the value of the result are read.
-/
import proofs.«151026_j58334245814498_1_alg».proof.Proof.KI.Region0
import proofs.«151026_j58334245814498_1_alg».proof.Proof.KI.Region1
import proofs.«151026_j58334245814498_1_alg».proof.Proof.KI.Region2
import proofs.«151026_j58334245814498_1_alg».proof.Proof.KI.Region3
import proofs.«151026_j58334245814498_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between @main's items

Before item 0 core `c` holds the launch memory; a host stretch applies its operations; a region leaves
its output array at what the pipeline's write-backs fold to and everything else as it found it. -/

/-- After the first host stretch: the contents region 0 is entered with. -/
abbrev U1 (c : Dev nD) : Valuation τ sig (Elt F) := Gen.V1 m c
/-- The same read at the TensorCore's references: what region 0's proof data take. -/
abbrev E1 : (c : Dev nD) → (b : Ref sig .tc) → Buf (Elt F) ((c : Thread nD τ).loc b) := fun c b => U1 m c b
/-- What region 0 leaves in its output array `main_v29`. -/
def arr0 (c : Dev nD) : Buf (Elt F) ((c : Thread nD τ).loc main_v29) := (dat0 (E1 m) c).arrAt 2 cfg0.N
/-- After region 0: its output array at that, every other buffer as entered. -/
def U2 (c : Dev nD) : Valuation τ sig (Elt F) := Function.update (U1 m c) main_v29 (arr0 m c)
/-- The same read at the TensorCore's references. -/
abbrev E2 : (c : Dev nD) → (b : Ref sig .tc) → Buf (Elt F) ((c : Thread nD τ).loc b) := fun c b => U2 m c b
/-- After the host stretch that follows: the contents region 1 is entered with. -/
abbrev U3 (c : Dev nD) : Valuation τ sig (Elt F) := StableHlo.after hostOps1 (U2 m c)
/-- The same read at the TensorCore's references: what region 1's proof data take. -/
abbrev E3 : (c : Dev nD) → (b : Ref sig .tc) → Buf (Elt F) ((c : Thread nD τ).loc b) := fun c b => U3 m c b
/-- What region 1 leaves in its output array `main_v44`. -/
def arr1 (c : Dev nD) : Buf (Elt F) ((c : Thread nD τ).loc main_v44) := (dat1 (E3 m) c).arrAt 3 cfg1.N
/-- After region 1: its output array at that, every other buffer as entered. -/
def U4 (c : Dev nD) : Valuation τ sig (Elt F) := Function.update (U3 m c) main_v44 (arr1 m c)
/-- The same read at the TensorCore's references. -/
abbrev E4 : (c : Dev nD) → (b : Ref sig .tc) → Buf (Elt F) ((c : Thread nD τ).loc b) := fun c b => U4 m c b
/-- After the host stretch that follows: the contents region 2 is entered with. -/
abbrev U5 (c : Dev nD) : Valuation τ sig (Elt F) := StableHlo.after hostOps2 (U4 m c)
/-- The same read at the TensorCore's references: what region 2's proof data take. -/
abbrev E5 : (c : Dev nD) → (b : Ref sig .tc) → Buf (Elt F) ((c : Thread nD τ).loc b) := fun c b => U5 m c b
/-- What region 2 leaves in its output array `main_v59`. -/
def arr2 (c : Dev nD) : Buf (Elt F) ((c : Thread nD τ).loc main_v59) := (dat2 (E5 m) c).arrAt 3 cfg2.N
/-- After region 2: its output array at that, every other buffer as entered. -/
def U6 (c : Dev nD) : Valuation τ sig (Elt F) := Function.update (U5 m c) main_v59 (arr2 m c)
/-- The same read at the TensorCore's references. -/
abbrev E6 : (c : Dev nD) → (b : Ref sig .tc) → Buf (Elt F) ((c : Thread nD τ).loc b) := fun c b => U6 m c b
/-- After the host stretch that follows: the contents region 3 is entered with. -/
abbrev U7 (c : Dev nD) : Valuation τ sig (Elt F) := StableHlo.after hostOps3 (U6 m c)
/-- The same read at the TensorCore's references: what region 3's proof data take. -/
abbrev E7 : (c : Dev nD) → (b : Ref sig .tc) → Buf (Elt F) ((c : Thread nD τ).loc b) := fun c b => U7 m c b
/-- What region 3 leaves in its output array `main_v73`. -/
def arr3 (c : Dev nD) : Buf (Elt F) ((c : Thread nD τ).loc main_v73) := (dat3 (E7 m) c).arrAt 1 cfg3.N
/-- After region 3: its output array at that, every other buffer as entered. -/
def U8 (c : Dev nD) : Valuation τ sig (Elt F) := Function.update (U7 m c) main_v73 (arr3 m c)
/-- The same read at the TensorCore's references. -/
abbrev E8 : (c : Dev nD) → (b : Ref sig .tc) → Buf (Elt F) ((c : Thread nD τ).loc b) := fun c b => U8 m c b

/-- What the regions leave, as the generated thread states ask for it: the contents after item J−1. -/
def outs : Outs (F := F) := fun J r c => match J with
  | 2 => U2 m c r
  | 4 => U4 m c r
  | 6 => U6 m c r
  | 8 => U8 m c r
  | _ => m ((c : Thread nD τ).loc r)

theorem V2_eq (c : Dev nD) : Gen.V2 m (outs m) c = U2 m c := by
  show Function.update (Gen.V1 m c) main_v29 (U2 m c main_v29) = U2 m c
  unfold U2; rw [Function.update_self]
theorem V3_eq (c : Dev nD) : Gen.V3 m (outs m) c = U3 m c := by
  show StableHlo.after hostOps1 (Gen.V2 m (outs m) c) = _
  rw [V2_eq]
theorem V4_eq (c : Dev nD) : Gen.V4 m (outs m) c = U4 m c := by
  show Function.update (Gen.V3 m (outs m) c) main_v44 (U4 m c main_v44) = U4 m c
  rw [V3_eq]; unfold U4; rw [Function.update_self]
theorem V5_eq (c : Dev nD) : Gen.V5 m (outs m) c = U5 m c := by
  show StableHlo.after hostOps2 (Gen.V4 m (outs m) c) = _
  rw [V4_eq]
theorem V6_eq (c : Dev nD) : Gen.V6 m (outs m) c = U6 m c := by
  show Function.update (Gen.V5 m (outs m) c) main_v59 (U6 m c main_v59) = U6 m c
  rw [V5_eq]; unfold U6; rw [Function.update_self]
theorem V7_eq (c : Dev nD) : Gen.V7 m (outs m) c = U7 m c := by
  show StableHlo.after hostOps3 (Gen.V6 m (outs m) c) = _
  rw [V6_eq]
theorem V8_eq (c : Dev nD) : Gen.V8 m (outs m) c = U8 m c := by
  show Function.update (Gen.V7 m (outs m) c) main_v73 (U8 m c main_v73) = U8 m c
  rw [V7_eq]; unfold U8; rw [Function.update_self]

/-! ## The proof data family and what rides beside the buffers -/

/-- Every pipeline's proof data, each at its region's entry contents. -/
def pdats : (p : Fin 4) → (c : Dev nD) → Dat τ (Elt F) Unit ℕ (UR sig nD τ) ℕ (cfgs p) c
  | ⟨0, _⟩ => fun c => dat0 (E1 m) c
  | ⟨1, _⟩ => fun c => dat1 (E3 m) c
  | ⟨2, _⟩ => fun c => dat2 (E5 m) c
  | ⟨3, _⟩ => fun c => dat3 (E7 m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every item: the generator register at some state and the core owing nothing. -/
abbrev Rr (c : Dev nD) : sProp 𝕄 := iprop((∃ r, prngReg c r) ∗ ∃ W, owes (c : Thread nD τ) (0 : CellTallies nD τ sig Unit) W)
abbrev Er : Fin 5 → Dev nD → sProp 𝕄 := fun _ c => Rr c

/-- Region 0 changes no buffer but its output array, -/
theorem kept0 (c : Dev nD) (b : Ref sig .tc) (hne : b ≠ main_v29) : E2 m c b = E1 m c b := by
  show U2 m c b = U1 m c b
  unfold U2; rw [Function.update_of_ne (StableHlo.devRef_ne_of_ne hne : (Proc.devRef .tc b : DevRef τ sig) ≠ Proc.devRef .tc main_v29)]
/-- which it leaves at the fold of its write-backs. -/
theorem left0 (c : Dev nD) : E2 m c main_v29 = arr0 m c := by
  show U2 m c main_v29 = arr0 m c
  unfold U2; rw [Function.update_self]

/-- At region 0's exit each of its arrays holds what the pipeline leaves: an input what it held at
    entry, the output the fold of its write-backs. -/
theorem hF0 (c : Dev nD) : (w : Fin cfg0.W) → (dat0 (E1 m) c).arrAt w cfg0.N = E2 m c (Pipeline.arrRef spec0 w)
  | ⟨0, _⟩ => ((dat0 (E1 m) c).arrAt_in _ rfl _).trans ((A_eq0 (E1 m) c _).trans (kept0 m c main_arg0 (by decide)).symm)
  | ⟨1, _⟩ => ((dat0 (E1 m) c).arrAt_in _ rfl _).trans ((A_eq0 (E1 m) c _).trans (kept0 m c main_arg2 (by decide)).symm)
  | ⟨2, _⟩ => (left0 m c).symm

/-- and every other buffer what it held at entry. -/
theorem hrest0 (c : Dev nD) : ∀ b, b ∉ Finset.univ.image (Pipeline.arrRef spec0) → E2 m c b = E1 m c b := by
  intro b hb
  exact kept0 m c b fun e => hb (Finset.mem_image.mpr ⟨2, Finset.mem_univ _, e.symm⟩)

set_option backward.isDefEq.respectTransparency.types false in
/-- REGION 0 over the thread state: entered with every unscoped buffer at the contents before it, left
    with them at the contents after it; its arrays split out of the unscoped buffers at entry and put back
    at the exit contents; the generator register into the invariant and out; nothing owed; no semaphore
    of the kernel's own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (U1 m c) ∗ Rr c)
  post c := iprop(StableHlo.held (c : Thread nD τ) (Pipeline.ucRefs τ sig) (U2 m c) ∗ Rr c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 1 changes no buffer but its output array, -/
theorem kept1 (c : Dev nD) (b : Ref sig .tc) (hne : b ≠ main_v44) : E4 m c b = E3 m c b := by
  show U4 m c b = U3 m c b
  unfold U4; rw [Function.update_of_ne (StableHlo.devRef_ne_of_ne hne : (Proc.devRef .tc b : DevRef τ sig) ≠ Proc.devRef .tc main_v44)]
/-- which it leaves at the fold of its write-backs. -/
theorem left1 (c : Dev nD) : E4 m c main_v44 = arr1 m c := by
  show U4 m c main_v44 = arr1 m c
  unfold U4; rw [Function.update_self]

/-- At region 1's exit each of its arrays holds what the pipeline leaves: an input what it held at
    entry, the output the fold of its write-backs. -/
theorem hF1 (c : Dev nD) : (w : Fin cfg1.W) → (dat1 (E3 m) c).arrAt w cfg1.N = E4 m c (Pipeline.arrRef spec1 w)
  | ⟨0, _⟩ => ((dat1 (E3 m) c).arrAt_in _ rfl _).trans ((A_eq1 (E3 m) c _).trans (kept1 m c main_v42 (by decide)).symm)
  | ⟨1, _⟩ => ((dat1 (E3 m) c).arrAt_in _ rfl _).trans ((A_eq1 (E3 m) c _).trans (kept1 m c main_v43 (by decide)).symm)
  | ⟨2, _⟩ => ((dat1 (E3 m) c).arrAt_in _ rfl _).trans ((A_eq1 (E3 m) c _).trans (kept1 m c main_arg4 (by decide)).symm)
  | ⟨3, _⟩ => (left1 m c).symm

/-- and every other buffer what it held at entry. -/
theorem hrest1 (c : Dev nD) : ∀ b, b ∉ Finset.univ.image (Pipeline.arrRef spec1) → E4 m c b = E3 m c b := by
  intro b hb
  exact kept1 m c b fun e => hb (Finset.mem_image.mpr ⟨3, Finset.mem_univ _, e.symm⟩)

set_option backward.isDefEq.respectTransparency.types false in
/-- REGION 1 over the thread state: entered with every unscoped buffer at the contents before it, left
    with them at the contents after it; its arrays split out of the unscoped buffers at entry and put back
    at the exit contents; the generator register into the invariant and out; nothing owed; no semaphore
    of the kernel's own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (U3 m c) ∗ Rr c)
  post c := iprop(StableHlo.held (c : Thread nD τ) (Pipeline.ucRefs τ sig) (U4 m c) ∗ Rr c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 2 changes no buffer but its output array, -/
theorem kept2 (c : Dev nD) (b : Ref sig .tc) (hne : b ≠ main_v59) : E6 m c b = E5 m c b := by
  show U6 m c b = U5 m c b
  unfold U6; rw [Function.update_of_ne (StableHlo.devRef_ne_of_ne hne : (Proc.devRef .tc b : DevRef τ sig) ≠ Proc.devRef .tc main_v59)]
/-- which it leaves at the fold of its write-backs. -/
theorem left2 (c : Dev nD) : E6 m c main_v59 = arr2 m c := by
  show U6 m c main_v59 = arr2 m c
  unfold U6; rw [Function.update_self]

/-- At region 2's exit each of its arrays holds what the pipeline leaves: an input what it held at
    entry, the output the fold of its write-backs. -/
theorem hF2 (c : Dev nD) : (w : Fin cfg2.W) → (dat2 (E5 m) c).arrAt w cfg2.N = E6 m c (Pipeline.arrRef spec2 w)
  | ⟨0, _⟩ => ((dat2 (E5 m) c).arrAt_in _ rfl _).trans ((A_eq2 (E5 m) c _).trans (kept2 m c main_v57 (by decide)).symm)
  | ⟨1, _⟩ => ((dat2 (E5 m) c).arrAt_in _ rfl _).trans ((A_eq2 (E5 m) c _).trans (kept2 m c main_v58 (by decide)).symm)
  | ⟨2, _⟩ => ((dat2 (E5 m) c).arrAt_in _ rfl _).trans ((A_eq2 (E5 m) c _).trans (kept2 m c main_arg6 (by decide)).symm)
  | ⟨3, _⟩ => (left2 m c).symm

/-- and every other buffer what it held at entry. -/
theorem hrest2 (c : Dev nD) : ∀ b, b ∉ Finset.univ.image (Pipeline.arrRef spec2) → E6 m c b = E5 m c b := by
  intro b hb
  exact kept2 m c b fun e => hb (Finset.mem_image.mpr ⟨3, Finset.mem_univ _, e.symm⟩)

set_option backward.isDefEq.respectTransparency.types false in
/-- REGION 2 over the thread state: entered with every unscoped buffer at the contents before it, left
    with them at the contents after it; its arrays split out of the unscoped buffers at entry and put back
    at the exit contents; the generator register into the invariant and out; nothing owed; no semaphore
    of the kernel's own. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ L lv 2 fun _ _ => rfl
  pre c := iprop(StableHlo.held (c : Thread nD τ) (Pipeline.ucRefs τ sig) (U5 m c) ∗ Rr c)
  post c := iprop(StableHlo.held (c : Thread nD τ) (Pipeline.ucRefs τ sig) (U6 m c) ∗ Rr c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E5 m c) (E6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 3 changes no buffer but its output array, -/
theorem kept3 (c : Dev nD) (b : Ref sig .tc) (hne : b ≠ main_v73) : E8 m c b = E7 m c b := by
  show U8 m c b = U7 m c b
  unfold U8; rw [Function.update_of_ne (StableHlo.devRef_ne_of_ne hne : (Proc.devRef .tc b : DevRef τ sig) ≠ Proc.devRef .tc main_v73)]
/-- which it leaves at the fold of its write-backs. -/
theorem left3 (c : Dev nD) : E8 m c main_v73 = arr3 m c := by
  show U8 m c main_v73 = arr3 m c
  unfold U8; rw [Function.update_self]

/-- At region 3's exit each of its arrays holds what the pipeline leaves: an input what it held at
    entry, the output the fold of its write-backs. -/
theorem hF3 (c : Dev nD) : (w : Fin cfg3.W) → (dat3 (E7 m) c).arrAt w cfg3.N = E8 m c (Pipeline.arrRef spec3 w)
  | ⟨0, _⟩ => ((dat3 (E7 m) c).arrAt_in _ rfl _).trans ((A_eq3 (E7 m) c _).trans (kept3 m c main_v72 (by decide)).symm)
  | ⟨1, _⟩ => (left3 m c).symm

/-- and every other buffer what it held at entry. -/
theorem hrest3 (c : Dev nD) : ∀ b, b ∉ Finset.univ.image (Pipeline.arrRef spec3) → E8 m c b = E7 m c b := by
  intro b hb
  exact kept3 m c b fun e => hb (Finset.mem_image.mpr ⟨1, Finset.mem_univ _, e.symm⟩)

set_option backward.isDefEq.respectTransparency.types false in
/-- REGION 3 over the thread state: entered with every unscoped buffer at the contents before it, left
    with them at the contents after it; its arrays split out of the unscoped buffers at entry and put back
    at the exit contents; the generator register into the invariant and out; nothing owed; no semaphore
    of the kernel's own. -/
def reg3 : RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E7 m) c).loose
  hwaits := Pipeline.hwaits_of_owed_zero _ _ _ _ L lv 3 fun _ _ => rfl
  pre c := iprop(StableHlo.held (c : Thread nD τ) (Pipeline.ucRefs τ sig) (U7 m c) ∗ Rr c)
  post c := iprop(StableHlo.held (c : Thread nD τ) (Pipeline.ucRefs τ sig) (U8 m c) ∗ Rr c)
  X c := iprop(∃ r, prngReg c r)
  Y c := iprop(∃ r, prngReg c r)
  Z c := Pipeline.unscopedRest (Ix := Unit) (Name := ℕ) (U := UR sig nD τ) (Lvl := ℕ) spec3 c (E7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none]
    refine (Phi3_last (E7 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E7 m c) (E8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The last valuation: after the three closing host stretches. -/
abbrev Ulast (c : Dev nD) : Valuation τ sig (Elt F) := Gen.V11 m (outs m) c

set_option backward.isDefEq.respectTransparency.types false in
/-- THE RUN. From any memory with zero counters every weakly fair execution of @main terminates, nothing
    faulting, and every final memory holds each unscoped buffer of each core at the last valuation: the
    launch contents carried through the host stretches and the four regions. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Ulast m c b) := by
  have hpre0 : ∀ c : Dev nD, iprop(StableHlo.held (c : Thread nD τ) (Pipeline.ucRefs τ sig) (Gen.V1 m c) ∗ Er (F := F) 0 c) ⊢ (reg0 m).pre c := fun c => .rfl
  have hpost0 : ∀ c : Dev nD, (reg0 m).post c ⊢ iprop(StableHlo.held (c : Thread nD τ) (Pipeline.ucRefs τ sig) (Gen.V2 m (outs m) c) ∗ Er (F := F) 1 c) := fun c => by
    rw [V2_eq]; exact .rfl
  have hpre1 : ∀ c : Dev nD, iprop(StableHlo.held (c : Thread nD τ) (Pipeline.ucRefs τ sig) (Gen.V3 m (outs m) c) ∗ Er (F := F) 1 c) ⊢ (reg1 m).pre c := fun c => by
    rw [V3_eq]; exact .rfl
  have hpost1 : ∀ c : Dev nD, (reg1 m).post c ⊢ iprop(StableHlo.held (c : Thread nD τ) (Pipeline.ucRefs τ sig) (Gen.V4 m (outs m) c) ∗ Er (F := F) 2 c) := fun c => by
    rw [V4_eq]; exact .rfl
  have hpre2 : ∀ c : Dev nD, iprop(StableHlo.held (c : Thread nD τ) (Pipeline.ucRefs τ sig) (Gen.V5 m (outs m) c) ∗ Er (F := F) 2 c) ⊢ (reg2 m).pre c := fun c => by
    rw [V5_eq]; exact .rfl
  have hpost2 : ∀ c : Dev nD, (reg2 m).post c ⊢ iprop(StableHlo.held (c : Thread nD τ) (Pipeline.ucRefs τ sig) (Gen.V6 m (outs m) c) ∗ Er (F := F) 3 c) := fun c => by
    rw [V6_eq]; exact .rfl
  have hpre3 : ∀ c : Dev nD, iprop(StableHlo.held (c : Thread nD τ) (Pipeline.ucRefs τ sig) (Gen.V7 m (outs m) c) ∗ Er (F := F) 3 c) ⊢ (reg3 m).pre c := fun c => by
    rw [V7_eq]; exact .rfl
  have hpost3 : ∀ c : Dev nD, (reg3 m).post c ⊢ iprop(StableHlo.held (c : Thread nD τ) (Pipeline.ucRefs τ sig) (Gen.V8 m (outs m) c) ∗ Er (F := F) 4 c) := fun c => by
    rw [V8_eq]; exact .rfl
  have hE4 : ∀ c : Dev nD, Er (F := F) 4 c ⊢ (iprop(∃ W, owes (c : Thread nD τ) (0 : CellTallies nD τ sig Unit) W) : sProp 𝕄) := fun c => by
    iintro ⟨-, HO⟩; iexact HO
  refine Pipeline.θ_run_regions_kit_dev (pcfgs (F := F)) adm (pdats m) () cellOf_inj emb₁ defs₀ 𝒱₀ L lv m ρ main
    (segs m (outs m) 𝒱₀ L lv Er () (pdats m) (reg0 m) (reg1 m) (reg2 m) (reg3 m))
    (fun c Q => by
      rewrite [main_chain c, Seg.run_eq_chain,
        show (segs m (outs m) 𝒱₀ L lv Er () (pdats m) (reg0 m) (reg1 m) (reg2 m) (reg3 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          StableHlo.seq hostOps4_1,
          StableHlo.seq hostOps4_2 ] from rfl]
      exact .rfl)
    (fun c => by simp only [segs, Seg.pipes_host, Seg.pipes_region, Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Er 0 c))
    (Tₙ := fun c => StableHlo.held (c : Thread nD τ) (Pipeline.ucRefs τ sig) (Gen.V11 m (outs m) c))
    (hch := fun c => ⟨.rfl, hpre0 c, hpost0 c, hpre1 c, hpost1 c, hpre2 c, hpost2 c, hpre3 c, hpost3 c, .rfl, .rfl, sep_mono .rfl (hE4 c)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Ulast m c b)
    (hfin := fun c s' => by
      iintro ⟨Hh, HSI⟩
      unfold StableHlo.held
      ihave Hr := (pointsTo_read_all (Pipeline.ucRefs τ sig) (fun b => (((c : Thread nD τ)).1, b)) (Gen.V11 m (outs m) c) s') $$ [Hh HSI]
      · isplitl [Hh] <;> iassumption
      icases Hr with ⟨%h, HSI⟩
      imodintro
      isplitr
      · ipureintro; exact h
      · iexact HSI)
    (hQ := fun _ h => h)

/-- An unscoped TensorCore reference is among those the run reads back. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: every argument array ends holding its launch contents — no host stretch writes one and no
    region may change one, so the last valuation at an argument walks back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨
    (h c _ (mem_uc main_arg0 (by decide))).trans (V11_main_arg0 m (outs m) c),
    (h c _ (mem_uc main_arg1 (by decide))).trans (V11_main_arg1 m (outs m) c),
    (h c _ (mem_uc main_arg2 (by decide))).trans (V11_main_arg2 m (outs m) c),
    (h c _ (mem_uc main_arg3 (by decide))).trans (V11_main_arg3 m (outs m) c),
    (h c _ (mem_uc main_arg4 (by decide))).trans (V11_main_arg4 m (outs m) c),
    (h c _ (mem_uc main_arg5 (by decide))).trans (V11_main_arg5 m (outs m) c),
    (h c _ (mem_uc main_arg6 (by decide))).trans (V11_main_arg6 m (outs m) c),
    (h c _ (mem_uc main_arg7 (by decide))).trans (V11_main_arg7 m (outs m) c),
    (h c _ (mem_uc main_arg8 (by decide))).trans (V11_main_arg8 m (outs m) c),
    (h c _ (mem_uc main_arg9 (by decide))).trans (V11_main_arg9 m (outs m) c),
    (h c _ (mem_uc main_arg10 (by decide))).trans (V11_main_arg10 m (outs m) c),
    (h c _ (mem_uc main_arg11 (by decide))).trans (V11_main_arg11 m (outs m) c)⟩) (run_all m ρ)

end Cert.KernelIdeal.Hand

end
-- ==== Proof.Ref.Stages.lean ====
/-
  The reference program's run read back one operation at a time: this module gathers the two generated
  accounts of it (the run as a composed term of the arguments; each operation read at an index) for the
  modules that compare the reference with the kernel.
-/
import proofs.«151026_j58334245814498_1_alg».proof.Proof.Gen.ReferenceIdeal.Run
import proofs.«151026_j58334245814498_1_alg».proof.Proof.Gen.ReferenceIdeal.Read
-- ==== Proof.Val.Value0.lean ====
/-
  What region 0 leaves in its output array, over the extended reals: entry (i, j) is the sum over k of
  feature (i, k) times weight (k, j). Each grid point writes the 5000 rows of its block, the blocks tile
  the 100000 rows, and narrowing an operand to bf16 is the identity on extended reals, so the array is
  the reference's first matrix product of the same two arrays.

  In order: the block product at an entry (the contraction index re-indexed by its one coordinate); the
  product array as one function of the two arrays and its entry as the same sum; where an entry of each
  block sits in its array (row p of block t is row 5000·t + p, the weight's one block is the weight);
  what a grid point writes back, which is block t of the product array; the blocks cover every row
  (row r is in block r / 5000); so the array after the run is the product array.
-/
import proofs.«151026_j58334245814498_1_alg».proof.Proof.KI.Region0
import proofs.«151026_j58334245814498_1_alg».proof.Proof.Ref.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue.L0

open Cert.KernelIdeal Cert.KernelIdeal.Gen Cert.KernelIdeal.Hand
open Idealize.ShloMosaic Idealize.ShloMosaic.TcCoe Idealize.SL.Sem
open Idealize.ShloMosaic.Pipeline (Dat Cfg Window)
open Idealize.ShloMosaic.ValueIdx

-- the buffer contents the region is entered with, read as extended reals
variable (V : (c : Dev nD) → (b : Ref sig .tc) → Buf (Elt Ideal) ((c : Thread nD τ).loc b))

/-! ## The block product at an entry -/

-- The operand entries a product entry reads: at output (i, j) and contraction index k, the left operand's
-- (i, k) and the right operand's (k, j), one coordinate at a time.
theorem blockDot_lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem blockDot_lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem blockDot_rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem blockDot_rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of the body's product of a row block and the weight: the sum over k of row-block (p, k) times weight (k, q). -/
theorem pay_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  show FloatOps.matmul dot_S5000x128_S128x128_S5000x128_1_0_0_1_n_n none (truncf .bf16 x0 bitsLt_bf16_f32) (truncf .bf16 x1 bitsLt_bf16_f32) (constant (F := Ideal) S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact blockDot_lhs_row _ _
    | ⟨1, _⟩ => exact (blockDot_lhs_col _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (blockDot_rhs_row _ _).trans hk
    | ⟨1, _⟩ => exact blockDot_rhs_col _ _)
  rw [el, er]
  rfl

/-! ## The product array, and where a block's entries sit in the arrays -/

theorem origin2 : (![0, 0] : Fin 2 → Nat) = fun _ => 0 := funext fun a => by fin_cases a <;> rfl

/-- The feature array times the first weight, as one function of the two arrays. -/
abbrev prodArr (X : (⟨S100000x128, .f32⟩ : BufTy).Contents (Elt Ideal)) (W : (⟨S128x128, .f32⟩ : BufTy).Contents (Elt Ideal)) :
    (⟨S100000x128, .f32⟩ : BufTy).Contents (Elt Ideal) :=
  Host.dotGeneral (F := Ideal) (φ₁ := .f32) (φ₂ := .f32) Cert.ReferenceIdeal.dot_S100000x128_S128x128_S100000x128_1_0_0_1_n_n none X W

/-- Its entry (r, q) is the sum over k of feature (r, k) times weight (k, q). -/
theorem prodArr_apply (X : (⟨S100000x128, .f32⟩ : BufTy).Contents (Elt Ideal)) (W : (⟨S128x128, .f32⟩ : BufTy).Contents (Elt Ideal))
    (r : Fin 100000) (q : Fin 128) :
    prodArr X W (ix2 r q) = ∑ k : Fin 128, X (ix2 r k) * W (ix2 k q) := by
  show Cert.ReferenceIdeal.Read.val_main_v29 (F := Ideal) X W (ix2 r q) = _
  rw [Cert.ReferenceIdeal.Read.val_main_v29_apply]
  refine Finset.sum_congr rfl fun k _ => ?_
  have el : Cert.ReferenceIdeal.Read.lidx_main_v29 (ix2 r q) k = ix2 r k :=
    funext fun a => Fin.ext (by match a with | ⟨0, _⟩ => rfl | ⟨1, _⟩ => rfl)
  have er : Cert.ReferenceIdeal.Read.ridx_main_v29 (ix2 r q) k = ix2 k q :=
    funext fun a => Fin.ext (by match a with | ⟨0, _⟩ => rfl | ⟨1, _⟩ => rfl)
  rw [el, er]

/-- The printed index maps over the grid: the feature window and the output window sit at block row t, column
    block 0; the weight window never moves. -/
theorem blockIndex_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 20 := lt_of_lt_of_eq t.isLt N_0

/-- Row p of block t is row 5000·t + p of the array. -/
abbrev rowOf (t : Fin cfg0.N) (p : Fin 5000) : Fin 100000 := ⟨5000 * t.val + p.val, by have := point_lt t; have := p.isLt; omega⟩

/-- Entry (p, k) of the feature block at point t is feature (5000·t + p, k). -/
theorem featBlock_apply (c : Dev nD) (t : Fin cfg0.N) (p : Fin 5000) (k : Fin 128) :
    iblk0 V c 0 t (ix2 p k) = (V c main_arg0 : (⟨S100000x128, .f32⟩ : BufTy).Contents (Elt Ideal)) (ix2 (rowOf t p) k) := by
  obtain ⟨e0, e1, -⟩ := blockIndex_facts t
  show (V c main_arg0 : (⟨S100000x128, .f32⟩ : BufTy).Contents (Elt Ideal)) (((cfg0.win 0).blk t).view.emb (ix2 p k)) = _
  congr 1
  funext a
  apply Fin.ext
  match a with
  | ⟨0, _⟩ => show win0_0.index t (0 : Fin 2) * 5000 + 1 * p.val = 5000 * t.val + p.val; omega
  | ⟨1, _⟩ => show win0_0.index t (1 : Fin 2) * 128 + 1 * k.val = k.val; omega

/-- The weight block at any point is the weight itself. -/
theorem weightBlock_apply (c : Dev nD) (t : Fin cfg0.N) (k : Fin 128) (q : Fin 128) :
    iblk0 V c 1 t (ix2 k q) = (V c main_arg2 : (⟨S128x128, .f32⟩ : BufTy).Contents (Elt Ideal)) (ix2 k q) := by
  obtain ⟨-, -, e2, e3, -⟩ := blockIndex_facts t
  show (V c main_arg2 : (⟨S128x128, .f32⟩ : BufTy).Contents (Elt Ideal)) (((cfg0.win 1).blk t).view.emb (ix2 k q)) = _
  congr 1
  funext a
  apply Fin.ext
  match a with
  | ⟨0, _⟩ => show win0_1.index t (0 : Fin 2) * 128 + 1 * k.val = k.val; omega
  | ⟨1, _⟩ => show win0_1.index t (1 : Fin 2) * 128 + 1 * q.val = q.val; omega

/-- Entry (p, q) of the output block at point t is entry (5000·t + p, q) of the output array. -/
theorem outBlock_emb (t : Fin cfg0.N) (p : Fin 5000) (q : Fin 128) :
    ((cfg0.win 2).blk t).view.emb (ix2 p q) = (ix2 (rowOf t p) q : S100000x128.Idx) := by
  obtain ⟨-, -, -, -, e4, e5⟩ := blockIndex_facts t
  funext a
  apply Fin.ext
  match a with
  | ⟨0, _⟩ => show win0_2.index t (0 : Fin 2) * 5000 + 1 * p.val = 5000 * t.val + p.val; omega
  | ⟨1, _⟩ => show win0_2.index t (1 : Fin 2) * 128 + 1 * q.val = q.val; omega

/-! ## What a point writes back, and the array after the run -/

/-- Point t writes back block t of the product array. -/
theorem flushed_eq (c : Dev nD) (t : Fin cfg0.N) :
    (dat0 V c).flushed 2 t = ((cfg0.win 2).blk t).view.read (Elt Ideal)
      (prodArr (V c main_arg0) (V c main_arg2)) := by
  show (cfg0.win 2).cut (grid0.coords t) ((dat0 V c).after 2 t) = _
  rw [after0_2]
  unfold out0_2
  rw [View.canon_unit_zero origin2]
  simp only [View.ld_unit_zero (S := S5000x128) origin2, View.ld_unit_zero (S := S128x128) origin2]
  funext y
  obtain ⟨p, q, rfl⟩ : ∃ (p : Fin 5000) (q : Fin 128), y = ix2 p q := ⟨y 0, y 1, eq_ix2 y⟩
  show k0_pay1 (iblk0 V c 0 t) (iblk0 V c 1 t) (ix2 p q)
    = prodArr (V c main_arg0) (V c main_arg2) (((cfg0.win 2).blk t).view.emb (ix2 p q))
  rw [outBlock_emb, prodArr_apply]
  refine (pay_apply _ _ p q).trans ?_
  refine Finset.sum_congr rfl fun k _ => ?_
  rw [featBlock_apply, weightBlock_apply]

/-- An index of the output array is in point t's block iff each coordinate is in the block's range on its axis. -/
theorem mem_outBlock (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v29).slice (win0_2.rect t)).set ↔ _
  rw [View.set_slice_whole, Rect.mem_set_unit]
  exact Iff.rfl

/-- Row r of the output array lies in the block of point r / 5000, and every point writes its block back. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, lt_of_lt_of_eq (by omega) N_0.symm⟩, rfl⟩
  obtain ⟨-, -, -, -, e4, e5⟩ := blockIndex_facts t
  refine ⟨t, flush0_2 t, ?_⟩
  rw [mem_outBlock]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- Region 0's output array is the reference's `dot_general` of the feature array and the first weight. -/
theorem arr0_eq (c : Dev nD) :
    ((dat0 V c).arrAt 2 cfg0.N : (⟨S100000x128, .f32⟩ : BufTy).Contents (Elt Ideal))
      = Host.dotGeneral (F := Ideal) (φ₁ := .f32) (φ₂ := .f32) Cert.ReferenceIdeal.dot_S100000x128_S128x128_S100000x128_1_0_0_1_n_n none
          (V c main_arg0 : (⟨S100000x128, .f32⟩ : BufTy).Contents (Elt Ideal)) (V c main_arg2 : (⟨S128x128, .f32⟩ : BufTy).Contents (Elt Ideal)) :=
  (dat0 V c).arrAt_eq_of_cover 2 (prodArr (V c main_arg0) (V c main_arg2)) (fun t _ => flushed_eq V c t) covered

end Cert.KernelIdeal.HandValue.L0
end
-- ==== Proof.Val.Value1.lean ====
/-
  What region 1 leaves in its output array, over the extended reals: entry (i, j) is the sum over k of
  max(a (i, k) + b (k), 0) times weight (k, j), where a is the aggregate the region reads and b the bias
  row. Each grid point writes the 5000 rows of its block, the blocks tile the 100000 rows, and narrowing
  an operand to bf16 is the identity on extended reals, so the array is the reference's bias add, clamp at
  zero and matrix product applied to the same three arrays.
-/
import proofs.«151026_j58334245814498_1_alg».proof.Proof.KI.Region1
import proofs.«151026_j58334245814498_1_alg».proof.Proof.Ref.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue.L1

open Cert.KernelIdeal Cert.KernelIdeal.Gen Cert.KernelIdeal.Hand
open Idealize.ShloMosaic Idealize.ShloMosaic.TcCoe Idealize.SL.Sem
open Idealize.ShloMosaic.Pipeline (Dat Cfg Window)
open Idealize.ShloMosaic.ValueIdx

-- the buffer contents the region is entered with, read as extended reals
variable (V : (c : Dev nD) → (b : Ref sig .tc) → Buf (Elt Ideal) ((c : Thread nD τ).loc b))

/-! ## The layer as one function of the three arrays -/

/-- Entry (i, j) of the layer: the sum over k of max(a (i, k) + b (0, k), 0) · w (k, j). -/
def layer1 (a : Vec Ideal S100000x128 .f32) (b : Vec Ideal S1x128 .f32) (w : Vec Ideal S128x128 .f32) : Vec Ideal S100000x128 .f32 :=
  fun i => ∑ k : Fin 128, max (a (ix2 (i 0) k) + b (ix2 (0 : Fin 1) k)) (Ideal.ofBits .f32 0x00000000#32) * w (ix2 k (i 1))

/-! ## The body's product at an index -/

/-- The left operand's row coordinate is the output's row. -/
theorem dot1_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column coordinate is the contraction index. -/
theorem dot1_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row coordinate is the contraction index. -/
theorem dot1_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column coordinate is the output's column. -/
theorem dot1_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's matrix product into a zero accumulator, at (p, q): the sum over k of l (p, k) · r (k, q). -/
theorem dot1_apply (l : FVec Ideal S5000x128 .bf16) (r : FVec Ideal S128x128 .bf16) (p : Fin 5000) (q : Fin 128) :
    matmul (F := Ideal) dot_S5000x128_S128x128_S5000x128_1_0_0_1_n_n none l r (constant (F := Ideal) S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact dot1_lhs_0 _ _
    | ⟨1, _⟩ => exact (dot1_lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (dot1_rhs_0 _ _).trans hk
    | ⟨1, _⟩ => exact dot1_rhs_1 _ _)
  rw [el, er]

/-- What the body stores, at (p, q): the sum over k of max(x0 (p, k) + x1 (0, k), 0) · x2 (k, q); the casts to the
    same shape and the two narrowings are identities, the bias row is laid along every row. -/
theorem pay1_apply (x0 : Vec Ideal S5000x128 .f32) (x1 : Vec Ideal S1x128 .f32) (x2 : Vec Ideal S128x128 .f32) (p : Fin 5000) (q : Fin 128) :
    k1_pay1 x0 x1 x2 (ix2 p q)
      = ∑ k : Fin 128, max (x0 (ix2 p k) + x1 (ix2 (0 : Fin 1) k)) (Ideal.ofBits .f32 0x00000000#32) * x2 (ix2 k q) := by
  unfold k1_pay1
  refine (dot1_apply _ _ p q).trans ?_
  refine Finset.sum_congr rfl fun k _ => ?_
  show max (shapeCast S5000x128 x0 shapeCasts_S5000x128_S5000x128 (ix2 p k)
      + broadcastTo S5000x128 (shapeCast S1x128 x1 shapeCasts_S1x128_S1x128) broadcasts_S1x128_S5000x128 (ix2 p k)) (Ideal.ofBits .f32 0x00000000#32) * x2 (ix2 k q) = _
  rw [shapeCast_self, shapeCast_self, broadcastTo_1b_ab_apply]

/-- A row block of the layer: where a 5000-row block `x0` reads row `i 0` of `a` at its row `p`, and the bias and weight
    blocks read `b` and `w` whole, the body's product at (p, q) is the layer at `i` with column `i 1 = q`. -/
theorem pay1_eq_layer (a : Vec Ideal S100000x128 .f32) (b : Vec Ideal S1x128 .f32) (w : Vec Ideal S128x128 .f32)
    (x0 : Vec Ideal S5000x128 .f32) (x1 : Vec Ideal S1x128 .f32) (x2 : Vec Ideal S128x128 .f32) (i : S100000x128.Idx) (p : Fin 5000) (q : Fin 128)
    (h0 : ∀ k : Fin 128, x0 (ix2 p k) = a (ix2 (i 0) k)) (h1 : ∀ k : Fin 128, x1 (ix2 (0 : Fin 1) k) = b (ix2 (0 : Fin 1) k))
    (h2 : ∀ k : Fin 128, x2 (ix2 k q) = w (ix2 k (i 1))) :
    k1_pay1 x0 x1 x2 (ix2 p q) = layer1 a b w i := by
  rw [pay1_apply]
  unfold layer1
  exact Finset.sum_congr rfl fun k _ => by rw [h0 k, h1 k, h2 k]

/-! ## The reference's operations at an index -/

/-- The reference's bias add, clamp at zero and `dot_general` of three arrays are the layer, index by index: its bias
    row is laid along every row and its zero is the same word at every index. -/
theorem ref1_eq (a : Vec Ideal S100000x128 .f32) (b : Vec Ideal S1x128 .f32) (w : Vec Ideal S128x128 .f32) :
    Host.dotGeneral (F := Ideal) (φ₁ := .f32) (φ₂ := .f32) Cert.ReferenceIdeal.dot_S100000x128_S128x128_S100000x128_1_0_0_1_n_n none
        (maximumf (addf a (broadcastInDim Cert.ReferenceIdeal.S100000x128 ![0, 1] Cert.ReferenceIdeal.Gen.bcast_S1x128_S100000x128_0_1 b))
          (broadcastInDim Cert.ReferenceIdeal.S100000x128 ![] Cert.ReferenceIdeal.Gen.bcast_S_S100000x128 (constant (F := Ideal) Cert.ReferenceIdeal.S_ .f32 0x00000000#32))) w
      = layer1 a b w := by
  funext i
  refine (Cert.ReferenceIdeal.Read.val_main_v29_apply _ w i).trans ?_
  unfold layer1
  refine Finset.sum_congr rfl fun k _ => ?_
  have el : Cert.ReferenceIdeal.Read.lidx_main_v29 i k = ix2 (i 0) k := funext fun d => match d with | ⟨0, _⟩ => rfl | ⟨1, _⟩ => rfl
  have er : Cert.ReferenceIdeal.Read.ridx_main_v29 i k = ix2 k (i 1) := funext fun d => match d with | ⟨0, _⟩ => rfl | ⟨1, _⟩ => rfl
  rw [el, er]
  have hb : broadcastInDim Cert.ReferenceIdeal.S100000x128 ![0, 1] Cert.ReferenceIdeal.Gen.bcast_S1x128_S100000x128_0_1 b (ix2 (i 0) k) = b (ix2 (0 : Fin 1) k) :=
    broadcastInDim_apply _ Cert.ReferenceIdeal.Gen.bcast_S1x128_S100000x128_0_1 b (ix2 (i 0) k) (ix2 (0 : Fin 1) k) (fun d => match d with
      | ⟨0, _⟩ => by show 0 = if (1 : Nat) = 1 then 0 else (i 0).val; rw [if_pos rfl]
      | ⟨1, _⟩ => by show k.val = if (128 : Nat) = 1 then 0 else k.val; rw [if_neg (by decide)])
  show max (a (ix2 (i 0) k) + broadcastInDim Cert.ReferenceIdeal.S100000x128 ![0, 1] Cert.ReferenceIdeal.Gen.bcast_S1x128_S100000x128_0_1 b (ix2 (i 0) k))
      (Ideal.ofBits .f32 0x00000000#32) * w (ix2 k (i 1)) = _
  rw [hb]

/-! ## From the blocks to the array -/

/-- The body's one store, and each of its three loads, starts at the origin of its block. -/
theorem hz1 : (![0, 0] : Fin 2 → Nat) = fun _ => 0 := funext fun a => by fin_cases a <;> rfl

/-- The index maps over the grid: at point `t` the aggregate's and the output's row blocks are block `t`, their column
    block and every block index of the bias and weight windows are 0. -/
theorem idx1_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the layer of the three arrays as the region finds them: a block's
    coordinate in its array is block index × block size + the coordinate inside the block. -/
theorem flushed1_eq (c : Dev nD) (t : Fin cfg1.N) :
    (dat1 V c).flushed 3 t = ((cfg1.win 3).blk t).view.read (Elt Ideal)
      (layer1 (V c main_v42 : (⟨S100000x128, .f32⟩ : BufTy).Contents (Elt Ideal)) (V c main_v43 : (⟨S1x128, .f32⟩ : BufTy).Contents (Elt Ideal))
        (V c main_arg4 : (⟨S128x128, .f32⟩ : BufTy).Contents (Elt Ideal))) := by
  show (cfg1.win 3).cut (grid1.coords t) ((dat1 V c).after 3 t) = _
  rw [after1_3]
  unfold out1_3
  rw [View.canon_unit_zero hz1]
  simp only [View.ld_unit_zero (S := S5000x128) hz1, View.ld_unit_zero (S := S1x128) hz1, View.ld_unit_zero (S := S128x128) hz1]
  obtain ⟨e00, e01, e10, e11, e20, e21, e30, e31⟩ := idx1_facts t
  funext y
  obtain ⟨p, q, rfl⟩ : ∃ (p : Fin 5000) (q : Fin 128), y = ix2 p q := ⟨y 0, y 1, eq_ix2 y⟩
  show k1_pay1 (iblk1 V c 0 t) (iblk1 V c 1 t) (iblk1 V c 2 t) (ix2 p q)
    = layer1 (V c main_v42 : (⟨S100000x128, .f32⟩ : BufTy).Contents (Elt Ideal)) (V c main_v43 : (⟨S1x128, .f32⟩ : BufTy).Contents (Elt Ideal))
        (V c main_arg4 : (⟨S128x128, .f32⟩ : BufTy).Contents (Elt Ideal)) (((cfg1.win 3).blk t).view.emb (ix2 p q))
  refine pay1_eq_layer _ _ _ (iblk1 V c 0 t) (iblk1 V c 1 t) (iblk1 V c 2 t) (((cfg1.win 3).blk t).view.emb (ix2 p q)) p q
    (fun k => ?_) (fun k => ?_) (fun k => ?_)
  · show (V c main_v42 : (⟨S100000x128, .f32⟩ : BufTy).Contents (Elt Ideal)) (((cfg1.win 0).blk t).view.emb (ix2 p k)) = _
    refine congrArg _ (funext fun d => Fin.ext ?_)
    match d with
    | ⟨0, _⟩ => show win1_0.index t (0 : Fin 2) * 5000 + 1 * p.val = win1_3.index t (0 : Fin 2) * 5000 + 1 * p.val; omega
    | ⟨1, _⟩ => show win1_0.index t (1 : Fin 2) * 128 + 1 * k.val = k.val; omega
  · show (V c main_v43 : (⟨S1x128, .f32⟩ : BufTy).Contents (Elt Ideal)) (((cfg1.win 1).blk t).view.emb (ix2 (0 : Fin 1) k)) = _
    refine congrArg _ (funext fun d => Fin.ext ?_)
    match d with
    | ⟨0, _⟩ => show win1_1.index t (0 : Fin 2) * 1 + 1 * 0 = 0; omega
    | ⟨1, _⟩ => show win1_1.index t (1 : Fin 2) * 128 + 1 * k.val = k.val; omega
  · show (V c main_arg4 : (⟨S128x128, .f32⟩ : BufTy).Contents (Elt Ideal)) (((cfg1.win 2).blk t).view.emb (ix2 k q)) = _
    refine congrArg _ (funext fun d => Fin.ext ?_)
    match d with
    | ⟨0, _⟩ => show win1_2.index t (0 : Fin 2) * 128 + 1 * k.val = k.val; omega
    | ⟨1, _⟩ => show win1_2.index t (1 : Fin 2) * 128 + 1 * q.val = win1_3.index t (1 : Fin 2) * 128 + 1 * q.val; omega

/-- An index of the array is in point `t`'s block iff each coordinate is in the block's range on its axis. -/
theorem mem_blk1 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole (Pipeline.arrRef spec1 3)).slice (win1_3.rect t)).set ↔ _
  rw [View.set_slice_whole, Rect.mem_set_unit]
  exact Iff.rfl

/-- Row `r` lies in the block of point `r / 5000`: the twenty blocks of 5000 rows tile the 100000 rows. -/
theorem cover1 (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have ht : (i 0).val / 5000 < cfg1.N := lt_of_lt_of_eq (by omega : (i 0).val / 5000 < 20) N_1.symm
  refine ⟨⟨(i 0).val / 5000, ht⟩, flush1_3 _, ?_⟩
  obtain ⟨-, -, -, -, -, -, e30, e31⟩ := idx1_facts ⟨(i 0).val / 5000, ht⟩
  have e30' : win1_3.index ⟨(i 0).val / 5000, ht⟩ (0 : Fin 2) = (i 0).val / 5000 := e30
  rw [mem_blk1]
  intro a
  match a with
  | ⟨0, _⟩ => show win1_3.index _ (0 : Fin 2) * 5000 ≤ (i 0).val ∧ (i 0).val < win1_3.index _ (0 : Fin 2) * 5000 + 5000; omega
  | ⟨1, _⟩ => show win1_3.index _ (1 : Fin 2) * 128 ≤ (i 1).val ∧ (i 1).val < win1_3.index _ (1 : Fin 2) * 128 + 128; omega

/-- Region 1's output array is the reference's `dot_general` of the clamped biased aggregate and the weight. -/
theorem arr1_eq (c : Dev nD) :
    ((dat1 V c).arrAt 3 cfg1.N : (⟨S100000x128, .f32⟩ : BufTy).Contents (Elt Ideal))
      = Host.dotGeneral (F := Ideal) (φ₁ := .f32) (φ₂ := .f32) Cert.ReferenceIdeal.dot_S100000x128_S128x128_S100000x128_1_0_0_1_n_n none
          (maximumf (addf (V c main_v42 : (⟨S100000x128, .f32⟩ : BufTy).Contents (Elt Ideal))
              (broadcastInDim Cert.ReferenceIdeal.S100000x128 ![0, 1] Cert.ReferenceIdeal.Gen.bcast_S1x128_S100000x128_0_1 (V c main_v43 : (⟨S1x128, .f32⟩ : BufTy).Contents (Elt Ideal))))
            (broadcastInDim Cert.ReferenceIdeal.S100000x128 ![] Cert.ReferenceIdeal.Gen.bcast_S_S100000x128 (constant (F := Ideal) Cert.ReferenceIdeal.S_ .f32 0x00000000#32)))
          (V c main_arg4 : (⟨S128x128, .f32⟩ : BufTy).Contents (Elt Ideal)) := by
  rw [ref1_eq]
  exact (dat1 V c).arrAt_eq_of_cover 3 _ (fun t _ => flushed1_eq V c t) cover1

end Cert.KernelIdeal.HandValue.L1
end
-- ==== Proof.Val.Value2.lean ====
/-
  What region 2 leaves in its output array, over the extended reals: entry (i, j) is the sum over k of
  max(a (i, k) + b (k), 0) times weight (k, j), where a is the aggregate the region reads and b the bias
  row. Each grid point writes the 5000 rows of its block, the blocks tile the 100000 rows, and narrowing
  an operand to bf16 is the identity on extended reals, so the array is the reference's bias add, clamp at
  zero and matrix product applied to the same three arrays.
-/
import proofs.«151026_j58334245814498_1_alg».proof.Proof.KI.Region2
import proofs.«151026_j58334245814498_1_alg».proof.Proof.Ref.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue.L2

open Cert.KernelIdeal Cert.KernelIdeal.Gen Cert.KernelIdeal.Hand
open Idealize.ShloMosaic Idealize.ShloMosaic.TcCoe Idealize.SL.Sem
open Idealize.ShloMosaic.Pipeline (Dat Cfg Window)
open Idealize.ShloMosaic.ValueIdx

-- the buffer contents the region is entered with, read as extended reals
variable (V : (c : Dev nD) → (b : Ref sig .tc) → Buf (Elt Ideal) ((c : Thread nD τ).loc b))

/-! ## The layer as one function of the three arrays -/

/-- Entry (i, j) of the layer: the sum over k of max(a (i, k) + b (0, k), 0) · w (k, j). -/
def layer2 (a : Vec Ideal S100000x128 .f32) (b : Vec Ideal S1x128 .f32) (w : Vec Ideal S128x128 .f32) : Vec Ideal S100000x128 .f32 :=
  fun i => ∑ k : Fin 128, max (a (ix2 (i 0) k) + b (ix2 (0 : Fin 1) k)) (Ideal.ofBits .f32 0x00000000#32) * w (ix2 k (i 1))

/-! ## The body's product at an index -/

/-- The left operand's row coordinate is the output's row. -/
theorem dot2_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column coordinate is the contraction index. -/
theorem dot2_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row coordinate is the contraction index. -/
theorem dot2_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column coordinate is the output's column. -/
theorem dot2_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's matrix product into a zero accumulator, at (p, q): the sum over k of l (p, k) · r (k, q). -/
theorem dot2_apply (l : FVec Ideal S5000x128 .bf16) (r : FVec Ideal S128x128 .bf16) (p : Fin 5000) (q : Fin 128) :
    matmul (F := Ideal) dot_S5000x128_S128x128_S5000x128_1_0_0_1_n_n none l r (constant (F := Ideal) S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact dot2_lhs_0 _ _
    | ⟨1, _⟩ => exact (dot2_lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (dot2_rhs_0 _ _).trans hk
    | ⟨1, _⟩ => exact dot2_rhs_1 _ _)
  rw [el, er]

/-- What the body stores, at (p, q): the sum over k of max(x0 (p, k) + x1 (0, k), 0) · x2 (k, q); the casts to the
    same shape and the two narrowings are identities, the bias row is laid along every row. -/
theorem pay2_apply (x0 : Vec Ideal S5000x128 .f32) (x1 : Vec Ideal S1x128 .f32) (x2 : Vec Ideal S128x128 .f32) (p : Fin 5000) (q : Fin 128) :
    k2_pay1 x0 x1 x2 (ix2 p q)
      = ∑ k : Fin 128, max (x0 (ix2 p k) + x1 (ix2 (0 : Fin 1) k)) (Ideal.ofBits .f32 0x00000000#32) * x2 (ix2 k q) := by
  unfold k2_pay1
  refine (dot2_apply _ _ p q).trans ?_
  refine Finset.sum_congr rfl fun k _ => ?_
  show max (shapeCast S5000x128 x0 shapeCasts_S5000x128_S5000x128 (ix2 p k)
      + broadcastTo S5000x128 (shapeCast S1x128 x1 shapeCasts_S1x128_S1x128) broadcasts_S1x128_S5000x128 (ix2 p k)) (Ideal.ofBits .f32 0x00000000#32) * x2 (ix2 k q) = _
  rw [shapeCast_self, shapeCast_self, broadcastTo_1b_ab_apply]

/-- A row block of the layer: where a 5000-row block `x0` reads row `i 0` of `a` at its row `p`, and the bias and weight
    blocks read `b` and `w` whole, the body's product at (p, q) is the layer at `i` with column `i 1 = q`. -/
theorem pay2_eq_layer (a : Vec Ideal S100000x128 .f32) (b : Vec Ideal S1x128 .f32) (w : Vec Ideal S128x128 .f32)
    (x0 : Vec Ideal S5000x128 .f32) (x1 : Vec Ideal S1x128 .f32) (x2 : Vec Ideal S128x128 .f32) (i : S100000x128.Idx) (p : Fin 5000) (q : Fin 128)
    (h0 : ∀ k : Fin 128, x0 (ix2 p k) = a (ix2 (i 0) k)) (h1 : ∀ k : Fin 128, x1 (ix2 (0 : Fin 1) k) = b (ix2 (0 : Fin 1) k))
    (h2 : ∀ k : Fin 128, x2 (ix2 k q) = w (ix2 k (i 1))) :
    k2_pay1 x0 x1 x2 (ix2 p q) = layer2 a b w i := by
  rw [pay2_apply]
  unfold layer2
  exact Finset.sum_congr rfl fun k _ => by rw [h0 k, h1 k, h2 k]

/-! ## The reference's operations at an index -/

/-- The reference's bias add, clamp at zero and `dot_general` of three arrays are the layer, index by index: its bias
    row is laid along every row and its zero is the same word at every index. -/
theorem ref2_eq (a : Vec Ideal S100000x128 .f32) (b : Vec Ideal S1x128 .f32) (w : Vec Ideal S128x128 .f32) :
    Host.dotGeneral (F := Ideal) (φ₁ := .f32) (φ₂ := .f32) Cert.ReferenceIdeal.dot_S100000x128_S128x128_S100000x128_1_0_0_1_n_n none
        (maximumf (addf a (broadcastInDim Cert.ReferenceIdeal.S100000x128 ![0, 1] Cert.ReferenceIdeal.Gen.bcast_S1x128_S100000x128_0_1 b))
          (broadcastInDim Cert.ReferenceIdeal.S100000x128 ![] Cert.ReferenceIdeal.Gen.bcast_S_S100000x128 (constant (F := Ideal) Cert.ReferenceIdeal.S_ .f32 0x00000000#32))) w
      = layer2 a b w := by
  funext i
  refine (Cert.ReferenceIdeal.Read.val_main_v29_apply _ w i).trans ?_
  unfold layer2
  refine Finset.sum_congr rfl fun k _ => ?_
  have el : Cert.ReferenceIdeal.Read.lidx_main_v29 i k = ix2 (i 0) k := funext fun d => match d with | ⟨0, _⟩ => rfl | ⟨1, _⟩ => rfl
  have er : Cert.ReferenceIdeal.Read.ridx_main_v29 i k = ix2 k (i 1) := funext fun d => match d with | ⟨0, _⟩ => rfl | ⟨1, _⟩ => rfl
  rw [el, er]
  have hb : broadcastInDim Cert.ReferenceIdeal.S100000x128 ![0, 1] Cert.ReferenceIdeal.Gen.bcast_S1x128_S100000x128_0_1 b (ix2 (i 0) k) = b (ix2 (0 : Fin 1) k) :=
    broadcastInDim_apply _ Cert.ReferenceIdeal.Gen.bcast_S1x128_S100000x128_0_1 b (ix2 (i 0) k) (ix2 (0 : Fin 1) k) (fun d => match d with
      | ⟨0, _⟩ => by show 0 = if (1 : Nat) = 1 then 0 else (i 0).val; rw [if_pos rfl]
      | ⟨1, _⟩ => by show k.val = if (128 : Nat) = 1 then 0 else k.val; rw [if_neg (by decide)])
  show max (a (ix2 (i 0) k) + broadcastInDim Cert.ReferenceIdeal.S100000x128 ![0, 1] Cert.ReferenceIdeal.Gen.bcast_S1x128_S100000x128_0_1 b (ix2 (i 0) k))
      (Ideal.ofBits .f32 0x00000000#32) * w (ix2 k (i 1)) = _
  rw [hb]

/-! ## From the blocks to the array -/

/-- The body's one store, and each of its three loads, starts at the origin of its block. -/
theorem hz2 : (![0, 0] : Fin 2 → Nat) = fun _ => 0 := funext fun a => by fin_cases a <;> rfl

/-- The index maps over the grid: at point `t` the aggregate's and the output's row blocks are block `t`, their column
    block and every block index of the bias and weight windows are 0. -/
theorem idx2_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is block `t` of the layer of the three arrays as the region finds them: a block's
    coordinate in its array is block index × block size + the coordinate inside the block. -/
theorem flushed2_eq (c : Dev nD) (t : Fin cfg2.N) :
    (dat2 V c).flushed 3 t = ((cfg2.win 3).blk t).view.read (Elt Ideal)
      (layer2 (V c main_v57 : (⟨S100000x128, .f32⟩ : BufTy).Contents (Elt Ideal)) (V c main_v58 : (⟨S1x128, .f32⟩ : BufTy).Contents (Elt Ideal))
        (V c main_arg6 : (⟨S128x128, .f32⟩ : BufTy).Contents (Elt Ideal))) := by
  show (cfg2.win 3).cut (grid2.coords t) ((dat2 V c).after 3 t) = _
  rw [after2_3]
  unfold out2_3
  rw [View.canon_unit_zero hz2]
  simp only [View.ld_unit_zero (S := S5000x128) hz2, View.ld_unit_zero (S := S1x128) hz2, View.ld_unit_zero (S := S128x128) hz2]
  obtain ⟨e00, e01, e10, e11, e20, e21, e30, e31⟩ := idx2_facts t
  funext y
  obtain ⟨p, q, rfl⟩ : ∃ (p : Fin 5000) (q : Fin 128), y = ix2 p q := ⟨y 0, y 1, eq_ix2 y⟩
  show k2_pay1 (iblk2 V c 0 t) (iblk2 V c 1 t) (iblk2 V c 2 t) (ix2 p q)
    = layer2 (V c main_v57 : (⟨S100000x128, .f32⟩ : BufTy).Contents (Elt Ideal)) (V c main_v58 : (⟨S1x128, .f32⟩ : BufTy).Contents (Elt Ideal))
        (V c main_arg6 : (⟨S128x128, .f32⟩ : BufTy).Contents (Elt Ideal)) (((cfg2.win 3).blk t).view.emb (ix2 p q))
  refine pay2_eq_layer _ _ _ (iblk2 V c 0 t) (iblk2 V c 1 t) (iblk2 V c 2 t) (((cfg2.win 3).blk t).view.emb (ix2 p q)) p q
    (fun k => ?_) (fun k => ?_) (fun k => ?_)
  · show (V c main_v57 : (⟨S100000x128, .f32⟩ : BufTy).Contents (Elt Ideal)) (((cfg2.win 0).blk t).view.emb (ix2 p k)) = _
    refine congrArg _ (funext fun d => Fin.ext ?_)
    match d with
    | ⟨0, _⟩ => show win2_0.index t (0 : Fin 2) * 5000 + 1 * p.val = win2_3.index t (0 : Fin 2) * 5000 + 1 * p.val; omega
    | ⟨1, _⟩ => show win2_0.index t (1 : Fin 2) * 128 + 1 * k.val = k.val; omega
  · show (V c main_v58 : (⟨S1x128, .f32⟩ : BufTy).Contents (Elt Ideal)) (((cfg2.win 1).blk t).view.emb (ix2 (0 : Fin 1) k)) = _
    refine congrArg _ (funext fun d => Fin.ext ?_)
    match d with
    | ⟨0, _⟩ => show win2_1.index t (0 : Fin 2) * 1 + 1 * 0 = 0; omega
    | ⟨1, _⟩ => show win2_1.index t (1 : Fin 2) * 128 + 1 * k.val = k.val; omega
  · show (V c main_arg6 : (⟨S128x128, .f32⟩ : BufTy).Contents (Elt Ideal)) (((cfg2.win 2).blk t).view.emb (ix2 k q)) = _
    refine congrArg _ (funext fun d => Fin.ext ?_)
    match d with
    | ⟨0, _⟩ => show win2_2.index t (0 : Fin 2) * 128 + 1 * k.val = k.val; omega
    | ⟨1, _⟩ => show win2_2.index t (1 : Fin 2) * 128 + 1 * q.val = win2_3.index t (1 : Fin 2) * 128 + 1 * q.val; omega

/-- An index of the array is in point `t`'s block iff each coordinate is in the block's range on its axis. -/
theorem mem_blk2 (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole (Pipeline.arrRef spec2 3)).slice (win2_3.rect t)).set ↔ _
  rw [View.set_slice_whole, Rect.mem_set_unit]
  exact Iff.rfl

/-- Row `r` lies in the block of point `r / 5000`: the twenty blocks of 5000 rows tile the 100000 rows. -/
theorem cover2 (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  have ht : (i 0).val / 5000 < cfg2.N := lt_of_lt_of_eq (by omega : (i 0).val / 5000 < 20) N_2.symm
  refine ⟨⟨(i 0).val / 5000, ht⟩, flush2_3 _, ?_⟩
  obtain ⟨-, -, -, -, -, -, e30, e31⟩ := idx2_facts ⟨(i 0).val / 5000, ht⟩
  have e30' : win2_3.index ⟨(i 0).val / 5000, ht⟩ (0 : Fin 2) = (i 0).val / 5000 := e30
  rw [mem_blk2]
  intro a
  match a with
  | ⟨0, _⟩ => show win2_3.index _ (0 : Fin 2) * 5000 ≤ (i 0).val ∧ (i 0).val < win2_3.index _ (0 : Fin 2) * 5000 + 5000; omega
  | ⟨1, _⟩ => show win2_3.index _ (1 : Fin 2) * 128 ≤ (i 1).val ∧ (i 1).val < win2_3.index _ (1 : Fin 2) * 128 + 128; omega

/-- Region 2's output array is the reference's `dot_general` of the clamped biased aggregate and the weight. -/
theorem arr2_eq (c : Dev nD) :
    ((dat2 V c).arrAt 3 cfg2.N : (⟨S100000x128, .f32⟩ : BufTy).Contents (Elt Ideal))
      = Host.dotGeneral (F := Ideal) (φ₁ := .f32) (φ₂ := .f32) Cert.ReferenceIdeal.dot_S100000x128_S128x128_S100000x128_1_0_0_1_n_n none
          (maximumf (addf (V c main_v57 : (⟨S100000x128, .f32⟩ : BufTy).Contents (Elt Ideal))
              (broadcastInDim Cert.ReferenceIdeal.S100000x128 ![0, 1] Cert.ReferenceIdeal.Gen.bcast_S1x128_S100000x128_0_1 (V c main_v58 : (⟨S1x128, .f32⟩ : BufTy).Contents (Elt Ideal))))
            (broadcastInDim Cert.ReferenceIdeal.S100000x128 ![] Cert.ReferenceIdeal.Gen.bcast_S_S100000x128 (constant (F := Ideal) Cert.ReferenceIdeal.S_ .f32 0x00000000#32)))
          (V c main_arg6 : (⟨S128x128, .f32⟩ : BufTy).Contents (Elt Ideal)) := by
  rw [ref2_eq]
  exact (dat2 V c).arrAt_eq_of_cover 3 _ (fun t _ => flushed2_eq V c t) cover2

end Cert.KernelIdeal.HandValue.L2
end
-- ==== Proof.Val.Value3.lean ====
/-
  What region 3 leaves in its output row, over the extended reals, and the one law that joins the two
  programs' endings. The row's entry j is the sum over all 100000 rows i of a (i, j), taken block by
  block: the cleared row plus twenty blocks' column sums. The kernel's ending divides that row by 100000
  and adds the bias row b; the reference adds b to every row first, sums the rows, and divides by
  100000. Addition of extended reals is commutative and associative, so the sum of the a (i, j) + b (j)
  is the sum of the a (i, j) plus 100000 times b (j) whatever the a are; dividing by 100000 distributes
  over that sum because b (j) is a real number (a sum with an infinite term stays that infinity on both
  sides). This is the only place the finiteness of an input is used.
-/
import proofs.«151026_j58334245814498_1_alg».proof.Proof.KI.Region3
import proofs.«151026_j58334245814498_1_alg».proof.Proof.Ref.Stages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue.L3

open Cert.KernelIdeal Cert.KernelIdeal.Gen Cert.KernelIdeal.Hand
open Idealize.ShloMosaic Idealize.ShloMosaic.TcCoe Idealize.SL.Sem
open Idealize.ShloMosaic.Pipeline (Dat Cfg Window)

open Idealize.ShloMosaic.ValueIdx

/-! ## The law of the mean -/

/-- The mean of N extended reals, a real constant added to each, is their mean plus the constant: the
    sum S of the entries may be infinite, and then both sides are that infinity. -/
theorem mean_add_const (S : EReal) (r N : ℝ) (n : ℕ) (hN : 0 < N) (hn : (n : ℝ) = N) :
    (S + n • (r : EReal)) * ((1 / N : ℝ) : EReal) = S * ((1 / N : ℝ) : EReal) + (r : EReal) := by
  have hi : 0 < (1 / N : ℝ) := one_div_pos.mpr hN
  rw [← EReal.coe_nsmul]
  induction S using EReal.rec with
  | bot => rw [EReal.bot_add, EReal.bot_mul_coe_of_pos hi, EReal.bot_add]
  | coe x =>
    rw [← EReal.coe_add, ← EReal.coe_mul, ← EReal.coe_mul, ← EReal.coe_add]
    congr 1
    rw [nsmul_eq_mul, hn]
    field_simp
  | top => rw [EReal.top_add_coe, EReal.top_mul_coe_of_pos hi, EReal.top_add_coe]

-- the buffer contents the region is entered with, read as extended reals
variable (V : (c : Dev nD) → (b : Ref sig .tc) → Buf (Elt Ideal) ((c : Thread nD τ).loc b))

/-! ## One block, and what one point adds -/

/-- Block t of the aggregate's window starts at row 5000·t and column 0. -/
theorem blockStart3 : ∀ t : Fin cfg3.N, win3_0.index t 0 = t.val ∧ win3_0.index t 1 = 0 :=
  (by decide +kernel : ∀ t : Fin grid3.N, win3_0.index t 0 = t.val ∧ win3_0.index t 1 = 0)

/-- Entry (p, q) of block t is entry (5000·t + p, q) of the aggregate. -/
theorem iblk3_apply (c : Dev nD) (t : Fin cfg3.N) (x : S5000x128.Idx) (k : S100000x128.Idx)
    (hk0 : (k 0).val = 5000 * t.val + (x 0).val) (hk1 : (k 1).val = (x 1).val) :
    (iblk3 V c 0 t : Vec Ideal S5000x128 .f32) x = (V c main_v72 : S100000x128.Idx → Elt Ideal .f32) k := by
  unfold iblk3
  rw [View.read_apply]
  show V c main_v72 _ = V c main_v72 _
  congr 1
  funext a
  apply Fin.ext
  match a with
  | ⟨0, _⟩ => show win3_0.index t 0 * 5000 + 1 * (x 0).val = (k 0).val; rw [(blockStart3 t).1, hk0]; omega
  | ⟨1, _⟩ => show win3_0.index t 1 * 128 + 1 * (x 1).val = (k 1).val; rw [(blockStart3 t).2, hk1]; omega

/-- The cleared row is zero everywhere. -/
theorem cleared_apply (y : S1x128.Idx) : (k3_pay1 (F := Ideal)) y = 0 := by
  unfold k3_pay1
  rw [shapeCast_self]
  exact Ideal.ofBits_zero_f32

/-- What a point leaves in the scratch row: at column j the row's entry plus the sum of column j of the block. -/
theorem step_apply (v3 : Vec Ideal S1x128 .f32) (v4 : Vec Ideal S5000x128 .f32) (u : Fin 1) (j : Fin 128) :
    k3_pay2 v3 v4 (ix2 u j) = v3 (ix2 u j) + ∑ r : Fin 5000, v4 (ix2 r j) := by
  unfold k3_pay2
  simp only [shapeCast_self]
  rw [addf_apply, shapeCast_a_1a_apply]
  congr 1
  refine (Ideal.multiReduction_add_single (φ := .f32) v4 _ reduces_S5000x128_S128 _ _ (ix1 j)).trans ?_
  refine Finset.sum_congr rfl fun r _ => congrArg v4 ?_
  funext a
  match a with
  | ⟨0, _⟩ => rfl
  | ⟨1, _⟩ => rfl

/-! ## The scratch row after each point -/

/-- The aggregate whose rows the region sums. -/
abbrev agg (c : Dev nD) : Vec Ideal S100000x128 .f32 := V c main_v72

/-- Row r of block t is row 5000·t + r of the aggregate. -/
def rowOf (t : Fin cfg3.N) (r : Fin 5000) : Fin 100000 :=
  ⟨5000 * t.val + r.val, by have := t.isLt; have := r.isLt; have : cfg3.N = 20 := N_3; omega⟩

/-- The sum of column j over the rows of block t, for every natural t: zero past the grid, where no block is. -/
def blockSum (c : Dev nD) (j : Fin 128) (t : ℕ) : EReal :=
  if h : t < cfg3.N then ∑ r : Fin 5000, agg V c (ix2 (rowOf ⟨t, h⟩ r) j) else 0

/-- After point n the scratch row holds, at column j, the column sums of blocks 0 … n added up. -/
theorem acc3_apply (c : Dev nD) (u : Fin 1) (j : Fin 128) :
    ∀ (n : ℕ) (h : n < cfg3.N), acc3 V c n h (ix2 u j) = ∑ t ∈ Finset.range (n + 1), blockSum V c j t
  | 0, h => by
    rw [acc3_zero, step_apply, cleared_apply, zero_add, Finset.sum_range_one, blockSum, dif_pos h]
    exact Finset.sum_congr rfl fun r _ => iblk3_apply V c ⟨0, h⟩ _ _ rfl rfl
  | n + 1, h => by
    rw [acc3_succ, step_apply, acc3_apply c u j n, Finset.sum_range_succ _ (n + 1)]
    congr 1
    rw [blockSum, dif_pos h]
    exact Finset.sum_congr rfl fun r _ => iblk3_apply V c ⟨n + 1, h⟩ _ _ rfl rfl

/-! ## The output row after the run -/

/-- The last point of the grid. -/
abbrev lastPt : Fin cfg3.N := ⟨19, by rw [show cfg3.N = 20 from N_3]; decide⟩

/-- The row the last point leaves, as contents of the output array (whose one block is the whole array). -/
abbrev lastRow (c : Dev nD) : Buf (Elt Ideal) ((c : Thread nD τ).loc main_v73) := acc3 V c lastPt.val lastPt.isLt

/-- The output window's block is block (0, 0) at every point, and it is the whole 1×128 row. -/
theorem outBlock3 : ∀ t : Fin cfg3.N, (win3_1.index t 0 = 0 ∧ win3_1.index t 1 = 0)
    ∧ (win3_1.xsize (grid3.coords t) 0 = 1 ∧ win3_1.xsize (grid3.coords t) 1 = 128) :=
  (by decide +kernel : ∀ t : Fin grid3.N, (win3_1.index t 0 = 0 ∧ win3_1.index t 1 = 0)
    ∧ (win3_1.xsize (grid3.coords t) 0 = 1 ∧ win3_1.xsize (grid3.coords t) 1 = 128))

/-- The one write-back, at the last point, writes that row. -/
theorem flushed3_eq (c : Dev nD) (t : Fin cfg3.N) (hf : (cfg3.win 1).flush t = true) :
    (dat3 V c).flushed 1 t = ((cfg3.win 1).blk t).view.read (Elt Ideal) (lastRow V c) := by
  have hN : cfg3.N = 20 := N_3
  have h19 : t.val = 19 := by have := (flush3_1 t).mp hf; have := t.isLt; omega
  obtain rfl : t = lastPt := Fin.ext h19
  show (cfg3.win 1).cut (grid3.coords lastPt) ((dat3 V c).after 1 lastPt) = _
  rw [after3_1]
  have hz' : (fun a => win3_1.index lastPt a * main_v73.ty.shape.size a) = fun _ => 0 := funext fun a => by
    match a with
    | ⟨0, _⟩ => show win3_1.index lastPt 0 * _ = 0; rw [(outBlock3 lastPt).1.1, Nat.zero_mul]
    | ⟨1, _⟩ => show win3_1.index lastPt 1 * _ = 0; rw [(outBlock3 lastPt).1.2, Nat.zero_mul]
  exact (Memref.read_access_unit_zero (Elt Ideal) main_v73 hz' (fun a => by rw [congrFun hz' a]; simp) (lastRow V c)).symm

/-- So the output array ends holding the row the last point leaves. -/
theorem final3 (c : Dev nD) : (dat3 V c).arrAt 1 cfg3.N = lastRow V c :=
  (dat3 V c).arrAt_eq_of_cover 1 (lastRow V c) (flushed3_eq V c) fun i =>
    ⟨lastPt, (flush3_1 lastPt).mpr rfl, by
      show i ∈ ((View.whole main_v73).slice (win3_1.rect lastPt)).set
      rw [View.set_slice_whole, Rect.mem_set_unit]
      intro a
      have h0 : (i 0 : Nat) < 1 := (i 0).isLt
      have h1 : (i 1 : Nat) < 128 := (i 1).isLt
      match a with
      | ⟨0, _⟩ =>
        show win3_1.index lastPt 0 * win3_1.size 0 ≤ (i 0 : Nat) ∧ (i 0 : Nat) < win3_1.index lastPt 0 * win3_1.size 0 + win3_1.xsize (grid3.coords lastPt) 0
        rw [(outBlock3 lastPt).1.1, (outBlock3 lastPt).2.1]; omega
      | ⟨1, _⟩ =>
        show win3_1.index lastPt 1 * win3_1.size 1 ≤ (i 1 : Nat) ∧ (i 1 : Nat) < win3_1.index lastPt 1 * win3_1.size 1 + win3_1.xsize (grid3.coords lastPt) 1
        rw [(outBlock3 lastPt).1.2, (outBlock3 lastPt).2.2]; omega⟩

/-! ## The twenty blocks are the hundred thousand rows -/

/-- A sum over the 100000 rows is the sum over the 20 blocks of the sums over each block's 5000 rows. -/
theorem sum_blocks (f : Fin 100000 → EReal) :
    ∑ t : Fin 20, ∑ r : Fin 5000, f ⟨5000 * t.val + r.val, by have := t.isLt; have := r.isLt; omega⟩ = ∑ i : Fin 100000, f i := by
  have e := Equiv.sum_comp (finProdFinEquiv (m := 20) (n := 5000)) (fun i : Fin (20 * 5000) => f i)
  rw [Fintype.sum_prod_type] at e
  refine Eq.trans ?_ e
  refine Finset.sum_congr rfl fun t _ => Finset.sum_congr rfl fun r _ => congrArg f (Fin.ext ?_)
  show 5000 * t.val + r.val = r.val + 5000 * t.val
  omega

/-- So the row the last point leaves holds, at column j, the sum of column j over all the rows. -/
theorem lastRow_apply (c : Dev nD) (u : Fin 1) (j : Fin 128) :
    lastRow V c (ix2 u j) = ∑ i : Fin 100000, agg V c (ix2 i j) := by
  refine (acc3_apply V c u j lastPt.val lastPt.isLt).trans ?_
  show ∑ t ∈ Finset.range 20, blockSum V c j t = _
  rw [Finset.sum_range, ← sum_blocks fun i => agg V c (ix2 i j)]
  refine Finset.sum_congr rfl fun t _ => ?_
  have ht : t.val < cfg3.N := by rw [show cfg3.N = 20 from N_3]; exact t.isLt
  rw [blockSum, dif_pos ht]
  rfl

/-! ## The two endings at an index -/

/-- The divisor's word denotes the real number 100000. -/
theorem hundredThousand : Ideal.ofBits .f32 0x47C35000#32 = ((100000 : ℝ) : EReal) := by
  simp [Ideal.ofBits, Ideal.ieee, -EReal.coe_mul]; norm_num

/-- The host's division, entry by entry. -/
theorem hostDivf_apply {s : Shape} {φ : FTy} (x y : FVec Ideal s φ) (i : s.Idx) : Host.divf x y i = Ideal.div (x i) (y i) := rfl

/-- A scalar laid out along the row reads the scalar; -/
theorem rowOfScalar_apply {α : Type} (h : S_.BroadcastsInDim S1x128 ![]) (x : S_.Idx → α) (y : S1x128.Idx) :
    broadcastInDim S1x128 ![] h x y = x ix0 :=
  broadcastInDim_apply _ h x y ix0 (fun a => a.elim0)

/-- a 128-vector laid out as the row reads, at (u, j), its entry j; -/
theorem rowOfVec_apply {α : Type} (h : S128.BroadcastsInDim S1x128 ![1]) (x : S128.Idx → α) (u : Fin 1) (j : Fin 128) :
    broadcastInDim S1x128 ![1] h x (ix2 u j) = x (ix1 j) :=
  broadcastInDim_apply _ h x (ix2 u j) (ix1 j) (fun a => match a with
    | ⟨0, _⟩ => by show j.val = if (128 : Nat) = 1 then 0 else j.val; rw [if_neg (by decide)])

/-- and the row repeated over the 100000 rows reads, at (i, j), its entry (0, j). -/
theorem rowsOfRow_apply {α : Type} (h : S1x128.BroadcastsInDim S100000x128 ![0, 1]) (x : S1x128.Idx → α) (i : Fin 100000) (j : Fin 128) :
    broadcastInDim S100000x128 ![0, 1] h x (ix2 i j) = x (ix2 0 j) :=
  broadcastInDim_apply _ h x (ix2 i j) (ix2 0 j) (fun a => match a with
    | ⟨0, _⟩ => by show 0 = if (1 : Nat) = 1 then 0 else i.val; rw [if_pos rfl]
    | ⟨1, _⟩ => by show j.val = if (128 : Nat) = 1 then 0 else j.val; rw [if_neg (by decide)])

/-- The host's sum of the rows: at column j the initial value plus the sum of column j over the rows. -/
theorem hostColSum_apply (x : FVec Ideal S100000x128 .f32) (init : FVec Ideal S_ .f32) (j : Fin 128) :
    Host.reduceAdd x init Cert.ReferenceIdeal.Gen.reducesTo_S100000x128_S128_d0 Cert.ReferenceIdeal.Gen.h_S_ (ix1 j)
      = init ix0 + ∑ i : Fin 100000, x (ix2 i j) := by
  simp only [Host.reduceAdd, Ideal.hostReduceAdd_def]
  rw [Ideal.hostReduceAdd_single Cert.ReferenceIdeal.Gen.reducesTo_S100000x128_S128_d0 (by decide)]
  refine congrArg₂ (· + ·) (congrArg init (funext fun a => a.elim0)) (Finset.sum_congr rfl fun k _ => ?_)
  exact congrArg x (funext fun a => Fin.ext (by match a with | ⟨0, _⟩ => rfl | ⟨1, _⟩ => rfl))

/-- The kernel's ending (column sums divided by the row count, plus the bias row) is the reference's
    (bias added to every row, rows summed, divided by the row count), when the bias row is finite. -/
theorem ending_eq (c : Dev nD) (b : (⟨S128, .f32⟩ : BufTy).Contents (Elt Ideal))
    (hb : ∀ j, ∃ r : ℝ, b j = (r : EReal)) :
    addf (Host.divf ((dat3 V c).arrAt 1 cfg3.N : (⟨S1x128, .f32⟩ : BufTy).Contents (Elt Ideal))
          (broadcastInDim S1x128 ![] Cert.KernelIdeal.Gen.bcast_S_S1x128 (constant (F := Ideal) S_ .f32 0x47C35000#32)))
        (broadcastInDim S1x128 ![1] Cert.KernelIdeal.Gen.bcast_S128_S1x128_1 b)
      = Host.divf (broadcastInDim Cert.ReferenceIdeal.S1x128 ![1] Cert.ReferenceIdeal.Gen.bcast_S128_S1x128_1
            (Host.reduceAdd (addf (V c main_v72 : (⟨S100000x128, .f32⟩ : BufTy).Contents (Elt Ideal))
                (broadcastInDim Cert.ReferenceIdeal.S100000x128 ![0, 1] Cert.ReferenceIdeal.Gen.bcast_S1x128_S100000x128_0_1 (broadcastInDim Cert.ReferenceIdeal.S1x128 ![1] Cert.ReferenceIdeal.Gen.bcast_S128_S1x128_1 b)))
              (constant (F := Ideal) Cert.ReferenceIdeal.S_ .f32 0x00000000#32) Cert.ReferenceIdeal.Gen.reducesTo_S100000x128_S128_d0 Cert.ReferenceIdeal.Gen.h_S_))
          (broadcastInDim Cert.ReferenceIdeal.S1x128 ![] Cert.ReferenceIdeal.Gen.bcast_S_S1x128 (constant (F := Ideal) Cert.ReferenceIdeal.S_ .f32 0x47C35000#32)) := by
  funext y
  obtain ⟨u, j, rfl⟩ : ∃ (u : Fin 1) (j : Fin 128), y = ix2 u j := ⟨y 0, y 1, eq_ix2 y⟩
  obtain ⟨r, hr⟩ := hb (ix1 j)
  have hs : ∀ i : Fin 100000,
      addf (F := Ideal) (φ := .f32) (V c main_v72)
          (broadcastInDim Cert.ReferenceIdeal.S100000x128 ![0, 1] Cert.ReferenceIdeal.Gen.bcast_S1x128_S100000x128_0_1
            (broadcastInDim Cert.ReferenceIdeal.S1x128 ![1] Cert.ReferenceIdeal.Gen.bcast_S128_S1x128_1 b)) (ix2 i j)
        = agg V c (ix2 i j) + (r : EReal) := fun i => by
    rw [addf_apply, rowsOfRow_apply, rowOfVec_apply, hr]
  rw [final3, addf_apply, hostDivf_apply, hostDivf_apply, rowOfScalar_apply, rowOfVec_apply, rowOfVec_apply,
    constant_apply, hundredThousand, Ideal.div_coe (by norm_num), Ideal.div_coe (by norm_num), lastRow_apply,
    hostColSum_apply, constant_apply, Ideal.ofBits_zero_f32, zero_add, hr, Finset.sum_congr rfl fun i _ => hs i,
    Finset.sum_add_distrib, Finset.sum_const, Finset.card_univ, Fintype.card_fin]
  exact (mean_add_const _ r 100000 100000 (by norm_num) (by norm_num)).symm

end Cert.KernelIdeal.HandValue.L3
end
-- ==== Proof.Val.Finite.lean ====
/-
  What the precondition gives the value proof: every entry of the last layer's bias row is a real number.
  The precondition is the conjunction, over the eleven float arguments, of "every entry's absolute value is
  below plus infinity"; the conjunct of the bias row, read at one entry, says that entry is neither
  infinity, and an extended real that is neither infinity is a real.
-/
import proofs.«151026_j58334245814498_1_alg».proof.Defs
import proofs.«151026_j58334245814498_1_alg».proof.Proof.Gen.Pre_finite_inputs
import Idealize.ShloMosaic.Lib.ReduceAll
import Idealize.ShloMosaic.Lib.ValueIdx

set_option maxRecDepth 16384

noncomputable section

namespace Cert.KernelIdeal.HandValue

open Idealize.ShloMosaic Idealize.SL.Sem

/-- The scalar shape has one index. -/
instance : Subsingleton Cert.Pre_finite_inputs.S_.Idx := ⟨fun a b => funext fun d => d.elim0⟩

/-- On one value: if the comparison "absolute value below plus infinity" answers 1, the value is a real number.
    The pattern 0x7F800000 denotes the top element; the absolute value is the larger of x and -x, which is the top
    element at either infinity, and the strict order has nothing above or at the top. -/
theorem real_of_abs_olt_inf (x : Ideal .f32)
    (h : FloatOps.cmpf .olt (FloatOps.hostAbsf x) (FloatOps.ofBits (F := Ideal) .f32 0x7F800000#32) = 1#1) :
    ∃ r : ℝ, (x : EReal) = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | coe r => exact ⟨r, rfl⟩
  | top => simp at h

/-- Under the precondition the last layer's bias row holds real numbers, on every core.
    The precondition's value at the one scalar index is a left-nested conjunction of eleven bits; four conjuncts
    (the last two layers after this one, each a weight and a bias) lie outside the bias row's, which is the right
    operand of the fifth. That bit is the conjunction over the row's 128 entries of the entrywise comparison,
    so the comparison answers 1 at entry j. -/
theorem bias3_real (m : (ℓ : Loc Cert.KernelIdeal.nD Cert.KernelIdeal.τ Cert.KernelIdeal.sig) → Buf (Elt Ideal) ℓ)
    (hpre : Cert.Pre_KernelIdeal m) (c : Dev Cert.KernelIdeal.nD) (j : Cert.KernelIdeal.S128.Idx) :
    ∃ r : ℝ, (m ((c.tc : Thread Cert.KernelIdeal.nD Cert.KernelIdeal.τ).loc Cert.KernelIdeal.main_arg7) : (⟨Cert.KernelIdeal.S128, .f32⟩ : BufTy).Contents (Elt Ideal)) j = (r : EReal) := by
  have h := congrFun (hpre c) ValueIdx.ix0
  dsimp only [Cert.Pre_finite_inputs.fn, Cert.Pre_finite_inputs.fn_part1, Cert.Pre_finite_inputs.fn_part2,
    Cert.Pre_finite_inputs.fn_part3, andi] at h
  obtain ⟨h, -⟩ := IntOp.andi_eq_one.1 h
  obtain ⟨h, -⟩ := IntOp.andi_eq_one.1 h
  obtain ⟨h, -⟩ := IntOp.andi_eq_one.1 h
  obtain ⟨h, -⟩ := IntOp.andi_eq_one.1 h
  obtain ⟨-, h⟩ := IntOp.andi_eq_one.1 h
  have hj := Host.reduce_andi_all _ _ _ _ _ h j
  exact real_of_abs_olt_inf _ hj

end Cert.KernelIdeal.HandValue

end
-- ==== Proof.Val.Bridge.lean ====
/-
  The kernel program's result is the reference's, stage by stage. Both programs begin with the same host
  operations (the edge endpoints with a self loop per node, the degrees, the edge weights) and then run
  three layers of the same shape: a dense transform of the node features, a gather along the edges, the
  weighting, a scatter-add back onto the nodes. The programs differ in where the dense transforms run (in
  the kernel's row-block regions, with the bias add and the clamp at zero of the layer before fused in;
  in the reference as host matrix products after a host bias add and clamp) and in the ending: the kernel
  sums the last aggregate's rows, divides by the row count and adds the last bias row; the reference adds
  the bias to every row, sums, and divides. Walking both programs in step, each buffer the kernel program
  holds between two items equals a stage of the reference applied to the same arguments: the host
  stretches by unfolding both sides (they are the same operations), the regions by the value lemmas of
  their modules, the ending by the one law that uses the finiteness of the last bias row.
-/
import proofs.«151026_j58334245814498_1_alg».proof.Proof.KI.Run
import proofs.«151026_j58334245814498_1_alg».proof.Proof.Val.Value0
import proofs.«151026_j58334245814498_1_alg».proof.Proof.Val.Value1
import proofs.«151026_j58334245814498_1_alg».proof.Proof.Val.Value2
import proofs.«151026_j58334245814498_1_alg».proof.Proof.Val.Value3
import proofs.«151026_j58334245814498_1_alg».proof.Proof.Val.Finite
import proofs.«151026_j58334245814498_1_alg».proof.Proof.Ref.Stages
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.StableHlo
open Cert.ReferenceIdeal.Read

variable (m : (ℓ : Loc nD τ sig) → Buf (Elt Ideal) ℓ)

/-! ## The arguments, and what no item writes -/

/-- Argument 0 on core `c`. -/
abbrev a0 (c : Dev nD) : (⟨S100000x128, .f32⟩ : BufTy).Contents (Elt Ideal) := m ((c.tc : Thread nD τ).loc main_arg0)
/-- Argument 1 on core `c`. -/
abbrev a1 (c : Dev nD) : (⟨S2x1600000, .i32⟩ : BufTy).Contents (Elt Ideal) := m ((c.tc : Thread nD τ).loc main_arg1)
/-- Argument 2 on core `c`. -/
abbrev a2 (c : Dev nD) : (⟨S128x128, .f32⟩ : BufTy).Contents (Elt Ideal) := m ((c.tc : Thread nD τ).loc main_arg2)
/-- Argument 3 on core `c`. -/
abbrev a3 (c : Dev nD) : (⟨S128, .f32⟩ : BufTy).Contents (Elt Ideal) := m ((c.tc : Thread nD τ).loc main_arg3)
/-- Argument 4 on core `c`. -/
abbrev a4 (c : Dev nD) : (⟨S128x128, .f32⟩ : BufTy).Contents (Elt Ideal) := m ((c.tc : Thread nD τ).loc main_arg4)
/-- Argument 5 on core `c`. -/
abbrev a5 (c : Dev nD) : (⟨S128, .f32⟩ : BufTy).Contents (Elt Ideal) := m ((c.tc : Thread nD τ).loc main_arg5)
/-- Argument 6 on core `c`. -/
abbrev a6 (c : Dev nD) : (⟨S128x128, .f32⟩ : BufTy).Contents (Elt Ideal) := m ((c.tc : Thread nD τ).loc main_arg6)
/-- Argument 7 on core `c`. -/
abbrev a7 (c : Dev nD) : (⟨S128, .f32⟩ : BufTy).Contents (Elt Ideal) := m ((c.tc : Thread nD τ).loc main_arg7)
/-- Argument 8 on core `c`. -/
abbrev a8 (c : Dev nD) : (⟨S128x128, .f32⟩ : BufTy).Contents (Elt Ideal) := m ((c.tc : Thread nD τ).loc main_arg8)
/-- Argument 9 on core `c`. -/
abbrev a9 (c : Dev nD) : (⟨S128, .f32⟩ : BufTy).Contents (Elt Ideal) := m ((c.tc : Thread nD τ).loc main_arg9)
/-- Argument 10 on core `c`. -/
abbrev a10 (c : Dev nD) : (⟨S128x1, .f32⟩ : BufTy).Contents (Elt Ideal) := m ((c.tc : Thread nD τ).loc main_arg10)
/-- Argument 11 on core `c`. -/
abbrev a11 (c : Dev nD) : (⟨S1, .f32⟩ : BufTy).Contents (Elt Ideal) := m ((c.tc : Thread nD τ).loc main_arg11)

/-- A host stretch leaves alone what none of its operations writes. -/
theorem U3_of (c : Dev nD) (r : Ref sig .tc) (h : r ∉ hostOps1_W) : U3 m c r = U2 m c r :=
  StableHlo.after_of_writes_sub hostOps1 _ hostOps1_writes h
theorem U5_of (c : Dev nD) (r : Ref sig .tc) (h : r ∉ hostOps2_W) : U5 m c r = U4 m c r :=
  StableHlo.after_of_writes_sub hostOps2 _ hostOps2_writes h
theorem U7_of (c : Dev nD) (r : Ref sig .tc) (h : r ∉ hostOps3_W) : U7 m c r = U6 m c r :=
  StableHlo.after_of_writes_sub hostOps3 _ hostOps3_writes h

/-- A buffer that only the first host stretch writes is carried unchanged to every later item. -/
theorem carried2 (c : Dev nD) (r : Ref sig .tc) (h0 : r ≠ main_v29) : U2 m c r = U1 m c r := kept0 m c r h0
theorem carried3 (c : Dev nD) (r : Ref sig .tc) (h0 : r ≠ main_v29) (h1 : r ∉ hostOps1_W) : U3 m c r = U1 m c r :=
  (U3_of m c r h1).trans (carried2 m c r h0)
theorem carried4 (c : Dev nD) (r : Ref sig .tc) (h0 : r ≠ main_v29) (h1 : r ∉ hostOps1_W) (h2 : r ≠ main_v44) : U4 m c r = U1 m c r :=
  (kept1 m c r h2).trans (carried3 m c r h0 h1)
theorem carried5 (c : Dev nD) (r : Ref sig .tc) (h0 : r ≠ main_v29) (h1 : r ∉ hostOps1_W) (h2 : r ≠ main_v44) (h3 : r ∉ hostOps2_W) : U5 m c r = U1 m c r :=
  (U5_of m c r h3).trans (carried4 m c r h0 h1 h2)
theorem carried6 (c : Dev nD) (r : Ref sig .tc) (h0 : r ≠ main_v29) (h1 : r ∉ hostOps1_W) (h2 : r ≠ main_v44) (h3 : r ∉ hostOps2_W) (h4 : r ≠ main_v59) : U6 m c r = U1 m c r :=
  (kept2 m c r h4).trans (carried5 m c r h0 h1 h2 h3)
theorem carried7 (c : Dev nD) (r : Ref sig .tc) (h0 : r ≠ main_v29) (h1 : r ∉ hostOps1_W) (h2 : r ≠ main_v44) (h3 : r ∉ hostOps2_W) (h4 : r ≠ main_v59) (h5 : r ∉ hostOps3_W) : U7 m c r = U1 m c r :=
  (U7_of m c r h5).trans (carried6 m c r h0 h1 h2 h3 h4)
theorem carried8 (c : Dev nD) (r : Ref sig .tc) (h0 : r ≠ main_v29) (h1 : r ∉ hostOps1_W) (h2 : r ≠ main_v44) (h3 : r ∉ hostOps2_W) (h4 : r ≠ main_v59) (h5 : r ∉ hostOps3_W) (h6 : r ≠ main_v73) : U8 m c r = U1 m c r :=
  (kept3 m c r h6).trans (carried7 m c r h0 h1 h2 h3 h4 h5)

/-- An argument is as launched after the first host stretch. -/
theorem arg1 (c : Dev nD) (r : Ref sig .tc) (h : r ∉ hostOps0_W) : U1 m c r = m ((c.tc : Thread nD τ).loc r) :=
  Gen.V1_of m c r h

/-! ## The shared beginning: edge endpoints with self loops, and the edge weights -/

/-- The source endpoints are the reference's. -/
theorem src_eq (c : Dev nD) : (U1 m c main_v3 : (⟨S1700000, .i32⟩ : BufTy).Contents (Elt Ideal)) = val_main_v3 (F := Ideal) (a1 m c) := by
  show StableHlo.after hostOps0 (fun b => m (c, b)) (Proc.devRef .tc main_v3) = _
  after_results_simp
  simp only [val_main_v3, val_main_v0, val_main_v2, val_main_v1]
  rfl

/-- The target endpoints are the reference's. -/
theorem dst_eq (c : Dev nD) : (U1 m c main_v6 : (⟨S1700000, .i32⟩ : BufTy).Contents (Elt Ideal)) = val_main_v6 (F := Ideal) (a1 m c) := by
  show StableHlo.after hostOps0 (fun b => m (c, b)) (Proc.devRef .tc main_v6) = _
  after_results_simp
  simp only [val_main_v6, val_main_v0, val_main_v5, val_main_v4]
  rfl

set_option maxHeartbeats 2000000 in
/-- The edge weights (the inverse square roots of the two endpoints' degrees, multiplied) are the reference's. -/
theorem norm_eq (c : Dev nD) : (U1 m c main_v28 : (⟨S1700000, .f32⟩ : BufTy).Contents (Elt Ideal)) = val_main_v28 (F := Ideal) (a1 m c) := by
  show StableHlo.after hostOps0 (fun b => m (c, b)) (Proc.devRef .tc main_v28) = _
  after_results_simp
  simp only [val_main_v28, val_main_v27, val_main_v26, val_main_v25, val_main_v6, val_main_v0, val_main_v5, val_main_v4, val_main_v24, val_main_v23, val_main_c_4, val_main_v22, val_main_v21, val_main_c_3, val_main_v13, val_main_v12, val_main_v11, val_main_cst_1, val_main_v10, val_main_v7, val_main_cst, val_main_v9, val_main_v8, val_main_cst_0, val_main_v20, val_main_v19, val_main_v18, val_main_v3, val_main_v2, val_main_v1, val_main_v17, val_main_v16, val_main_c_2, val_main_v15, val_main_v14, val_main_c]
  rfl

/-! ## Layer by layer -/

/-- The first dense transform is the reference's first matrix product. -/
theorem prod0_eq (c : Dev nD) : (arr0 m c : (⟨S100000x128, .f32⟩ : BufTy).Contents (Elt Ideal)) = val_main_v29 (F := Ideal) (a0 m c) (a2 m c) := by
  refine (L0.arr0_eq (E1 m) c).trans ?_
  rw [show E1 m c main_arg0 = a0 m c from arg1 m c main_arg0 (by decide), show E1 m c main_arg2 = a2 m c from arg1 m c main_arg2 (by decide)]
  rfl

set_option maxHeartbeats 2000000 in
/-- The aggregate after the dense transform of layer 1 (gather along the edges, weight, scatter-add onto the nodes) is the reference's. -/
theorem agg1_eq (c : Dev nD) : (U3 m c main_v42 : (⟨S100000x128, .f32⟩ : BufTy).Contents (Elt Ideal)) = val_main_v42 (F := Ideal) (a0 m c) (a1 m c) (a2 m c) := by
  show StableHlo.after hostOps1 (U2 m c) (Proc.devRef .tc main_v42) = _
  after_results_simp
  rw [show U2 m c (Proc.devRef .tc main_v6) = val_main_v6 (F := Ideal) (a1 m c) from (carried2 m c main_v6 (by decide)).trans (dst_eq m c),
    show U2 m c (Proc.devRef .tc main_v28) = val_main_v28 (F := Ideal) (a1 m c) from (carried2 m c main_v28 (by decide)).trans (norm_eq m c),
    show U2 m c (Proc.devRef .tc main_v3) = val_main_v3 (F := Ideal) (a1 m c) from (carried2 m c main_v3 (by decide)).trans (src_eq m c),
    show U2 m c (Proc.devRef .tc main_v29) = val_main_v29 (F := Ideal) (a0 m c) (a2 m c) from (left0 m c).trans (prod0_eq m c)]
  simp only [val_main_v42, val_main_v39, val_main_v37, val_main_v36, val_main_v35, val_main_v34, val_main_v33, val_main_c_6, val_main_v32, val_main_v31, val_main_c_5, val_main_v38, val_main_v30, val_main_v41, val_main_v40, val_main_cst_7]
  rfl

/-- The kernel's bias row of layer 1 (the bias argument laid out as one row) is the reference's. -/
theorem bias1_eq (c : Dev nD) : (U3 m c main_v43 : (⟨S1x128, .f32⟩ : BufTy).Contents (Elt Ideal)) = val_main_v43 (F := Ideal) (a3 m c) := by
  show StableHlo.after hostOps1 (U2 m c) (Proc.devRef .tc main_v43) = _
  after_results_simp
  rw [show U2 m c (Proc.devRef .tc main_arg3) = a3 m c from (carried2 m c main_arg3 (by decide)).trans (arg1 m c main_arg3 (by decide))]
  funext i
  obtain ⟨u, j, rfl⟩ : ∃ (u : Fin 1) (j : Fin 128), i = ValueIdx.ix2 u j := ⟨i 0, i 1, ValueIdx.eq_ix2 i⟩
  rw [val_main_v43_apply]
  refine (ValueIdx.shapeCast_a_1a_apply (a3 m c) _ u j).trans ?_
  exact congrArg (a3 m c) (funext fun a => Fin.ext (by match a with | ⟨0, _⟩ => rfl))

/-- The dense transform of layer 2, applied to the clamped biased aggregate, is the reference's. -/
theorem prod1_eq (c : Dev nD) : (arr1 m c : (⟨S100000x128, .f32⟩ : BufTy).Contents (Elt Ideal)) = val_main_v47 (F := Ideal) (a0 m c) (a1 m c) (a2 m c) (a3 m c) (a4 m c) := by
  refine (L1.arr1_eq (E3 m) c).trans ?_
  rw [show E3 m c main_v42 = val_main_v42 (F := Ideal) (a0 m c) (a1 m c) (a2 m c) from agg1_eq m c,
    show E3 m c main_v43 = val_main_v43 (F := Ideal) (a3 m c) from bias1_eq m c,
    show E3 m c main_arg4 = a4 m c from (carried3 m c main_arg4 (by decide) (by decide)).trans (arg1 m c main_arg4 (by decide))]
  simp only [val_main_v47, val_main_v46, val_main_call0_v0, val_main_call0_cst, val_main_v45, val_main_v44]

set_option maxHeartbeats 2000000 in
/-- The aggregate after the dense transform of layer 2 (gather along the edges, weight, scatter-add onto the nodes) is the reference's. -/
theorem agg2_eq (c : Dev nD) : (U5 m c main_v57 : (⟨S100000x128, .f32⟩ : BufTy).Contents (Elt Ideal)) = val_main_v60 (F := Ideal) (a0 m c) (a1 m c) (a2 m c) (a3 m c) (a4 m c) := by
  show StableHlo.after hostOps2 (U4 m c) (Proc.devRef .tc main_v57) = _
  after_results_simp
  rw [show U4 m c (Proc.devRef .tc main_v6) = val_main_v6 (F := Ideal) (a1 m c) from (carried4 m c main_v6 (by decide) (by decide) (by decide)).trans (dst_eq m c),
    show U4 m c (Proc.devRef .tc main_v28) = val_main_v28 (F := Ideal) (a1 m c) from (carried4 m c main_v28 (by decide) (by decide) (by decide)).trans (norm_eq m c),
    show U4 m c (Proc.devRef .tc main_v3) = val_main_v3 (F := Ideal) (a1 m c) from (carried4 m c main_v3 (by decide) (by decide) (by decide)).trans (src_eq m c),
    show U4 m c (Proc.devRef .tc main_v44) = val_main_v47 (F := Ideal) (a0 m c) (a1 m c) (a2 m c) (a3 m c) (a4 m c) from (left1 m c).trans (prod1_eq m c)]
  simp only [val_main_v60, val_main_v57, val_main_v55, val_main_v54, val_main_v53, val_main_v52, val_main_v51, val_main_c_9, val_main_v50, val_main_v49, val_main_c_8, val_main_v56, val_main_v48, val_main_v59, val_main_v58, val_main_cst_10]
  rfl

/-- The kernel's bias row of layer 2 (the bias argument laid out as one row) is the reference's. -/
theorem bias2_eq (c : Dev nD) : (U5 m c main_v58 : (⟨S1x128, .f32⟩ : BufTy).Contents (Elt Ideal)) = val_main_v61 (F := Ideal) (a5 m c) := by
  show StableHlo.after hostOps2 (U4 m c) (Proc.devRef .tc main_v58) = _
  after_results_simp
  rw [show U4 m c (Proc.devRef .tc main_arg5) = a5 m c from (carried4 m c main_arg5 (by decide) (by decide) (by decide)).trans (arg1 m c main_arg5 (by decide))]
  funext i
  obtain ⟨u, j, rfl⟩ : ∃ (u : Fin 1) (j : Fin 128), i = ValueIdx.ix2 u j := ⟨i 0, i 1, ValueIdx.eq_ix2 i⟩
  rw [val_main_v61_apply]
  refine (ValueIdx.shapeCast_a_1a_apply (a5 m c) _ u j).trans ?_
  exact congrArg (a5 m c) (funext fun a => Fin.ext (by match a with | ⟨0, _⟩ => rfl))

/-- The dense transform of layer 3, applied to the clamped biased aggregate, is the reference's. -/
theorem prod2_eq (c : Dev nD) : (arr2 m c : (⟨S100000x128, .f32⟩ : BufTy).Contents (Elt Ideal)) = val_main_v65 (F := Ideal) (a0 m c) (a1 m c) (a2 m c) (a3 m c) (a4 m c) (a5 m c) (a6 m c) := by
  refine (L2.arr2_eq (E5 m) c).trans ?_
  rw [show E5 m c main_v57 = val_main_v60 (F := Ideal) (a0 m c) (a1 m c) (a2 m c) (a3 m c) (a4 m c) from agg2_eq m c,
    show E5 m c main_v58 = val_main_v61 (F := Ideal) (a5 m c) from bias2_eq m c,
    show E5 m c main_arg6 = a6 m c from (carried5 m c main_arg6 (by decide) (by decide) (by decide) (by decide)).trans (arg1 m c main_arg6 (by decide))]
  simp only [val_main_v65, val_main_v64, val_main_call1_v0, val_main_call1_cst, val_main_v63, val_main_v62]

set_option maxHeartbeats 2000000 in
/-- The aggregate after the dense transform of layer 3 (gather along the edges, weight, scatter-add onto the nodes) is the reference's. -/
theorem agg3_eq (c : Dev nD) : (U7 m c main_v72 : (⟨S100000x128, .f32⟩ : BufTy).Contents (Elt Ideal)) = val_main_v78 (F := Ideal) (a0 m c) (a1 m c) (a2 m c) (a3 m c) (a4 m c) (a5 m c) (a6 m c) := by
  show StableHlo.after hostOps3 (U6 m c) (Proc.devRef .tc main_v72) = _
  after_results_simp
  rw [show U6 m c (Proc.devRef .tc main_v6) = val_main_v6 (F := Ideal) (a1 m c) from (carried6 m c main_v6 (by decide) (by decide) (by decide) (by decide) (by decide)).trans (dst_eq m c),
    show U6 m c (Proc.devRef .tc main_v28) = val_main_v28 (F := Ideal) (a1 m c) from (carried6 m c main_v28 (by decide) (by decide) (by decide) (by decide) (by decide)).trans (norm_eq m c),
    show U6 m c (Proc.devRef .tc main_v3) = val_main_v3 (F := Ideal) (a1 m c) from (carried6 m c main_v3 (by decide) (by decide) (by decide) (by decide) (by decide)).trans (src_eq m c),
    show U6 m c (Proc.devRef .tc main_v59) = val_main_v65 (F := Ideal) (a0 m c) (a1 m c) (a2 m c) (a3 m c) (a4 m c) (a5 m c) (a6 m c) from (left2 m c).trans (prod2_eq m c)]
  simp only [val_main_v78, val_main_v75, val_main_v73, val_main_v72, val_main_v71, val_main_v70, val_main_v69, val_main_c_12, val_main_v68, val_main_v67, val_main_c_11, val_main_v74, val_main_v66, val_main_v77, val_main_v76, val_main_cst_13]
  rfl

/-! ## The two endings, and the result -/

/-- The kernel's ending (the column sums divided by the row count, plus the last bias row) is the reference's
    (the bias added to every row, the rows summed, divided by the row count): here, and only here, the
    precondition enters, as the finiteness of that bias row. -/
theorem ending3_eq (hpre : Cert.Pre_KernelIdeal m) (c : Dev nD) :
    addf (Host.divf (arr3 m c : (⟨S1x128, .f32⟩ : BufTy).Contents (Elt Ideal))
          (broadcastInDim S1x128 ![] Cert.KernelIdeal.Gen.bcast_S_S1x128 (constant (F := Ideal) S_ .f32 0x47C35000#32)))
        (broadcastInDim S1x128 ![1] Cert.KernelIdeal.Gen.bcast_S128_S1x128_1 (a7 m c))
      = val_main_v85 (F := Ideal) (a0 m c) (a1 m c) (a2 m c) (a3 m c) (a4 m c) (a5 m c) (a6 m c) (a7 m c) := by
  refine (L3.ending_eq (E7 m) c (a7 m c) (fun j => bias3_real m hpre c j)).trans ?_
  rw [show E7 m c main_v72 = val_main_v78 (F := Ideal) (a0 m c) (a1 m c) (a2 m c) (a3 m c) (a4 m c) (a5 m c) (a6 m c) from agg3_eq m c]
  simp only [val_main_v85, val_main_v84, val_main_cst_15, val_main_v83, val_main_v82, val_main_cst_14, val_main_v81, val_main_v80, val_main_v79]

set_option maxHeartbeats 2000000 in
/-- THE RESULT. Under the precondition the kernel program's result, read off the last valuation, is the
    reference's last stage applied to the same twelve arguments. -/
theorem result_eq (hpre : Cert.Pre_KernelIdeal m) (c : Dev nD) :
    (Ulast m c main_v84 : (⟨S1x1, .f32⟩ : BufTy).Contents (Elt Ideal)) = val_main_v92 (F := Ideal) (a0 m c) (a1 m c) (a2 m c) (a3 m c) (a4 m c) (a5 m c) (a6 m c) (a7 m c) (a8 m c) (a9 m c) (a10 m c) (a11 m c) := by
  show StableHlo.after hostOps4_2 (StableHlo.after hostOps4_1 (StableHlo.after hostOps4 (Gen.V8 m (outs m) c))) (Proc.devRef .tc main_v84) = _
  rw [V8_eq]
  after_results_simp
  rw [show U8 m c (Proc.devRef .tc main_v73) = arr3 m c from left3 m c,
    show U8 m c (Proc.devRef .tc main_arg7) = a7 m c from (carried8 m c main_arg7 (by decide) (by decide) (by decide) (by decide) (by decide) (by decide) (by decide)).trans (arg1 m c main_arg7 (by decide)),
    show U8 m c (Proc.devRef .tc main_arg8) = a8 m c from (carried8 m c main_arg8 (by decide) (by decide) (by decide) (by decide) (by decide) (by decide) (by decide)).trans (arg1 m c main_arg8 (by decide)),
    show U8 m c (Proc.devRef .tc main_arg9) = a9 m c from (carried8 m c main_arg9 (by decide) (by decide) (by decide) (by decide) (by decide) (by decide) (by decide)).trans (arg1 m c main_arg9 (by decide)),
    show U8 m c (Proc.devRef .tc main_arg10) = a10 m c from (carried8 m c main_arg10 (by decide) (by decide) (by decide) (by decide) (by decide) (by decide) (by decide)).trans (arg1 m c main_arg10 (by decide)),
    show U8 m c (Proc.devRef .tc main_arg11) = a11 m c from (carried8 m c main_arg11 (by decide) (by decide) (by decide) (by decide) (by decide) (by decide) (by decide)).trans (arg1 m c main_arg11 (by decide))]
  simp only [val_main_v92, val_main_v91, val_main_v90, val_main_v89, val_main_call2_v0, val_main_call2_cst, val_main_v88, val_main_v87, val_main_v86]
  rw [← ending3_eq m hpre c]
  rfl

/-- The kernel program's run with its result named: every weakly fair execution terminates with the result
    buffer at the last valuation's entry and the arguments as launched. -/
theorem run_value (ρ : Dev nD → PrngReg) : θ_run defs (onTc (τ := τ) (main (F := Ideal))) ⟨m, fun _ => 0, ρ⟩ (fun r => ∀ c : Dev nD,
      r.2.mem ((c.tc : Thread nD τ).loc main_v84) = Ulast m c main_v84
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨h c _ (mem_uc main_v84 (by decide)),
    (h c _ (mem_uc main_arg0 (by decide))).trans (V11_main_arg0 m (outs m) c),
    (h c _ (mem_uc main_arg1 (by decide))).trans (V11_main_arg1 m (outs m) c),
    (h c _ (mem_uc main_arg2 (by decide))).trans (V11_main_arg2 m (outs m) c),
    (h c _ (mem_uc main_arg3 (by decide))).trans (V11_main_arg3 m (outs m) c),
    (h c _ (mem_uc main_arg4 (by decide))).trans (V11_main_arg4 m (outs m) c),
    (h c _ (mem_uc main_arg5 (by decide))).trans (V11_main_arg5 m (outs m) c),
    (h c _ (mem_uc main_arg6 (by decide))).trans (V11_main_arg6 m (outs m) c),
    (h c _ (mem_uc main_arg7 (by decide))).trans (V11_main_arg7 m (outs m) c),
    (h c _ (mem_uc main_arg8 (by decide))).trans (V11_main_arg8 m (outs m) c),
    (h c _ (mem_uc main_arg9 (by decide))).trans (V11_main_arg9 m (outs m) c),
    (h c _ (mem_uc main_arg10 (by decide))).trans (V11_main_arg10 m (outs m) c),
    (h c _ (mem_uc main_arg11 (by decide))).trans (V11_main_arg11 m (outs m) c)⟩) (run_all m ρ)

end Cert.KernelIdeal.HandValue

end
-- ==== Proof.lean ====
/-
  The proof of the claim: two programs computing a graph network's scalar prediction (three graph
  convolution layers with symmetric degree normalisation, a mean over the nodes, a two-layer head) agree
  over the extended reals under the precondition that every float input is finite.

  The kernel program runs its three dense transforms and the final sum over the nodes as four pipelined
  regions of 20 row blocks each, among stretches of host operations. Its frame (at the word-level instance
  and at the ideal one) is one launch of the whole program as a list of segments: between two items every
  unscoped buffer is held at a named valuation, the regions entering as records over those thread states
  (Proof/K/Run.lean, Proof/KI/Run.lean, over the region modules beside them). The same launch names the
  result's value. The reference's frame and value are its generated run. The two values agree stage by
  stage (Proof/Val/Bridge.lean): the host stretches are the same operations, each dense transform's array
  is the matrix product of the same operands (Proof/Val/Value0.lean, Value1.lean, Value2.lean), and the
  two endings differ by moving the addition of a finite bias row across a sum and a division by the node
  count (Proof/Val/Value3.lean, with Proof/Val/Finite.lean for the finiteness). The idealization rewrote
  no operation, so the kernel program read at the ideal instance is its sanctioned idealization outright.
-/
import proofs.«151026_j58334245814498_1_alg».proof.Defs
import proofs.«151026_j58334245814498_1_alg».proof.Proof.Gen.Kernel
import proofs.«151026_j58334245814498_1_alg».proof.Proof.Gen.KernelIdeal
import proofs.«151026_j58334245814498_1_alg».proof.Proof.Gen.ReferenceIdeal
import proofs.«151026_j58334245814498_1_alg».proof.Proof.Gen.Pre_finite_inputs
import proofs.«151026_j58334245814498_1_alg».proof.Proof.K.Run
import proofs.«151026_j58334245814498_1_alg».proof.Proof.KI.Run
import proofs.«151026_j58334245814498_1_alg».proof.Proof.Ref.Stages
import proofs.«151026_j58334245814498_1_alg».proof.Proof.Val.Bridge
import Idealize.ShloMosaic.Adequacy
import Idealize.ShloMosaic.Init

noncomputable section

namespace Cert.Proof

open Idealize.ShloMosaic Idealize.ShloMosaic.TcCoe Idealize.SL.Sem

/-- The word-level kernel program terminates, faults nowhere, and leaves its arguments as launched. -/
theorem frame_kernel : Cert.frame_Kernel := fun m ρ _ => Cert.Kernel.Hand.frame m ρ

/-- So does the kernel program read over the extended reals. -/
theorem frame_kernelIdeal : Cert.frame_KernelIdeal := fun m ρ _ => Cert.KernelIdeal.Hand.frame m ρ

/-- The reference is host operations only: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end at one value: the kernel program's result
    read off its last valuation, which is the reference's last stage of the same arguments. -/
theorem algebraic : Cert.algebraic_KernelIdeal_ReferenceIdeal := by
  intro m ρ m' ρ' hpre hagree
  refine ⟨fun c => Cert.KernelIdeal.Hand.Ulast m c Cert.KernelIdeal.main_v84, Cert.KernelIdeal.HandValue.run_value m ρ, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v92_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2.1, (hagree c).2.2.2.2.2.2.2.2.2.2.1,
    (hagree c).2.2.2.2.2.2.2.2.2.2.2]
  exact (Cert.KernelIdeal.HandValue.result_eq m hpre c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
